-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v57) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x256 : Shape := ⟨3, ![32, 2048, 256]⟩
abbrev S32 : Shape := ⟨1, ![32]⟩
abbrev S1x32x256 : Shape := ⟨3, ![1, 32, 256]⟩
abbrev S256x256 : Shape := ⟨2, ![256, 256]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S1x32x256 : S_.BroadcastsInDim S1x32x256 (![] : Fin 0 → Fin S1x32x256.rank)
  reducesTo_S1x32x256_S_d0_1_2 : S1x32x256.ReducesTo [0, 1, 2] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256x256 .f32) (main_arg6 : FVec F S256x256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  main_v28

def fn {F : FTy → Type} [FloatOps F] (main_arg0 : FVec F S32x2048x256 .f32) (main_arg1 : IVec S32 32) (main_arg2 : FVec F S1x32x256 .f32) (main_arg3 : FVec F S256x256 .f32) (main_arg4 : FVec F S256x256 .f32) (main_arg5 : FVec F S256x256 .f32) (main_arg6 : FVec F S256x256 .f32) : IVec S_ 1 :=
  let main_v0 : FVec F S32x2048x256 .f32 := Host.absf main_arg0
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S1x32x256 .f32 := Host.absf main_arg2
  let main_cst_0 : FVec F S_ .f32 := constant S_ .f32 0x7F800000#32
  let main_v5 : FVec F S1x32x256 .f32 := broadcastInDim S1x32x256 ![] bcast_S_S1x32x256 main_cst_0
  let main_v6 : IVec S1x32x256 1 := cmpf .olt main_v4 main_v5
  let main_c_1 : IVec S_ 1 := constantI S_ 1 1#1
  let main_v7 : IVec S_ 1 := (fun x v => Host.reduce IntOp.andi x v reducesTo_S1x32x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_v13 main_v16
-- ==== Kernel.lean ====
abbrev S32x2048x256 : Shape := ⟨3, ![32, 2048, 256]⟩
abbrev S32 : Shape := ⟨1, ![32]⟩
abbrev S1x32x256 : Shape := ⟨3, ![1, 32, 256]⟩
abbrev S256x256 : Shape := ⟨2, ![256, 256]⟩
abbrev S32x32x256 : Shape := ⟨3, ![32, 32, 256]⟩
abbrev S1x2048x256 : Shape := ⟨3, ![1, 2048, 256]⟩
abbrev S32x256 : Shape := ⟨2, ![32, 256]⟩
abbrev S1 : Shape := ⟨1, ![1]⟩
abbrev S2048x256 : Shape := ⟨2, ![2048, 256]⟩
abbrev S2048x1 : Shape := ⟨2, ![2048, 1]⟩
abbrev S1x2048 : Shape := ⟨2, ![1, 2048]⟩
abbrev S32x1 : Shape := ⟨2, ![32, 1]⟩
abbrev S32x32 : Shape := ⟨2, ![32, 32]⟩
abbrev S2048x32 : Shape := ⟨2, ![2048, 32]⟩
abbrev S32x2048 : Shape := ⟨2, ![32, 2048]⟩
abbrev S_ : Shape := ⟨0, ![]⟩

abbrev nBuf : Space → Nat
  | .hbm => 14
  | .vmem => 10
  | .smem => 1
  | _ => 0

abbrev bufTy : (tb : Table) → Fin (tcTables nBuf tb) → BufTy
  | .hbm, ⟨0, _⟩ => ⟨S32x2048x256, .f32⟩
  | .hbm, ⟨1, _⟩ => ⟨S1x32x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .hbm, ⟨8, _⟩ => ⟨S256x256, .f32⟩
  | .hbm, ⟨9, _⟩ => ⟨S256x256, .f32⟩
  | .hbm, ⟨10, _⟩ => ⟨S32x32x256, .f32⟩
  | .hbm, ⟨11, _⟩ => ⟨S_, .i32⟩
  | .hbm, ⟨12, _⟩ => ⟨S32, .i32⟩
  | .hbm, ⟨13, _⟩ => ⟨S32, .i32⟩
  | .local _ .vmem, ⟨0, _⟩ => ⟨S1x2048x256, .f32⟩
  | .local _ .vmem, ⟨1, _⟩ => ⟨S1x2048x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S1x32x256, .f32⟩
  | .local _ .vmem, ⟨7, _⟩ => ⟨S1x32x256, .f32⟩
  | .local _ .vmem, ⟨8, _⟩ => ⟨S1x32x256, .f32⟩
  | .local _ .vmem, ⟨9, _⟩ => ⟨S32x256, .f32⟩
  | .local _ .smem, ⟨0, _⟩ => ⟨S32, .i32⟩
  | _, _ => ⟨S32x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x32x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x256_S256x256_1_0 : S256x256.Transposes [1, 0] S256x256
  numel1_S1 : S1.numel = 1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x32x256_S1x32x256_0_0_0 : ∀ a, (![0, 0, 0] : Fin 3 → Nat) a + S1x32x256.size a ≤ S1x32x256.size a
  h_S1x32x256 : 0 < S1x32x256.numel
  shapeCasts_S1x32x256_S32x256 : S1x32x256.ShapeCasts S32x256
  iota_S2048x1_d0_w32 : S2048x1.Iotas .tc 32 [0]
  natLt_1_32 : 1 < 32
  broadcasts_S2048x1_S2048x256 : S2048x1.Broadcasts S2048x256
  iota_S1x2048_d1_w32 : S1x2048.Iotas .tc 32 [1]
  iota_S32x1_d0_w32 : S32x1.Iotas .tc 32 [0]
  slices_S32x256_o0_0_S32x32 : S32x256.Slices ![0, 0] S32x32
  slices_S2048x256_o0_0_S2048x32 : S2048x256.Slices ![0, 0] S2048x32
  broadcasts_S32x1_S32x2048 : S32x1.Broadcasts S32x2048
  broadcasts_S1x2048_S32x2048 : S1x2048.Broadcasts S32x2048
  reduces_S32x2048_S32 : S32x2048.Reduces [1] S32
  shapeCasts_S32_S32x1 : S32.ShapeCasts S32x1
  inb_S32x256_S32x32_0_0 : ∀ a, (![0, 0] : Fin 2 → Nat) a + S32x32.size a ≤ S32x256.size a
  h_S32x32 : 0 < S32x32.numel
  shapeCasts_S32x32_S32x32 : S32x32.ShapeCasts S32x32
  slices_S32x256_o0_32_S32x32 : S32x256.Slices ![0, 32] S32x32
  slices_S2048x256_o0_32_S2048x32 : S2048x256.Slices ![0, 32] S2048x32
  inb_S32x256_S32x32_0_32 : ∀ a, (![0, 32] : Fin 2 → Nat) a + S32x32.size a ≤ S32x256.size a
  slices_S32x256_o0_64_S32x32 : S32x256.Slices ![0, 64] S32x32
  slices_S2048x256_o0_64_S2048x32 : S2048x256.Slices ![0, 64] S2048x32
  inb_S32x256_S32x32_0_64 : ∀ a, (![0, 64] : Fin 2 → Nat) a + S32x32.size a ≤ S32x256.size a
  slices_S32x256_o0_96_S32x32 : S32x256.Slices ![0, 96] S32x32
  slices_S2048x256_o0_96_S2048x32 : S2048x256.Slices ![0, 96] S2048x32
  inb_S32x256_S32x32_0_96 : ∀ a, (![0, 96] : Fin 2 → Nat) a + S32x32.size a ≤ S32x256.size a
  slices_S32x256_o0_128_S32x32 : S32x256.Slices ![0, 128] S32x32
  slices_S2048x256_o0_128_S2048x32 : S2048x256.Slices ![0, 128] S2048x32
  inb_S32x256_S32x32_0_128 : ∀ a, (![0, 128] : Fin 2 → Nat) a + S32x32.size a ≤ S32x256.size a
  slices_S32x256_o0_160_S32x32 : S32x256.Slices ![0, 160] S32x32
  slices_S2048x256_o0_160_S2048x32 : S2048x256.Slices ![0, 160] S2048x32
  inb_S32x256_S32x32_0_160 : ∀ a, (![0, 160] : Fin 2 → Nat) a + S32x32.size a ≤ S32x256.size a
  slices_S32x256_o0_192_S32x32 : S32x256.Slices ![0, 192] S32x32
  slices_S2048x256_o0_192_S2048x32 : S2048x256.Slices ![0, 192] S2048x32
  inb_S32x256_S32x32_0_192 : ∀ a, (![0, 192] : Fin 2 → Nat) a + S32x32.size a ≤ S32x256.size a
  slices_S32x256_o0_224_S32x32 : S32x256.Slices ![0, 224] S32x32
  slices_S2048x256_o0_224_S2048x32 : S2048x256.Slices ![0, 224] S2048x32
  inb_S32x256_S32x32_0_224 : ∀ a, (![0, 224] : Fin 2 → Nat) a + S32x32.size a ≤ S32x256.size a
  inb_S32x256_S32x256_0_0 : ∀ a, (![0, 0] : Fin 2 → Nat) a + S32x256.size a ≤ S32x256.size a
  h_S32x256 : 0 < S32x256.numel
  broadcasts_S32x1_S32x256 : S32x1.Broadcasts S32x256
  shapeCasts_S32x256_S1x32x256 : S32x256.ShapeCasts S1x32x256
  bcast_S_S32 : S_.BroadcastsInDim S32 (![] : Fin 0 → Fin S32.rank)
  dot_S2048x256_S256x256_S2048x256_1_0_0_1_n_n_wf : DotDims.WF S2048x256 S256x256 S2048x256 [1] [0] [0] [1] [] []
  dot_S32x256_S256x256_S32x256_1_0_0_1_n_n_wf : DotDims.WF S32x256 S256x256 S32x256 [1] [0] [0] [1] [] []
  dot_S32x32_S2048x32_S32x2048_1_1_0_0_n_n_wf : DotDims.WF S32x32 S2048x32 S32x2048 [1] [1] [0] [0] [] []
  dot_S32x2048_S2048x32_S32x32_1_0_0_1_n_n_wf : DotDims.WF S32x2048 S2048x32 S32x32 [1] [0] [0] [1] [] []
  hrank0 : 0 < grid0.rank
  k0_off1_inb : ∀ i : grid0.Coords, ∀ a, (k0_off1 i) a + S1.size a ≤ S32.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x2048x256.size a
  hwx0_0 : ∀ i : grid0.Coords, EltTy.bits .f32 = 32 ∨ (Rect.block (s := S32x2048x256) S1x2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32x256.size a ≤ S1x32x256.size a
  hwx0_5 : ∀ i : grid0.Coords, EltTy.bits .f32 = 32 ∨ (Rect.block (s := S1x32x256) S1x32x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x256.size a ≤ S32x32x256.size a
  hwx0_6 : ∀ i : grid0.Coords, EltTy.bits .f32 = 32 ∨ (Rect.block (s := S32x32x256) S1x32x256.size (cc0_transform_6 i) (hinb0_6 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x32_S2048x32_S32x2048_1_1_0_0_n_n : DotDims S32x32 S2048x32 S32x2048 where
  lhsContracting := [1]
  rhsContracting := [1]
  lhsNonContracting := [0]
  rhsNonContracting := [0]
  lhsBatch := []
  rhsBatch := []
  wf := dot_S32x32_S2048x32_S32x2048_1_1_0_0_n_n_wf
def dot_S32x2048_S2048x32_S32x32_1_0_0_1_n_n : DotDims S32x2048 S2048x32 S32x32 where
  lhsContracting := [1]
  rhsContracting := [0]
  lhsNonContracting := [0]
  rhsNonContracting := [1]
  lhsBatch := []
  rhsBatch := []
  wf := dot_S32x2048_S2048x32_S32x32_1_0_0_1_n_n_wf

abbrev spec0_0 : Pipeline.WinSpec sig grid0.rank :=
  Pipeline.WinSpec.ofSpec (Memref.whole main_arg0) S1x2048x256.size reads0_0 false false 2 stage0_0 sem0_0 nbuf0_0 hstage0_0

abbrev spec0_1 : Pipeline.WinSpec sig grid0.rank :=
  Pipeline.WinSpec.ofSpec (Memref.whole main_v0) S256x256.size reads0_1 false true 1 stage0_1 sem0_1 nbuf0_1 hstage0_1

abbrev spec0_2 : Pipeline.WinSpec sig grid0.rank :=
  Pipeline.WinSpec.ofSpec (Memref.whole main_v1) S256x256.size reads0_2 false true 1 stage0_2 sem0_2 nbuf0_2 hstage0_2

abbrev spec0_3 : Pipeline.WinSpec sig grid0.rank :=
  Pipeline.WinSpec.ofSpec (Memref.whole main_v2) S256x256.size reads0_3 false true 1 stage0_3 sem0_3 nbuf0_3 hstage0_3

abbrev spec0_4 : Pipeline.WinSpec sig grid0.rank :=
  Pipeline.WinSpec.ofSpec (Memref.whole main_v3) S256x256.size reads0_4 false true 1 stage0_4 sem0_4 nbuf0_4 hstage0_4

abbrev spec0_5 : Pipeline.WinSpec sig grid0.rank :=
  Pipeline.WinSpec.ofSpec (Memref.whole main_arg2) S1x32x256.size reads0_5 false true 1 stage0_5 sem0_5 nbuf0_5 hstage0_5

abbrev spec0_6 : Pipeline.WinSpec sig grid0.rank :=
  Pipeline.WinSpec.ofSpec (Memref.whole main_v4) S1x32x256.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | ⟨_ + 7, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S32x2048x256 : Shape := ⟨3, ![32, 2048, 256]⟩
abbrev S32 : Shape := ⟨1, ![32]⟩
abbrev S1x32x256 : Shape := ⟨3, ![1, 32, 256]⟩
abbrev S256x256 : Shape := ⟨2, ![256, 256]⟩
abbrev S32x32x256 : Shape := ⟨3, ![32, 32, 256]⟩
abbrev S2048 : Shape := ⟨1, ![2048]⟩
abbrev S1x2048 : Shape := ⟨2, ![1, 2048]⟩
abbrev S32x1 : Shape := ⟨2, ![32, 1]⟩
abbrev S32x2048 : Shape := ⟨2, ![32, 2048]⟩
abbrev S32x2048x1 : Shape := ⟨3, ![32, 2048, 1]⟩
abbrev S32x32x8x32 : Shape := ⟨4, ![32, 32, 8, 32]⟩
abbrev S32x8x32x32 : Shape := ⟨4, ![32, 8, 32, 32]⟩
abbrev S32x2048x8x32 : Shape := ⟨4, ![32, 2048, 8, 32]⟩
abbrev S32x8x2048x32 : Shape := ⟨4, ![32, 8, 2048, 32]⟩
abbrev S32x8x32x2048 : Shape := ⟨4, ![32, 8, 32, 2048]⟩
abbrev S_ : Shape := ⟨0, ![]⟩
abbrev S1x32 : Shape := ⟨2, ![1, 32]⟩
abbrev S32x32 : Shape := ⟨2, ![32, 32]⟩
abbrev S32x1x32x1 : Shape := ⟨4, ![32, 1, 32, 1]⟩
abbrev S32x1x1x2048 : Shape := ⟨4, ![32, 1, 1, 2048]⟩
abbrev S32x8x32 : Shape := ⟨3, ![32, 8, 32]⟩
abbrev S32x8x32x1 : Shape := ⟨4, ![32, 8, 32, 1]⟩
abbrev S32x32x1 : Shape := ⟨3, ![32, 32, 1]⟩

abbrev nBuf : Space → Nat
  | .hbm => 71
  | .vmem => 0
  | .smem => 0
  | _ => 0

abbrev bufTy : (tb : Table) → Fin (tcTables nBuf tb) → BufTy
  | .hbm, ⟨0, _⟩ => ⟨S32x2048x256, .f32⟩
  | .hbm, ⟨1, _⟩ => ⟨S32, .i32⟩
  | .hbm, ⟨2, _⟩ => ⟨S1x32x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S32x32x256, .f32⟩
  | .hbm, ⟨8, _⟩ => ⟨S32x32x256, .f32⟩
  | .hbm, ⟨9, _⟩ => ⟨S32x2048x256, .f32⟩
  | .hbm, ⟨10, _⟩ => ⟨S32x2048x256, .f32⟩
  | .hbm, ⟨11, _⟩ => ⟨S2048, .i32⟩
  | .hbm, ⟨12, _⟩ => ⟨S1x2048, .i32⟩
  | .hbm, ⟨13, _⟩ => ⟨S32x1, .i32⟩
  | .hbm, ⟨14, _⟩ => ⟨S32x2048, .i32⟩
  | .hbm, ⟨15, _⟩ => ⟨S32x2048, .i32⟩
  | .hbm, ⟨16, _⟩ => ⟨S32x2048, .i1⟩
  | .hbm, ⟨17, _⟩ => ⟨S32x2048, .f32⟩
  | .hbm, ⟨18, _⟩ => ⟨S32x2048x1, .f32⟩
  | .hbm, ⟨19, _⟩ => ⟨S32x2048x256, .f32⟩
  | .hbm, ⟨20, _⟩ => ⟨S32x2048x256, .f32⟩
  | .hbm, ⟨21, _⟩ => ⟨S32x2048x1, .f32⟩
  | .hbm, ⟨22, _⟩ => ⟨S32x2048x256, .f32⟩
  | .hbm, ⟨23, _⟩ => ⟨S32x2048x256, .f32⟩
  | .hbm, ⟨24, _⟩ => ⟨S32x32x8x32, .f32⟩
  | .hbm, ⟨25, _⟩ => ⟨S32x8x32x32, .f32⟩
  | .hbm, ⟨26, _⟩ => ⟨S32x2048x8x32, .f32⟩
  | .hbm, ⟨27, _⟩ => ⟨S32x8x2048x32, .f32⟩
  | .hbm, ⟨28, _⟩ => ⟨S32x2048x8x32, .f32⟩
  | .hbm, ⟨29, _⟩ => ⟨S32x8x2048x32, .f32⟩
  | .hbm, ⟨30, _⟩ => ⟨S32x8x32x2048, .f32⟩
  | .hbm, ⟨31, _⟩ => ⟨S_, .f32⟩
  | .hbm, ⟨32, _⟩ => ⟨S32x8x32x2048, .f32⟩
  | .hbm, ⟨33, _⟩ => ⟨S32x8x32x2048, .f32⟩
  | .hbm, ⟨34, _⟩ => ⟨S32x8x32x2048, .f32⟩
  | .hbm, ⟨35, _⟩ => ⟨S32, .i32⟩
  | .hbm, ⟨36, _⟩ => ⟨S1x32, .i32⟩
  | .hbm, ⟨37, _⟩ => ⟨S32x1, .i32⟩
  | .hbm, ⟨38, _⟩ => ⟨S32x32, .i32⟩
  | .hbm, ⟨39, _⟩ => ⟨S32x32, .i32⟩
  | .hbm, ⟨40, _⟩ => ⟨S32x32, .i1⟩
  | .hbm, ⟨41, _⟩ => ⟨S32x32, .f32⟩
  | .hbm, ⟨42, _⟩ => ⟨S32x1x32x1, .f32⟩
  | .hbm, ⟨43, _⟩ => ⟨S32x8x32x2048, .f32⟩
  | .hbm, ⟨44, _⟩ => ⟨S32x8x32x2048, .f32⟩
  | .hbm, ⟨45, _⟩ => ⟨S32x1x1x2048, .f32⟩
  | .hbm, ⟨46, _⟩ => ⟨S32x8x32x2048, .f32⟩
  | .hbm, ⟨47, _⟩ => ⟨S32x8x32x2048, .f32⟩
  | .hbm, ⟨48, _⟩ => ⟨S_, .f32⟩
  | .hbm, ⟨49, _⟩ => ⟨S32x8x32, .f32⟩
  | .hbm, ⟨50, _⟩ => ⟨S32x8x32x1, .f32⟩
  | .hbm, ⟨51, _⟩ => ⟨S_, .f32⟩
  | .hbm, ⟨52, _⟩ => ⟨S32x8x32x1, .f32⟩
  | .hbm, ⟨53, _⟩ => ⟨S32x8x32x1, .f32⟩
  | .hbm, ⟨54, _⟩ => ⟨S32x8x32x2048, .f32⟩
  | .hbm, ⟨55, _⟩ => ⟨S32x8x32x2048, .f32⟩
  | .hbm, ⟨56, _⟩ => ⟨S32x8x32x32, .f32⟩
  | .hbm, ⟨57, _⟩ => ⟨S32x8x32x32, .f32⟩
  | .hbm, ⟨58, _⟩ => ⟨S32x32x8x32, .f32⟩
  | .hbm, ⟨59, _⟩ => ⟨S32x32x256, .f32⟩
  | .hbm, ⟨60, _⟩ => ⟨S32x32x256, .f32⟩
  | .hbm, ⟨61, _⟩ => ⟨S_, .f32⟩
  | .hbm, ⟨62, _⟩ => ⟨S32x32x256, .f32⟩
  | .hbm, ⟨63, _⟩ => ⟨S32x32x256, .f32⟩
  | .hbm, ⟨64, _⟩ => ⟨S32x32x256, .f32⟩
  | .hbm, ⟨65, _⟩ => ⟨S32x32x1, .f32⟩
  | .hbm, ⟨66, _⟩ => ⟨S32x32x256, .f32⟩
  | .hbm, ⟨67, _⟩ => ⟨S32x32x256, .f32⟩
  | .hbm, ⟨68, _⟩ => ⟨S_, .i32⟩
  | .hbm, ⟨69, _⟩ => ⟨S32, .i32⟩
  | .hbm, ⟨70, _⟩ => ⟨S32, .i32⟩
  | _, _ => ⟨S32x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_0 : Ref sig .tc := ⟨.hbm, 48, rfl⟩
abbrev main_v40 : Ref sig .tc := ⟨.hbm, 49, rfl⟩
abbrev main_v41 : Ref sig .tc := ⟨.hbm, 50, rfl⟩
abbrev main_cst_1 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_call0_cst : Ref sig .tc := ⟨.hbm, 61, rfl⟩
abbrev main_call0_v0 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_c : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]

class Facts₀ : Prop where
  bcast_S1x32x256_S32x32x256_0_1_2 : S1x32x256.BroadcastsInDim S32x32x256 (![0, 1, 2] : Fin 3 → Fin S32x32x256.rank)
  bcast_S2048_S1x2048_1 : S2048.BroadcastsInDim S1x2048 (![1] : Fin 1 → Fin S1x2048.rank)
  bcast_S32_S32x1_0 : S32.BroadcastsInDim S32x1 (![0] : Fin 1 → Fin S32x1.rank)
  bcast_S1x2048_S32x2048_0_1 : S1x2048.BroadcastsInDim S32x2048 (![0, 1] : Fin 2 → Fin S32x2048.rank)
  bcast_S32x1_S32x2048_0_1 : S32x1.BroadcastsInDim S32x2048 (![0, 1] : Fin 2 → Fin S32x2048.rank)
  bcast_S32x2048_S32x2048x1_0_1 : S32x2048.BroadcastsInDim S32x2048x1 (![0, 1] : Fin 2 → Fin S32x2048x1.rank)
  bcast_S32x2048x1_S32x2048x256_0_1_2 : S32x2048x1.BroadcastsInDim S32x2048x256 (![0, 1, 2] : Fin 3 → Fin S32x2048x256.rank)
  shapeCasts_S32x32x256_S32x32x8x32 : S32x32x256.ShapeCasts S32x32x8x32
  transposes_S32x32x8x32_S32x8x32x32_0_2_1_3 : S32x32x8x32.Transposes [0, 2, 1, 3] S32x8x32x32
  shapeCasts_S32x2048x256_S32x2048x8x32 : S32x2048x256.ShapeCasts S32x2048x8x32
  transposes_S32x2048x8x32_S32x8x2048x32_0_2_1_3 : S32x2048x8x32.Transposes [0, 2, 1, 3] S32x8x2048x32
  bcast_S_S32x8x32x2048 : S_.BroadcastsInDim S32x8x32x2048 (![] : Fin 0 → Fin S32x8x32x2048.rank)
  bcast_S32_S1x32_1 : S32.BroadcastsInDim S1x32 (![1] : Fin 1 → Fin S1x32.rank)
  bcast_S1x32_S32x32_0_1 : S1x32.BroadcastsInDim S32x32 (![0, 1] : Fin 2 → Fin S32x32.rank)
  bcast_S32x1_S32x32_0_1 : S32x1.BroadcastsInDim S32x32 (![0, 1] : Fin 2 → Fin S32x32.rank)
  bcast_S32x32_S32x1x32x1_0_2 : S32x32.BroadcastsInDim S32x1x32x1 (![0, 2] : Fin 2 → Fin S32x1x32x1.rank)
  bcast_S32x1x32x1_S32x8x32x2048_0_1_2_3 : S32x1x32x1.BroadcastsInDim S32x8x32x2048 (![0, 1, 2, 3] : Fin 4 → Fin S32x8x32x2048.rank)
  bcast_S32x2048_S32x1x1x2048_0_3 : S32x2048.BroadcastsInDim S32x1x1x2048 (![0, 3] : Fin 2 → Fin S32x1x1x2048.rank)
  bcast_S32x1x1x2048_S32x8x32x2048_0_1_2_3 : S32x1x1x2048.BroadcastsInDim S32x8x32x2048 (![0, 1, 2, 3] : Fin 4 → Fin S32x8x32x2048.rank)
  reducesTo_S32x8x32x2048_S32x8x32_d3 : S32x8x32x2048.ReducesTo [3] S32x8x32
  h_S_ : 0 < S_.numel
  bcast_S32x8x32_S32x8x32x1_0_1_2 : S32x8x32.BroadcastsInDim S32x8x32x1 (![0, 1, 2] : Fin 3 → Fin S32x8x32x1.rank)
  bcast_S_S32x8x32x1 : S_.BroadcastsInDim S32x8x32x1 (![] : Fin 0 → Fin S32x8x32x1.rank)
  bcast_S32x8x32x1_S32x8x32x2048_0_1_2_3 : S32x8x32x1.BroadcastsInDim S32x8x32x2048 (![0, 1, 2, 3] : Fin 4 → Fin S32x8x32x2048.rank)
  transposes_S32x8x32x32_S32x32x8x32_0_2_1_3 : S32x8x32x32.Transposes [0, 2, 1, 3] S32x32x8x32
  shapeCasts_S32x32x8x32_S32x32x256 : S32x32x8x32.ShapeCasts S32x32x256
  bcast_S_S32x32x256 : S_.BroadcastsInDim S32x32x256 (![] : Fin 0 → Fin S32x32x256.rank)
  bcast_S32x32_S32x32x1_0_1 : S32x32.BroadcastsInDim S32x32x1 (![0, 1] : Fin 2 → Fin S32x32x1.rank)
  bcast_S32x32x1_S32x32x256_0_1_2 : S32x32x1.BroadcastsInDim S32x32x256 (![0, 1, 2] : Fin 3 → Fin S32x32x256.rank)
  bcast_S_S32 : S_.BroadcastsInDim S32 (![] : Fin 0 → Fin S32.rank)
  dot_S32x32x256_S256x256_S32x32x256_2_1_01_0_n_n_wf : DotDims.WF S32x32x256 S256x256 S32x32x256 [2] [1] [0, 1] [0] [] []
  dot_S32x2048x256_S256x256_S32x2048x256_2_1_01_0_n_n_wf : DotDims.WF S32x2048x256 S256x256 S32x2048x256 [2] [1] [0, 1] [0] [] []
  dot_S32x8x32x32_S32x8x2048x32_S32x8x32x2048_3_3_2_2_01_01_wf : DotDims.WF S32x8x32x32 S32x8x2048x32 S32x8x32x2048 [3] [3] [2] [2] [0, 1] [0, 1]
  dot_S32x8x32x2048_S32x8x2048x32_S32x8x32x32_3_2_2_3_01_01_wf : DotDims.WF S32x8x32x2048 S32x8x2048x32 S32x8x32x32 [3] [2] [2] [3] [0, 1] [0, 1]

variable [Facts₀]

def dot_S32x32x256_S256x256_S32x32x256_2_1_01_0_n_n : DotDims S32x32x256 S256x256 S32x32x256 where
  lhsContracting := [2]
  rhsContracting := [1]
  lhsNonContracting := [0, 1]
  rhsNonContracting := [0]
  lhsBatch := []
  rhsBatch := []
  wf := dot_S32x32x256_S256x256_S32x32x256_2_1_01_0_n_n_wf
def dot_S32x2048x256_S256x256_S32x2048x256_2_1_01_0_n_n : DotDims S32x2048x256 S256x256 S32x2048x256 where
  lhsContracting := [2]
  rhsContracting := [1]
  lhsNonContracting := [0, 1]
  rhsNonContracting := [0]
  lhsBatch := []
  rhsBatch := []
  wf := dot_S32x2048x256_S256x256_S32x2048x256_2_1_01_0_n_n_wf
def dot_S32x8x32x32_S32x8x2048x32_S32x8x32x2048_3_3_2_2_01_01 : DotDims S32x8x32x32 S32x8x2048x32 S32x8x32x2048 where
  lhsContracting := [3]
  rhsContracting := [3]
  lhsNonContracting := [2]
  rhsNonContracting := [2]
  lhsBatch := [0, 1]
  rhsBatch := [0, 1]
  wf := dot_S32x8x32x32_S32x8x2048x32_S32x8x32x2048_3_3_2_2_01_01_wf
def dot_S32x8x32x2048_S32x8x2048x32_S32x8x32x32_3_2_2_3_01_01 : DotDims S32x8x32x2048 S32x8x2048x32 S32x8x32x32 where
  lhsContracting := [3]
  rhsContracting := [2]
  lhsNonContracting := [2]
  rhsNonContracting := [3]
  lhsBatch := [0, 1]
  rhsBatch := [0, 1]
  wf := dot_S32x8x32x2048_S32x8x2048x32_S32x8x32x32_3_2_2_3_01_01_wf

class Facts : Prop extends Facts₀ where

variable [Facts]
-- ==== Proof.KB.Body.lean ====
/-
  The kernel body of the pooling-attention pipeline, run once at a symbolic grid point.

  One grid point handles one batch element: the body reads that element's length from the prefetched
  table, loads the element's block of x, the four transposed weight matrices and the seed block,
  computes the eight attention heads into a scratch buffer column slab by column slab, reads the scratch
  back whole, and stores the gated residual block into the output window.  What the output's staging
  buffer holds afterwards is a pure term of the table and of the six input blocks: the witness of the
  subtype below.
-/
import proofs.«416182_j80152679678423_1_alg».proof.Proof.Gen.Kernel.Skeleton
import Idealize.ShloMosaic.Lib.Tactic
import Idealize.ShloMosaic.Lib.Pipeline.Kit
import Idealize.ShloMosaic.Lib.Pipeline.Value
import Idealize.ShloMosaic.Lib.Ring
import Idealize.ShloMosaic.Lib.ValueIdx

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The lengths table and the scratch buffer, as whole memrefs. -/
abbrev Mtab : Memref sig .tc .smem S32 .i32 := Memref.whole main_arg1
abbrev Mscr : Memref sig .tc .vmem S32x256 .f32 := Memref.whole cc0_scratch0

set_option maxHeartbeats 4000000 in
/-- What the body leaves in the output window's staging buffer `M8`, WITH the proof that from the table,
    the six input staging buffers (at `f1`, `f2 … f7`), the output buffer and the scratch held whole,
    the kernel runs to its return handing everything back, the output buffer at the witness, the scratch
    at something. -/
noncomputable def kernelRun (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    { W : Bf (F := F) c M8 //
      ∀ (f8 : Bf (F := F) c M8) (f9 : Bf (F := F) c Mscr) (E : Set ℕ) (Q : PUnit → sProp 𝕄),
        iprop(pt c Mtab f1 ∗ pt c M2 f2 ∗ pt c M3 f3 ∗ pt c M4 f4 ∗ pt c M5 f5 ∗ pt c M6 f6 ∗ pt c M7 f7 ∗ pt c M8 f8 ∗ pt c Mscr f9
          ∗ (iprop(pt c Mtab f1 ∗ pt c M2 f2 ∗ pt c M3 f3 ∗ pt c M4 f4 ∗ pt c M5 f5 ∗ pt c M6 f6 ∗ pt c M7 f7 ∗ pt c M8 W
                ∗ (∃ f, pt c Mscr f)) -∗ Q ⟨⟩))
        ⊢ wp frame (wpE (defs₀ (F := F)) Variants.none c none) E
            (cc0__pma_kernel i Mtab (Memref.isWhole_whole _) M2 h2 M3 h3 M4 h4 M5 h5 M6 h6 M7 h7 M8 h8 Mscr (Memref.isWhole_whole _)) Q } := by
  refine ⟨?_, fun f8 f9 E Q => ?run⟩
  case run =>
    iintro ⟨H1, H2, H3, H4, H5, H6, H7, H8, H9, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-! ## What the witness is

The run's witness, read: the output payload over the six loaded blocks and the table word, the scratch read back
whole after the eight slab stores being ONE function of the scratch index — at a column of slab `h` (columns
`32 h … 32 h + 31`) head `h`'s payload. -/

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the buffer's contents through the view. -/
theorem readAt_unit_zero {sig' : RefSig} {κ : Kind} {sp : Space} {S : Shape} {e : EltTy} (v : View sig' κ sp S e)
    {off : Fin S.rank → Nat} (h : off = fun _ => 0) (inb : ∀ a, off a + S.size a ≤ S.size a) (f : v.ty.Contents (Elt F)) :
    v.readAt (Elt F) (Rect.unit off S.size inb).toLoadRect f = v.read (Elt F) f := by
  rw [View.readAt_eq_ld, View.ld_unit_zero h]

/-- The slab a scratch column lies in, and the column's place in its slab. -/
def colHead (j : S32x256.Idx) : Fin 8 := ⟨(j 1).val / 32, by have := idx2_lt1 j; omega⟩
def colIn (j : S32x256.Idx) : S32x32.Idx :=
  ix2 (n0 := 32) (n1 := 32) ⟨(j 0).val, idx2_lt0 j⟩ ⟨(j 1).val % 32, Nat.mod_lt _ (by decide)⟩

/-- Eight `32 × 32` blocks side by side as one `32 × 256` block: block `h` in columns `32 h … 32 h + 31`. -/
def slabs (P : Fin 8 → Vec F S32x32 .f32) : Vec F S32x256 .f32 := fun j => P (colHead j) (colIn j)

theorem slabs_apply (P : Fin 8 → Vec F S32x32 .f32) (h : Fin 8) (s d : Fin 32) :
    slabs P (ix2 (n0 := 32) (n1 := 256) s ⟨32 * h.val + d.val, by have := h.isLt; have := d.isLt; omega⟩) = P h (ix2 s d) := by
  have e1 : colHead (ix2 (n0 := 32) (n1 := 256) s ⟨32 * h.val + d.val, by have := h.isLt; have := d.isLt; omega⟩) = h := by
    apply Fin.ext; show (32 * h.val + d.val) / 32 = h.val; have := d.isLt; omega
  have e2 : colIn (ix2 (n0 := 32) (n1 := 256) s ⟨32 * h.val + d.val, by have := h.isLt; have := d.isLt; omega⟩) = ix2 s d := by
    funext a
    match a with
    | ⟨0, _⟩ => rfl
    | ⟨1, _⟩ => apply Fin.ext; show (32 * h.val + d.val) % 32 = d.val; have := d.isLt; omega
  show P (colHead _) (colIn _) = _
  rw [e1, e2]

/-- The block stored at column offset `o = 32 k` is block `k` of the side-by-side function. -/
theorem slabs_emb (P : Fin 8 → Vec F S32x32 .f32) (k : Fin 8) (o : Nat) (ho : o = 32 * k.val)
    (ik : ∀ a, (![0, o] : Fin 2 → Nat) a + S32x32.size a ≤ S32x256.size a)
    (x : (Rect.unit (s := S32x256) ![0, o] S32x32.size ik).shape.Idx) :
    slabs P ((Rect.unit (s := S32x256) ![0, o] S32x32.size ik).emb x) = P k x := by
  subst ho
  have hx1 : (x 1).val < 32 := (x 1).isLt
  have e1 : colHead ((Rect.unit (s := S32x256) ![0, 32 * k.val] S32x32.size ik).emb x) = k := by
    apply Fin.ext; show (32 * k.val + 1 * (x 1).val) / 32 = k.val; omega
  have e2 : colIn ((Rect.unit (s := S32x256) ![0, 32 * k.val] S32x32.size ik).emb x) = x := by
    funext a
    match a with
    | ⟨0, _⟩ => apply Fin.ext; show 0 + 1 * (x 0).val = (x 0).val; omega
    | ⟨1, _⟩ => apply Fin.ext; show (32 * k.val + 1 * (x 1).val) % 32 = (x 1).val; omega
  show P (colHead _) (colIn _) = _
  rw [e1, e2]

/-- A scratch buffer filled by the eight slab stores reads back whole as the side-by-side function, whatever the view. -/
theorem scratch_readback {sig' : RefSig} {κ : Kind} {sp : Space} (v : View sig' κ sp S32x256 .f32) (P : Fin 8 → Vec F S32x32 .f32)
    (i0 : ∀ a, (![0, 0] : Fin 2 → Nat) a + S32x32.size a ≤ S32x256.size a)
    (i1 : ∀ a, (![0, 32] : Fin 2 → Nat) a + S32x32.size a ≤ S32x256.size a)
    (i2 : ∀ a, (![0, 64] : Fin 2 → Nat) a + S32x32.size a ≤ S32x256.size a)
    (i3 : ∀ a, (![0, 96] : Fin 2 → Nat) a + S32x32.size a ≤ S32x256.size a)
    (i4 : ∀ a, (![0, 128] : Fin 2 → Nat) a + S32x32.size a ≤ S32x256.size a)
    (i5 : ∀ a, (![0, 160] : Fin 2 → Nat) a + S32x32.size a ≤ S32x256.size a)
    (i6 : ∀ a, (![0, 192] : Fin 2 → Nat) a + S32x32.size a ≤ S32x256.size a)
    (i7 : ∀ a, (![0, 224] : Fin 2 → Nat) a + S32x32.size a ≤ S32x256.size a)
    (iw : ∀ a, (![0, 0] : Fin 2 → Nat) a + S32x256.size a ≤ S32x256.size a) :
    v.readCov
      [⟨Rect.unit ![0, 224] S32x32.size i7, P ⟨7, by decide⟩⟩, ⟨Rect.unit ![0, 192] S32x32.size i6, P ⟨6, by decide⟩⟩,
       ⟨Rect.unit ![0, 160] S32x32.size i5, P ⟨5, by decide⟩⟩, ⟨Rect.unit ![0, 128] S32x32.size i4, P ⟨4, by decide⟩⟩,
       ⟨Rect.unit ![0, 96] S32x32.size i3, P ⟨3, by decide⟩⟩, ⟨Rect.unit ![0, 64] S32x32.size i2, P ⟨2, by decide⟩⟩,
       ⟨Rect.unit ![0, 32] S32x32.size i1, P ⟨1, by decide⟩⟩, ⟨Rect.unit ![0, 0] S32x32.size i0, P ⟨0, by decide⟩⟩]
      (Rect.unit ![0, 0] S32x256.size iw).toLoadRect = slabs P := by
  refine (View.readCov_eq_canon_ld v _ (Rect.unit ![0, 0] S32x256.size iw) (View.cover_of_tiledL _ S32x32.size (by sl_kernel_rfl))).trans ?_
  rw [View.ld_unit_zero hz2]
  funext j
  refine View.canon_apply_of_pieces (slabs P) _ (fun p hp x => ?_) j (View.cover_of_tiledL (s := S32x256) _ S32x32.size (by sl_kernel_rfl) j)
  simp only [List.mem_cons, List.not_mem_nil, or_false] at hp
  rcases hp with rfl | rfl | rfl | rfl | rfl | rfl | rfl | rfl
  · exact (slabs_emb P ⟨7, by decide⟩ 224 rfl i7 x).symm
  · exact (slabs_emb P ⟨6, by decide⟩ 192 rfl i6 x).symm
  · exact (slabs_emb P ⟨5, by decide⟩ 160 rfl i5 x).symm
  · exact (slabs_emb P ⟨4, by decide⟩ 128 rfl i4 x).symm
  · exact (slabs_emb P ⟨3, by decide⟩ 96 rfl i3 x).symm
  · exact (slabs_emb P ⟨2, by decide⟩ 64 rfl i2 x).symm
  · exact (slabs_emb P ⟨1, by decide⟩ 32 rfl i1 x).symm
  · exact (slabs_emb P ⟨0, by decide⟩ 0 rfl i0 x).symm

/-- The table word the body reads at grid point `i`. -/
def tabWord (c : Dev nD) (i : grid0.Coords) (f1 : Bf (F := F) c Mtab) : Elt F .i32 :=
  View.readAt (Elt F) Mtab.view (Rect.unit (s := S32) (k0_off1 i) S1.size (k0_off1_inb i)).toLoadRect f1
    (Shape.Idx.first (numel1_S1.symm ▸ Nat.one_pos))

/-- The table word read through the table's view: its contents at the grid coordinate. -/
theorem tabWord_read (c : Dev nD) (i : grid0.Coords) (f1 : Bf (F := F) c Mtab) :
    tabWord c i f1 = Mtab.view.read (Elt F) f1 (ix1 (n := 32) ⟨(i 0).val, (i 0).isLt⟩) := by
  unfold tabWord
  rw [View.readAt_eq_ld]
  show Mtab.view.read (Elt F) f1 _ = Mtab.view.read (Elt F) f1 _
  congr 1
  funext a
  apply Fin.ext
  show k0_off1 i a + 1 * 0 = _
  rw [k0_off1_eq]
  match a with
  | ⟨0, _⟩ => rfl

/-- On the one-axis grid the `t`-th point's coordinate is `t`. -/
theorem coords0_val (t : Fin grid0.N) : (grid0.coords t 0).val = t.val := by
  have ht : t.val < 32 := t.isLt
  have hs : grid0.stride 0 = 1 := by decide
  show t.val / grid0.stride 0 % 32 = t.val
  rw [hs]; omega

/-- The table word at the `t`-th grid point in closed form: the table's `t`-th word. -/
theorem tabWord_eq (c : Dev nD) (t : Fin grid0.N) (b : Fin 32) (hb : b.val = t.val) (f1 : Bf (F := F) c Mtab) :
    tabWord c (grid0.coords t) f1 = (f1 : S32.Idx → Elt F .i32) (ix1 b) := by
  rw [tabWord_read]
  show (f1 : S32.Idx → Elt F .i32) _ = (f1 : S32.Idx → Elt F .i32) _
  congr 1
  funext a
  match a with
  | ⟨0, _⟩ => exact Fin.ext ((coords0_val t).trans hb.symm)

/-- The eight heads' payloads, over the projected seed block `v22`, the masked key and value blocks `v32`, `v33`, the key mask
    `v38` and the row mask `v41`. -/
def headPay (v22 : FVec F S32x256 .f32) (v32 v33 : FVec F S2048x256 .bf16) (v38 : FVec F S1x2048 .f32) (v41 : IVec S32x1 1) :
    Fin 8 → Vec F S32x32 .f32 := fun h =>
  match h with
  | ⟨0, _⟩ => k0_pay12 v22 v32 v33 v38 v41
  | ⟨1, _⟩ => k0_pay14 (k0_pay13 v22 v32 v33 v38 v41)
  | ⟨2, _⟩ => k0_pay15 v22 v32 v33 v38 (k0_pay11 (F := F) v41)
  | ⟨3, _⟩ => k0_pay19 (k0_pay16 v22) (k0_pay17 v33) (k0_pay18 v22 v32 v38 (k0_pay11 (F := F) v41))
  | ⟨4, _⟩ => k0_pay20 v22 v32 v33 v38 (k0_pay11 (F := F) v41)
  | ⟨5, _⟩ => k0_pay25 (k0_pay21 v22) (k0_pay22 v33) (k0_pay23 v22 v32 v38 (k0_pay11 (F := F) v41))
      (k0_pay24 v22 v32 v38 (k0_pay11 (F := F) v41)) (Scalar.ofBits .f32 0x26901D7D#32)
  | ⟨6, _⟩ => k0_pay26 v22 v32 v33 v38 (k0_pay11 (F := F) v41)
  | ⟨7, _⟩ => k0_pay1 (k0_pay27 v22) (k0_pay28 v33) (k0_pay29 v22 v32 v38 (k0_pay11 (F := F) v41))

/-- The scratch after the eight heads: head `h`'s payload in columns `32 h … 32 h + 31`. -/
def scratchAfter (v22 : FVec F S32x256 .f32) (v32 v33 : FVec F S2048x256 .bf16) (v38 : FVec F S1x2048 .f32) (v41 : IVec S32x1 1) :
    Vec F S32x256 .f32 := slabs (headPay v22 v32 v33 v38 v41)

theorem scratchAfter_apply (v22 : FVec F S32x256 .f32) (v32 v33 : FVec F S2048x256 .bf16) (v38 : FVec F S1x2048 .f32) (v41 : IVec S32x1 1)
    (h : Fin 8) (s d : Fin 32) :
    scratchAfter v22 v32 v33 v38 v41 (ix2 (n0 := 32) (n1 := 256) s ⟨32 * h.val + d.val, by have := h.isLt; have := d.isLt; omega⟩)
      = headPay v22 v32 v33 v38 v41 h (ix2 s d) :=
  slabs_apply _ h s d

/-- The block the body stores to the output window, over the table word `v1` and the six loaded blocks: `v2` the block of x,
    `v11`, `v5`, `v8`, `v14` the four weight matrices (the second to fifth operands) and `v17` the seed block. -/
def outBlock (v1 : Elt F .i32) (v2 : Vec F S1x2048x256 .f32) (v11 v5 v8 v14 : Vec F S256x256 .f32) (v17 : Vec F S1x32x256 .f32) :
    FVec F S1x32x256 .f32 :=
  k0_pay2 (k0_pay4 v14) (k0_pay11 (F := F) (k0_pay10 v1))
    (scratchAfter (k0_pay5 v11 v17) (k0_pay7 v1 v2 v5) (k0_pay8 v1 v2 v8) (k0_pay9 v1) (k0_pay10 v1))

set_option maxRecDepth 65536 in
/-- The witness of `kernelRun`: the output block written whole through `M8`'s view. -/
theorem kernelRun_val (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    (kernelRun c i M2 h2 M3 h3 M4 h4 M5 h5 M6 h6 M7 h7 M8 h8 f1 f2 f3 f4 f5 f6 f7).1
      = M8.view.writes (Elt F) M8.view.junk
          [⟨Rect.unit ![0, 0, 0] S1x32x256.size inb_S1x32x256_S1x32x256_0_0_0,
            outBlock (tabWord c i f1) (M2.view.read (Elt F) f2) (M3.view.read (Elt F) f3) (M4.view.read (Elt F) f4)
              (M5.view.read (Elt F) f5) (M6.view.read (Elt F) f6) (M7.view.read (Elt F) f7)⟩] := by
  unfold kernelRun
  dsimp only
  sl_unfold_run_names
  simp only [readAt_unit_zero (S := S256x256) _ hz2, readAt_unit_zero (S := S1x2048x256) _ hz3, readAt_unit_zero (S := S1x32x256) _ hz3]
  unfold outBlock scratchAfter
  rw [← scratch_readback Mscr.view _ inb_S32x256_S32x32_0_0 inb_S32x256_S32x32_0_32 inb_S32x256_S32x32_0_64
    inb_S32x256_S32x32_0_96 inb_S32x256_S32x32_0_128 inb_S32x256_S32x32_0_160 inb_S32x256_S32x32_0_192
    inb_S32x256_S32x32_0_224 inb_S32x256_S32x256_0_0]
  rfl

/-- Read back through `M8`'s view, the witness is the output block. -/
theorem kernelRun_read (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    M8.view.read (Elt F) (kernelRun c i M2 h2 M3 h3 M4 h4 M5 h5 M6 h6 M7 h7 M8 h8 f1 f2 f3 f4 f5 f6 f7).1
      = outBlock (tabWord c i f1) (M2.view.read (Elt F) f2) (M3.view.read (Elt F) f3) (M4.view.read (Elt F) f4)
          (M5.view.read (Elt F) f5) (M6.view.read (Elt F) f6) (M7.view.read (Elt F) f7) := by
  rw [kernelRun_val, View.read_writes_junk_eq_canon, View.canon_unit_zero hz3]

end Cert.Kernel.Hand

end
-- ==== Proof.KB.Launch.lean ====
/-
  The launch of the pooling-attention program: the host operations around the one pipelined region, the
  pipeline's proof data, and the run of @main from any launch memory.

  @main transposes the four weight matrices, runs the pipeline over the 32 batch elements with the lengths
  table prefetched into scalar memory, and then clamps the table at 32 into the second result.  The table is
  read by the body at every point and by the last host operation after the region: it enters the body's
  invariant whole at the region's entry and comes back out whole at its exit.
-/
import proofs.«416182_j80152679678423_1_alg».proof.Proof.KB.Body
import proofs.«416182_j80152679678423_1_alg».proof.Proof.Gen.Kernel.Launch
import Idealize.ShloMosaic.Lib.Pipeline.Regions
import Idealize.ShloMosaic.Lib.Pipeline.RegionsLoop
import Idealize.ShloMosaic.Lib.Pipeline.FrameSuffix
import Idealize.ShloMosaic.Lib.Pipeline.FrameBody

noncomputable section

namespace Cert.Kernel.Hand

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table, the pinned pipeline, the buffers at the region's entry -/

/-- The lengths table's contents, read off the launch memory (there is one device). -/
def tbl : pre0.Contents (Elt F) := fun k => m (((0 : Dev nD) : Thread nD τ).loc (pre0.ref k))

/-- They are admissible: the side condition on the table is empty. -/
abbrev adm : (p : Fin 1) → (pcfgs (F := F) p).Adm := fun _ => ⟨tbl m, trivial⟩

/-- The pipeline at the table's contents. -/
abbrev cfgA : Pipeline.Cfg sig Λ₀ := Pipeline.pin (pcfgs (F := F)) (adm m) 0

/-- Core c's buffers at launch, as the host operations' valuation; -/
abbrev V₀ (c : Dev nD) : Valuation τ sig (Elt F) := fun b => m ((c : Dev nD), b)
/-- after the four transposes, when the region is entered; -/
abbrev W1 (c : Dev nD) : Valuation τ sig (Elt F) := StableHlo.after hostOps0 (V₀ m c)
/-- the same read at the TensorCore's references. -/
abbrev V (c : Dev nD) (b : Ref sig .tc) : Buf (Elt F) ((c : Thread nD τ).loc b) := StableHlo.after hostOps0 (V₀ m c) b

/-- The table as the body holds it on core c. -/
abbrev tab (c : Dev nD) : Bf (F := F) c Mtab := V m c main_arg1

/-- No transpose writes anything but its result: every other buffer reaches the region as launched. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, Finset.mem_singleton] <;>
    exact StableHlo.devRef_ne_of_ne ‹_›

theorem V_of_ne (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) hostOps0 (V₀ m c) (not_written0 b hb)

theorem V_arg0 (c : Dev nD) : V m c main_arg0 = m ((c : Thread nD τ).loc main_arg0) := V_of_ne m c main_arg0 (by decide)
theorem V_arg1 (c : Dev nD) : V m c main_arg1 = m ((c : Thread nD τ).loc main_arg1) := V_of_ne m c main_arg1 (by decide)
theorem V_arg2 (c : Dev nD) : V m c main_arg2 = m ((c : Thread nD τ).loc main_arg2) := V_of_ne m c main_arg2 (by decide)

/-- On the one device the table holds, at the region's entry, the contents the pipeline is pinned at. -/
theorem V_pre (c : Dev nD) : (fun k => V m c (pre0.ref k)) = tbl m := by
  funext k
  obtain rfl : c = 0 := Subsingleton.elim _ _
  obtain rfl : k = 0 := Subsingleton.elim _ _
  exact V_arg1 m 0

/-! ## The staging memrefs at a point -/

abbrev st0 (t : Fin (cfgA m).N) : Memref sig .tc .vmem S1x2048x256 .f32 := spec0_0.stage ((cfgA m).slots t 0)
abbrev st1 (t : Fin (cfgA m).N) : Memref sig .tc .vmem S256x256 .f32 := spec0_1.stage ((cfgA m).slots t 1)
abbrev st2 (t : Fin (cfgA m).N) : Memref sig .tc .vmem S256x256 .f32 := spec0_2.stage ((cfgA m).slots t 2)
abbrev st3 (t : Fin (cfgA m).N) : Memref sig .tc .vmem S256x256 .f32 := spec0_3.stage ((cfgA m).slots t 3)
abbrev st4 (t : Fin (cfgA m).N) : Memref sig .tc .vmem S256x256 .f32 := spec0_4.stage ((cfgA m).slots t 4)
abbrev st5 (t : Fin (cfgA m).N) : Memref sig .tc .vmem S1x32x256 .f32 := spec0_5.stage ((cfgA m).slots t 5)
abbrev st6 (t : Fin (cfgA m).N) : Memref sig .tc .vmem S1x32x256 .f32 := spec0_6.stage ((cfgA m).slots t 6)
abbrev hs0 (t : Fin (cfgA m).N) : (st0 m t).IsWhole := hstage0_0 (((cfgA m).slots t 0).cast nbuf0_0)
abbrev hs1 (t : Fin (cfgA m).N) : (st1 m t).IsWhole := hstage0_1 (((cfgA m).slots t 1).cast nbuf0_1)
abbrev hs2 (t : Fin (cfgA m).N) : (st2 m t).IsWhole := hstage0_2 (((cfgA m).slots t 2).cast nbuf0_2)
abbrev hs3 (t : Fin (cfgA m).N) : (st3 m t).IsWhole := hstage0_3 (((cfgA m).slots t 3).cast nbuf0_3)
abbrev hs4 (t : Fin (cfgA m).N) : (st4 m t).IsWhole := hstage0_4 (((cfgA m).slots t 4).cast nbuf0_4)
abbrev hs5 (t : Fin (cfgA m).N) : (st5 m t).IsWhole := hstage0_5 (((cfgA m).slots t 5).cast nbuf0_5)
abbrev hs6 (t : Fin (cfgA m).N) : (st6 m t).IsWhole := hstage0_6 (((cfgA m).slots t 6).cast nbuf0_6)

/-- A whole memref read at contents X is its buffer held at the raw contents that read X; -/
theorem pt_of_owns (c : Dev nD) {sp : Space} {S : Shape} {e : EltTy} (M : Memref sig .tc sp S e) (h : M.IsWhole)
    (q : PosShare TreeShare) (X : S.Idx → Elt F e) :
    (owns (c : Thread nD τ) M q X : sProp 𝕄) ⊢ (M.view.loc (c : Thread nD τ) ↦{q} h.unread X) := by
  unfold owns
  rw [h.set_eq_univ]
  iintro ⟨%f, %hf, H⟩
  obtain rfl := h.eq_unread hf
  iexact H

/-- and its buffer held at raw contents f is the memref read at what f reads. -/
theorem owns_of_pt (c : Dev nD) {sp : Space} {S : Shape} {e : EltTy} (M : Memref sig .tc sp S e) (h : M.IsWhole)
    (q : PosShare TreeShare) (f : Buf (Elt F) (M.view.loc (c : Thread nD τ))) :
    (M.view.loc (c : Thread nD τ) ↦{q} f : sProp 𝕄) ⊢ owns (c : Thread nD τ) M q (M.view.read (Elt F) f) := by
  unfold owns
  rw [h.set_eq_univ]
  iintro H; iexists f; isplitr; · ipureintro; rfl
  iexact H

theorem owns_of_unread (c : Dev nD) {sp : Space} {S : Shape} {e : EltTy} (M : Memref sig .tc sp S e) (h : M.IsWhole)
    (q : PosShare TreeShare) (X : S.Idx → Elt F e) :
    (M.view.loc (c : Thread nD τ) ↦{q} h.unread X : sProp 𝕄) ⊢ owns (c : Thread nD τ) M q X :=
  (owns_of_pt c M h q (h.unread X)).trans (Entails.of_eq (by rw [h.read_unread]))

/-! ## The windows' blocks -/

/-- Window w's block at point t, read off its array as the region finds it. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- The body's run at point t from the table and the six input blocks. -/
abbrev K (c : Dev nD) (t : Fin (cfgA m).N) :=
  kernelRun (F := F) c (grid0.coords t) (st0 m t) (hs0 m t) (st1 m t) (hs1 m t) (st2 m t) (hs2 m t) (st3 m t) (hs3 m t)
    (st4 m t) (hs4 m t) (st5 m t) (hs5 m t) (st6 m t) (hs6 m t)
    (tab m c) ((hs0 m t).unread (iblk m c 0 t)) ((hs1 m t).unread (iblk m c 1 t)) ((hs2 m t).unread (iblk m c 2 t))
    ((hs3 m t).unread (iblk m c 3 t)) ((hs4 m t).unread (iblk m c 4 t)) ((hs5 m t).unread (iblk m c 5 t))

/-! ## The pipeline's proof data -/

/-- The invariant between points: the table whole at its contents, the scratch at something. -/
def Φc (c : Dev nD) : sProp 𝕄 :=
  iprop(pt c Mtab (tab m c) ∗ Pipeline.scopedRest (Ix := Unit) (Name := ℕ) (U := UR sig nD τ) (Lvl := ℕ) (Val := Elt F) spec0 c)

/-- The proof data on core c: the arrays as the region finds them; after the body each input's buffer at its
    block and the output's at what the run leaves; the invariant; nothing owed; full shares. -/
def dats (p : Fin 1) (c : Dev nD) : Pipeline.Dat τ (Elt F) Unit ℕ (UR sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st6 m t).view.read (Elt F) (K m c t).1
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := rfl
theorem after1 (c : Dev nD) (t : Fin (cfgA m).N) : (dats m 0 c).after 1 t = iblk m c 1 t := rfl
theorem after2 (c : Dev nD) (t : Fin (cfgA m).N) : (dats m 0 c).after 2 t = iblk m c 2 t := rfl
theorem after3 (c : Dev nD) (t : Fin (cfgA m).N) : (dats m 0 c).after 3 t = iblk m c 3 t := rfl
theorem after4 (c : Dev nD) (t : Fin (cfgA m).N) : (dats m 0 c).after 4 t = iblk m c 4 t := rfl
theorem after5 (c : Dev nD) (t : Fin (cfgA m).N) : (dats m 0 c).after 5 t = iblk m c 5 t := rfl

/-- What the body leaves in the output window's buffer at point t: the run's witness, read through the buffer. -/
theorem dats_after_out (c : Dev nD) (t : Fin (cfgA m).N) :
    (dats m 0 c).after 6 t = (st6 m t).view.read (Elt F) (K m c t).1 := rfl

/-- Input window 0's current staging buffer holds its block at every point, fetched there or not. -/
theorem before0 (c : Dev nD) (t : Fin (cfgA m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin (cfgA m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin (cfgA m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin (cfgA m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin (cfgA m).N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin (cfgA m).N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation, at a generic point -/

-- contents stated over a window's block index are handed to lemmas stated over the staging memref's shape: the two
-- index types agree only when unification may unfold plain definitions in a metavariable's type
set_option backward.isDefEq.respectTransparency.types false in
/-- The body at any point: the table and the inputs' buffers hold what the run is stated from, so the run applies;
    the core's owes passes through unread. -/
theorem sound_body (c : Dev nD) (t : Fin (cfgA m).N) :
    iprop((dats m 0 c).Φ t.castSucc ∗ (dats m 0 c).owesAt () t.castSucc
        ∗ (∃ d, owns (c : Thread nD τ) (st0 m t) fullShare ((dats m 0 c).before 0 t d))
        ∗ (∃ d, owns (c : Thread nD τ) (st1 m t) fullShare ((dats m 0 c).before 1 t d))
        ∗ (∃ d, owns (c : Thread nD τ) (st2 m t) fullShare ((dats m 0 c).before 2 t d))
        ∗ (∃ d, owns (c : Thread nD τ) (st3 m t) fullShare ((dats m 0 c).before 3 t d))
        ∗ (∃ d, owns (c : Thread nD τ) (st4 m t) fullShare ((dats m 0 c).before 4 t d))
        ∗ (∃ d, owns (c : Thread nD τ) (st5 m t) fullShare ((dats m 0 c).before 5 t d))
        ∗ (∃ d, owns (c : Thread nD τ) (st6 m t) fullShare ((dats m 0 c).before 6 t d)))
      ⊢ wp frame (wpE (defs₀ (F := F)) Variants.none c none) Set.univ
          (cc0__pma_kernel (grid0.coords t) Mtab (Memref.isWhole_whole _) (st0 m t) (hs0 m t) (st1 m t) (hs1 m t) (st2 m t) (hs2 m t) (st3 m t) (hs3 m t) (st4 m t) (hs4 m t) (st5 m t) (hs5 m t) (st6 m t) (hs6 m t) Mscr (Memref.isWhole_whole _))
          fun _ => iprop((dats m 0 c).Φ t.succ ∗ (dats m 0 c).owesAt () t.succ
            ∗ owns (c : Thread nD τ) (st0 m t) fullShare ((dats m 0 c).after 0 t)
            ∗ owns (c : Thread nD τ) (st1 m t) fullShare ((dats m 0 c).after 1 t)
            ∗ owns (c : Thread nD τ) (st2 m t) fullShare ((dats m 0 c).after 2 t)
            ∗ owns (c : Thread nD τ) (st3 m t) fullShare ((dats m 0 c).after 3 t)
            ∗ owns (c : Thread nD τ) (st4 m t) fullShare ((dats m 0 c).after 4 t)
            ∗ owns (c : Thread nD τ) (st5 m t) fullShare ((dats m 0 c).after 5 t)
            ∗ owns (c : Thread nD τ) (st6 m t) fullShare ((dats m 0 c).after 6 t)) := by
  simp only [before0, before1, before2, before3, before4, before5]
  rw [show (dats m 0 c).Φ t.castSucc = Φc m c from rfl, show (dats m 0 c).Φ t.succ = Φc m c from rfl,
    show (dats m 0 c).owesAt () t.succ = (dats m 0 c).owesAt () t.castSucc from rfl,
    after0, after1, after2, after3, after4, after5, dats_after_out]
  unfold Φc; rw [scopedRest0_eq]
  iintro ⟨⟨Ht, ⟨%fs, Hs⟩⟩, Ho, ⟨%d0, H0⟩, ⟨%d1, H1⟩, ⟨%d2, H2⟩, ⟨%d3, H3⟩, ⟨%d4, H4⟩, ⟨%d5, H5⟩, ⟨%d6, H6⟩⟩
  ihave H0 := (pt_of_owns c (st0 m t) (hs0 m t) fullShare (iblk m c 0 t)) $$ H0
  ihave H1 := (pt_of_owns c (st1 m t) (hs1 m t) fullShare (iblk m c 1 t)) $$ H1
  ihave H2 := (pt_of_owns c (st2 m t) (hs2 m t) fullShare (iblk m c 2 t)) $$ H2
  ihave H3 := (pt_of_owns c (st3 m t) (hs3 m t) fullShare (iblk m c 3 t)) $$ H3
  ihave H4 := (pt_of_owns c (st4 m t) (hs4 m t) fullShare (iblk m c 4 t)) $$ H4
  ihave H5 := (pt_of_owns c (st5 m t) (hs5 m t) fullShare (iblk m c 5 t)) $$ H5
  ihave H6 := (pt_of_owns c (st6 m t) (hs6 m t) fullShare ((dats m 0 c).before 6 t d6)) $$ H6
  iapply ((K m c t).2 _ fs Set.univ _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro ⟨Ht, H0, H1, H2, H3, H4, H5, H6, Hs⟩
  isplitl [Ht Hs]
  · isplitl [Ht]; · iexact Ht
    iexact Hs
  isplitl [Ho]; · iexact Ho
  isplitl [H0]; · iapply (owns_of_unread c (st0 m t) (hs0 m t) fullShare (iblk m c 0 t)); iexact H0
  isplitl [H1]; · iapply (owns_of_unread c (st1 m t) (hs1 m t) fullShare (iblk m c 1 t)); iexact H1
  isplitl [H2]; · iapply (owns_of_unread c (st2 m t) (hs2 m t) fullShare (iblk m c 2 t)); iexact H2
  isplitl [H3]; · iapply (owns_of_unread c (st3 m t) (hs3 m t) fullShare (iblk m c 3 t)); iexact H3
  isplitl [H4]; · iapply (owns_of_unread c (st4 m t) (hs4 m t) fullShare (iblk m c 4 t)); iexact H4
  isplitl [H5]; · iapply (owns_of_unread c (st5 m t) (hs5 m t) fullShare (iblk m c 5 t)); iexact H5
  iapply (owns_of_pt c (st6 m t) (hs6 m t) fullShare (K m c t).1); iexact H6

/-- The library's body obligation, at every point. -/
theorem body_obligation (c : Dev nD) : BodyObligation (dats m 0 c) (defs₀ (F := F)) Variants.none () Set.univ := fun t => by
  rw [bigSep_W0, bigSep_W0]
  exact sound_body m c t

/-! ## The buffers at each segment boundary -/

/-- At the region's exit: its arrays at what the pipeline leaves, every other buffer as entered. -/
def W2 (c : Dev nD) : Valuation τ sig (Elt F) :=
  Pipeline.withArrays spec0 c (W1 m c) fun w => (dats m 0 c).arrAt w (cfgA m).N
theorem W2_arr (c : Dev nD) (w : Fin (cfgA m).W) :
    W2 m c (Proc.devRef .tc (Pipeline.arrRef spec0 w)) = (dats m 0 c).arrAt w (cfgA m).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 (c : Dev nD) (b : Ref sig .tc) : Buf (Elt F) ((c : Thread nD τ).loc b) := W2 m c b
theorem hF0 (c : Dev nD) (w : Fin (cfgA m).W) : (dats m 0 c).arrAt w (cfgA m).N = V2 m c (Pipeline.arrRef spec0 w) :=
  (W2_arr m c w).symm
theorem hrest0 (c : Dev nD) : ∀ b, b ∉ Finset.univ.image (Pipeline.arrRef spec0) → V2 m c b = V m c b :=
  fun b hb => W2_of_ne m c b fun w e => hb (Finset.mem_image.mpr ⟨w, Finset.mem_univ _, e⟩)

/-- After the three operations behind the region: the end. -/
abbrev W3 (c : Dev nD) : Valuation τ sig (Elt F) := StableHlo.after hostOps1 (W2 m c)

/-- None of the three writes anything but its result. -/
theorem not_written1 (b : Ref sig .tc) (hb : b ≠ main_c ∧ b ≠ main_v5 ∧ b ≠ main_v6) :
    ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.nullary_writes, StableHlo.unary_writes, StableHlo.binary_writes, Finset.mem_singleton] <;>
    exact StableHlo.devRef_ne_of_ne ‹_›

theorem W3_of_ne (c : Dev nD) (b : Ref sig .tc) (hb : b ≠ main_c ∧ b ≠ main_v5 ∧ b ≠ main_v6) :
    W3 m c (Proc.devRef .tc b) = W2 m c (Proc.devRef .tc b) :=
  StableHlo.after_of_forall_not_mem (b := Proc.devRef .tc b) hostOps1 (W2 m c) (not_written1 b hb)

/-- A buffer that is no window's array and that no host operation writes ends as launched. -/
theorem W3_launch (c : Dev nD) (b : Ref sig .tc) (h1 : b ≠ main_c ∧ b ≠ main_v5 ∧ b ≠ main_v6)
    (hw : ∀ w, Pipeline.arrRef spec0 w ≠ b) (h0 : b ≠ main_v0 ∧ b ≠ main_v1 ∧ b ≠ main_v2 ∧ b ≠ main_v3) :
    W3 m c (Proc.devRef .tc b) = m ((c : Thread nD τ).loc b) :=
  (W3_of_ne m c b h1).trans ((W2_of_ne m c b hw).trans (V_of_ne m c b h0))

/-- The second result: the table clamped at 32. -/
theorem W3_v6 (c : Dev nD) : W3 m c (Proc.devRef .tc main_v6)
    = (minsi : (⟨S32, .i32⟩ : BufTy).Contents (Elt F) → (⟨S32, .i32⟩ : BufTy).Contents (Elt F) → (⟨S32, .i32⟩ : BufTy).Contents (Elt F))
        ((broadcastInDim S32 ![] bcast_S_S32 : (⟨S_, .i32⟩ : BufTy).Contents (Elt F) → (⟨S32, .i32⟩ : BufTy).Contents (Elt F)) (constantI S_ 32 32#32))
        (m ((c : Thread nD τ).loc main_arg1)) := by
  have harg1 : W2 m c (Proc.devRef .tc main_arg1) = m ((c : Thread nD τ).loc main_arg1) :=
    (W2_of_ne m c main_arg1 (by decide)).trans (V_of_ne m c main_arg1 (by decide))
  simp only [W3, hostOps1, StableHlo.after_cons, StableHlo.after_nil]
  rw [StableHlo.binary_result', StableHlo.unary_result', StableHlo.nullary_result',
    StableHlo.unary_result_ne _ _ _ _ _ _ (by decide : main_arg1 ≠ main_v5),
    StableHlo.nullary_result_ne _ _ _ _ (by decide : main_arg1 ≠ main_c), harg1]

/-! ## The launch, by the library: @main as segments -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's owes, at nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The four transposes as a segment over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The three operations behind the region as a segment over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W2 m) R

/-- The table as the launch hands it to the region. -/
theorem prefHeld_eq (c : Dev nD) :
    (Pipeline.prefHeld (Ix := Unit) (Name := ℕ) (U := UR sig nD τ) (Lvl := ℕ) pre0 c (fun _ => fullShare) (tbl m) : sProp 𝕄)
      = pt c Mtab (tab m c) := by
  have h : tbl m 0 = V m c main_arg1 := (congrFun (V_pre m c) 0).symm
  unfold Pipeline.prefHeld
  rw [show (Finset.univ : Finset (Fin 1)) = {(0 : Fin 1)} from by decide, bigSep_singleton, h]
  rfl

-- a library lemma stated over the pinned configuration unifies only when unification may unfold plain
-- definitions in a metavariable's type
set_option backward.isDefEq.respectTransparency.types false in
/-- THE REGION: entered from every unscoped buffer as the transposes left it, the table into the invariant, the
    weights and the tail's buffers bypassing; left with the arrays at their final contents and the table back. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := iprop(emp)
  Y c := pt c Mtab (tab m c)
  Z c := Pipeline.unscopedRestP (Ix := Unit) (Name := ℕ) (U := UR sig nD τ) (Lvl := ℕ) pre0 spec0 c (V m c)
  hentry c := by
    rw [Pipeline.ownSems0_none]
    have hsplit := Pipeline.arrays_of_unscopedBufs (p := 0) (pcfgs (F := F)) (adm m) (dats m) (launch0 (F := F)).win (launch0 (F := F)).arr_whole c
      ((dats m 0 c).share_full fun _ => rfl) (V m c) fun _ => rfl
    rw [Pipeline.unscopedBufs_held, Pipeline.unscopedRest_split (launch0 (F := F)).pre c (V m c), V_pre m c] at hsplit
    iintro ⟨⟨Hub, HO⟩, -, -⟩
    ihave H := hsplit $$ Hub
    icases H with ⟨Ha, Hp, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Φc m c from rfl, prefHeld_eq m c]; unfold Φc
    iintro ⟨-, Ht, Hr⟩
    isplitl [Ht]; · iexact Ht
    iexact Hr
  hout c := by
    rw [Pipeline.ownSems0_none, show (dats m 0 c).Φ (Fin.last _) = Φc m c from rfl]; unfold Φc
    iintro ⟨Ht, Hr⟩
    isplitl [Ht]; · iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (dats m) ((dats m 0 c).share_full fun _ => rfl)
      (V m c) (V2 m c) ((dats m 0 c).arrAt · (cfgA m).N) (hF0 m c) (hrest0 m c)
    rw [Pipeline.unscopedBufs_held, Pipeline.unscopedRest_split (launch0 (F := F)).pre c (V m c), V_pre m c, prefHeld_eq m c] at hjoin
    iintro ⟨Ha, HO, HY, HZ⟩
    imodintro
    isplitl [Ha HY HZ]
    · iapply hjoin
      isplitl [Ha]; · iexact Ha
      isplitl [HY]; · iexact HY
      iexact HZ
    unfold Pipeline.Dat.owesAt Pipeline.owesWithin
    icases HO with ⟨%W, -, HO⟩; iexists W; iexact HO

/-- @main as the list of the three. -/
abbrev segs : List (Pipeline.Seg (pcfgs (F := F)) (adm m) (dats m) () defs₀ 𝒱₀ L lv) :=
  [.host (seg0 m), .region (reg0 m), .host (seg1 m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A final memory that holds every unscoped buffer at the last boundary's contents holds each window's array at
    what the pipeline library computes. -/
theorem final_arr (c : Dev nD) (s : MemSt nD τ sig (Elt F))
    (h : ∀ b ∈ Pipeline.ucRefs τ sig, s.mem (((c : Thread nD τ)).1, b) = W3 m c b) (w : Fin 7) :
    s.mem (((cfgA m).win w).arr.view.loc (c : Thread nD τ)) = (dats m 0 c).arrAt w (cfgA m).N := by
  have hu : ∀ w : Fin 7, ¬ (Proc.devRef .tc (Pipeline.arrRef spec0 w) : DevRef τ sig).isScoped := by decide
  have hne : ∀ w : Fin 7, Pipeline.arrRef spec0 w ≠ main_c ∧ Pipeline.arrRef spec0 w ≠ main_v5 ∧ Pipeline.arrRef spec0 w ≠ main_v6 := by decide
  exact (h _ (mem_uc (Pipeline.arrRef spec0 w) (hu w))).trans ((W3_of_ne m c _ (hne w)).trans (W2_arr m c w))

-- the launch theorem's implicit arguments are found by unifying its conclusion with this one, which takes unfolding
-- plain definitions in a metavariable's type
set_option backward.isDefEq.respectTransparency.types false in
/-- At the compiled mesh, for any float values, from any memory with zero counters: every weakly fair execution of
    @main on the TensorCores terminates, and every final state has each window's array at what the pipeline library
    computes, the second result at the table clamped at 32, and the table and the four weight matrices unchanged. -/
theorem run_main : θ_run (defs (F := F)) (onTc (τ := τ) (main (F := F))) ⟨m, fun _ => 0, ρ⟩ (fun r => ∀ c : Dev nD,
      (∀ w : Fin 7, r.2.mem (((cfgA m).win w).arr.view.loc (c : Thread nD τ)) = (dats m 0 c).arrAt w (cfgA m).N)
      ∧ r.2.mem ((c : Thread nD τ).loc main_v6) = (minsi : (⟨S32, .i32⟩ : BufTy).Contents (Elt F) → (⟨S32, .i32⟩ : BufTy).Contents (Elt F) → (⟨S32, .i32⟩ : BufTy).Contents (Elt F))
          ((broadcastInDim S32 ![] bcast_S_S32 : (⟨S_, .i32⟩ : BufTy).Contents (Elt F) → (⟨S32, .i32⟩ : BufTy).Contents (Elt F)) (constantI S_ 32 32#32))
          (m ((c : Thread nD τ).loc main_arg1))
      ∧ r.2.mem ((c : Thread nD τ).loc main_arg1) = m ((c : Thread nD τ).loc main_arg1)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  Pipeline.θ_run_regions_kit (pcfgs (F := F)) (adm m) (dats m) () (cellOf_inj (adm m)) emb₁ defs₀ 𝒱₀ L lv m ρ main (segs m)
    (fun c Q => by rw [main_segs (adm m) (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m)))
              (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m)))
              (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨final_arr m c s (h c),
        (h c _ (mem_uc main_v6 (by decide))).trans (W3_v6 m c),
        (h c _ (mem_uc main_arg1 (by decide))).trans (W3_launch m c main_arg1 (by decide) (by decide) (by decide)),
        (h c _ (mem_uc main_arg3 (by decide))).trans (W3_launch m c main_arg3 (by decide) (by decide) (by decide)),
        (h c _ (mem_uc main_arg4 (by decide))).trans (W3_launch m c main_arg4 (by decide) (by decide) (by decide)),
        (h c _ (mem_uc main_arg5 (by decide))).trans (W3_launch m c main_arg5 (by decide) (by decide) (by decide)),
        (h c _ (mem_uc main_arg6 (by decide))).trans (W3_launch m c main_arg6 (by decide) (by decide) (by decide))⟩)

end Cert.Kernel.Hand

end
-- ==== Proof.KI.Body.lean ====
/-
  The kernel body of the pooling-attention pipeline, run once at a symbolic grid point.

  One grid point handles one batch element: the body reads that element's length from the prefetched
  table, loads the element's block of x, the four transposed weight matrices and the seed block,
  computes the eight attention heads into a scratch buffer column slab by column slab, reads the scratch
  back whole, and stores the gated residual block into the output window.  What the output's staging
  buffer holds afterwards is a pure term of the table and of the six input blocks: the witness of the
  subtype below.
-/
import proofs.«416182_j80152679678423_1_alg».proof.Proof.Gen.KernelIdeal.Skeleton
import Idealize.ShloMosaic.Lib.Tactic
import Idealize.ShloMosaic.Lib.Pipeline.Kit
import Idealize.ShloMosaic.Lib.Pipeline.Value
import Idealize.ShloMosaic.Lib.Ring
import Idealize.ShloMosaic.Lib.ValueIdx

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The lengths table and the scratch buffer, as whole memrefs. -/
abbrev Mtab : Memref sig .tc .smem S32 .i32 := Memref.whole main_arg1
abbrev Mscr : Memref sig .tc .vmem S32x256 .f32 := Memref.whole cc0_scratch0

set_option maxHeartbeats 4000000 in
/-- What the body leaves in the output window's staging buffer `M8`, WITH the proof that from the table,
    the six input staging buffers (at `f1`, `f2 … f7`), the output buffer and the scratch held whole,
    the kernel runs to its return handing everything back, the output buffer at the witness, the scratch
    at something. -/
noncomputable def kernelRun (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    { W : Bf (F := F) c M8 //
      ∀ (f8 : Bf (F := F) c M8) (f9 : Bf (F := F) c Mscr) (E : Set ℕ) (Q : PUnit → sProp 𝕄),
        iprop(pt c Mtab f1 ∗ pt c M2 f2 ∗ pt c M3 f3 ∗ pt c M4 f4 ∗ pt c M5 f5 ∗ pt c M6 f6 ∗ pt c M7 f7 ∗ pt c M8 f8 ∗ pt c Mscr f9
          ∗ (iprop(pt c Mtab f1 ∗ pt c M2 f2 ∗ pt c M3 f3 ∗ pt c M4 f4 ∗ pt c M5 f5 ∗ pt c M6 f6 ∗ pt c M7 f7 ∗ pt c M8 W
                ∗ (∃ f, pt c Mscr f)) -∗ Q ⟨⟩))
        ⊢ wp frame (wpE (defs₀ (F := F)) Variants.none c none) E
            (cc0__pma_kernel i Mtab (Memref.isWhole_whole _) M2 h2 M3 h3 M4 h4 M5 h5 M6 h6 M7 h7 M8 h8 Mscr (Memref.isWhole_whole _)) Q } := by
  refine ⟨?_, fun f8 f9 E Q => ?run⟩
  case run =>
    iintro ⟨H1, H2, H3, H4, H5, H6, H7, H8, H9, Hk⟩
    sl_exec_parts!
    sl_step
    iapply Hk
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists _; iexact H9

/-! ## What the witness is

The run's witness, read: the output payload over the six loaded blocks and the table word, the scratch read back
whole after the eight slab stores being ONE function of the scratch index — at a column of slab `h` (columns
`32 h … 32 h + 31`) head `h`'s payload. -/

open Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

/-- A load through the whole-shape rectangle at zero offsets reads the buffer's contents through the view. -/
theorem readAt_unit_zero {sig' : RefSig} {κ : Kind} {sp : Space} {S : Shape} {e : EltTy} (v : View sig' κ sp S e)
    {off : Fin S.rank → Nat} (h : off = fun _ => 0) (inb : ∀ a, off a + S.size a ≤ S.size a) (f : v.ty.Contents (Elt F)) :
    v.readAt (Elt F) (Rect.unit off S.size inb).toLoadRect f = v.read (Elt F) f := by
  rw [View.readAt_eq_ld, View.ld_unit_zero h]

/-- The slab a scratch column lies in, and the column's place in its slab. -/
def colHead (j : S32x256.Idx) : Fin 8 := ⟨(j 1).val / 32, by have := idx2_lt1 j; omega⟩
def colIn (j : S32x256.Idx) : S32x32.Idx :=
  ix2 (n0 := 32) (n1 := 32) ⟨(j 0).val, idx2_lt0 j⟩ ⟨(j 1).val % 32, Nat.mod_lt _ (by decide)⟩

/-- Eight `32 × 32` blocks side by side as one `32 × 256` block: block `h` in columns `32 h … 32 h + 31`. -/
def slabs (P : Fin 8 → Vec F S32x32 .f32) : Vec F S32x256 .f32 := fun j => P (colHead j) (colIn j)

theorem slabs_apply (P : Fin 8 → Vec F S32x32 .f32) (h : Fin 8) (s d : Fin 32) :
    slabs P (ix2 (n0 := 32) (n1 := 256) s ⟨32 * h.val + d.val, by have := h.isLt; have := d.isLt; omega⟩) = P h (ix2 s d) := by
  have e1 : colHead (ix2 (n0 := 32) (n1 := 256) s ⟨32 * h.val + d.val, by have := h.isLt; have := d.isLt; omega⟩) = h := by
    apply Fin.ext; show (32 * h.val + d.val) / 32 = h.val; have := d.isLt; omega
  have e2 : colIn (ix2 (n0 := 32) (n1 := 256) s ⟨32 * h.val + d.val, by have := h.isLt; have := d.isLt; omega⟩) = ix2 s d := by
    funext a
    match a with
    | ⟨0, _⟩ => rfl
    | ⟨1, _⟩ => apply Fin.ext; show (32 * h.val + d.val) % 32 = d.val; have := d.isLt; omega
  show P (colHead _) (colIn _) = _
  rw [e1, e2]

/-- The block stored at column offset `o = 32 k` is block `k` of the side-by-side function. -/
theorem slabs_emb (P : Fin 8 → Vec F S32x32 .f32) (k : Fin 8) (o : Nat) (ho : o = 32 * k.val)
    (ik : ∀ a, (![0, o] : Fin 2 → Nat) a + S32x32.size a ≤ S32x256.size a)
    (x : (Rect.unit (s := S32x256) ![0, o] S32x32.size ik).shape.Idx) :
    slabs P ((Rect.unit (s := S32x256) ![0, o] S32x32.size ik).emb x) = P k x := by
  subst ho
  have hx1 : (x 1).val < 32 := (x 1).isLt
  have e1 : colHead ((Rect.unit (s := S32x256) ![0, 32 * k.val] S32x32.size ik).emb x) = k := by
    apply Fin.ext; show (32 * k.val + 1 * (x 1).val) / 32 = k.val; omega
  have e2 : colIn ((Rect.unit (s := S32x256) ![0, 32 * k.val] S32x32.size ik).emb x) = x := by
    funext a
    match a with
    | ⟨0, _⟩ => apply Fin.ext; show 0 + 1 * (x 0).val = (x 0).val; omega
    | ⟨1, _⟩ => apply Fin.ext; show (32 * k.val + 1 * (x 1).val) % 32 = (x 1).val; omega
  show P (colHead _) (colIn _) = _
  rw [e1, e2]

/-- A scratch buffer filled by the eight slab stores reads back whole as the side-by-side function, whatever the view. -/
theorem scratch_readback {sig' : RefSig} {κ : Kind} {sp : Space} (v : View sig' κ sp S32x256 .f32) (P : Fin 8 → Vec F S32x32 .f32)
    (i0 : ∀ a, (![0, 0] : Fin 2 → Nat) a + S32x32.size a ≤ S32x256.size a)
    (i1 : ∀ a, (![0, 32] : Fin 2 → Nat) a + S32x32.size a ≤ S32x256.size a)
    (i2 : ∀ a, (![0, 64] : Fin 2 → Nat) a + S32x32.size a ≤ S32x256.size a)
    (i3 : ∀ a, (![0, 96] : Fin 2 → Nat) a + S32x32.size a ≤ S32x256.size a)
    (i4 : ∀ a, (![0, 128] : Fin 2 → Nat) a + S32x32.size a ≤ S32x256.size a)
    (i5 : ∀ a, (![0, 160] : Fin 2 → Nat) a + S32x32.size a ≤ S32x256.size a)
    (i6 : ∀ a, (![0, 192] : Fin 2 → Nat) a + S32x32.size a ≤ S32x256.size a)
    (i7 : ∀ a, (![0, 224] : Fin 2 → Nat) a + S32x32.size a ≤ S32x256.size a)
    (iw : ∀ a, (![0, 0] : Fin 2 → Nat) a + S32x256.size a ≤ S32x256.size a) :
    v.readCov
      [⟨Rect.unit ![0, 224] S32x32.size i7, P ⟨7, by decide⟩⟩, ⟨Rect.unit ![0, 192] S32x32.size i6, P ⟨6, by decide⟩⟩,
       ⟨Rect.unit ![0, 160] S32x32.size i5, P ⟨5, by decide⟩⟩, ⟨Rect.unit ![0, 128] S32x32.size i4, P ⟨4, by decide⟩⟩,
       ⟨Rect.unit ![0, 96] S32x32.size i3, P ⟨3, by decide⟩⟩, ⟨Rect.unit ![0, 64] S32x32.size i2, P ⟨2, by decide⟩⟩,
       ⟨Rect.unit ![0, 32] S32x32.size i1, P ⟨1, by decide⟩⟩, ⟨Rect.unit ![0, 0] S32x32.size i0, P ⟨0, by decide⟩⟩]
      (Rect.unit ![0, 0] S32x256.size iw).toLoadRect = slabs P := by
  refine (View.readCov_eq_canon_ld v _ (Rect.unit ![0, 0] S32x256.size iw) (View.cover_of_tiledL _ S32x32.size (by sl_kernel_rfl))).trans ?_
  rw [View.ld_unit_zero hz2]
  funext j
  refine View.canon_apply_of_pieces (slabs P) _ (fun p hp x => ?_) j (View.cover_of_tiledL (s := S32x256) _ S32x32.size (by sl_kernel_rfl) j)
  simp only [List.mem_cons, List.not_mem_nil, or_false] at hp
  rcases hp with rfl | rfl | rfl | rfl | rfl | rfl | rfl | rfl
  · exact (slabs_emb P ⟨7, by decide⟩ 224 rfl i7 x).symm
  · exact (slabs_emb P ⟨6, by decide⟩ 192 rfl i6 x).symm
  · exact (slabs_emb P ⟨5, by decide⟩ 160 rfl i5 x).symm
  · exact (slabs_emb P ⟨4, by decide⟩ 128 rfl i4 x).symm
  · exact (slabs_emb P ⟨3, by decide⟩ 96 rfl i3 x).symm
  · exact (slabs_emb P ⟨2, by decide⟩ 64 rfl i2 x).symm
  · exact (slabs_emb P ⟨1, by decide⟩ 32 rfl i1 x).symm
  · exact (slabs_emb P ⟨0, by decide⟩ 0 rfl i0 x).symm

/-- The table word the body reads at grid point `i`. -/
def tabWord (c : Dev nD) (i : grid0.Coords) (f1 : Bf (F := F) c Mtab) : Elt F .i32 :=
  View.readAt (Elt F) Mtab.view (Rect.unit (s := S32) (k0_off1 i) S1.size (k0_off1_inb i)).toLoadRect f1
    (Shape.Idx.first (numel1_S1.symm ▸ Nat.one_pos))

/-- The table word read through the table's view: its contents at the grid coordinate. -/
theorem tabWord_read (c : Dev nD) (i : grid0.Coords) (f1 : Bf (F := F) c Mtab) :
    tabWord c i f1 = Mtab.view.read (Elt F) f1 (ix1 (n := 32) ⟨(i 0).val, (i 0).isLt⟩) := by
  unfold tabWord
  rw [View.readAt_eq_ld]
  show Mtab.view.read (Elt F) f1 _ = Mtab.view.read (Elt F) f1 _
  congr 1
  funext a
  apply Fin.ext
  show k0_off1 i a + 1 * 0 = _
  rw [k0_off1_eq]
  match a with
  | ⟨0, _⟩ => rfl

/-- On the one-axis grid the `t`-th point's coordinate is `t`. -/
theorem coords0_val (t : Fin grid0.N) : (grid0.coords t 0).val = t.val := by
  have ht : t.val < 32 := t.isLt
  have hs : grid0.stride 0 = 1 := by decide
  show t.val / grid0.stride 0 % 32 = t.val
  rw [hs]; omega

/-- The table word at the `t`-th grid point in closed form: the table's `t`-th word. -/
theorem tabWord_eq (c : Dev nD) (t : Fin grid0.N) (b : Fin 32) (hb : b.val = t.val) (f1 : Bf (F := F) c Mtab) :
    tabWord c (grid0.coords t) f1 = (f1 : S32.Idx → Elt F .i32) (ix1 b) := by
  rw [tabWord_read]
  show (f1 : S32.Idx → Elt F .i32) _ = (f1 : S32.Idx → Elt F .i32) _
  congr 1
  funext a
  match a with
  | ⟨0, _⟩ => exact Fin.ext ((coords0_val t).trans hb.symm)

/-- The eight heads' payloads, over the projected seed block `v22`, the masked key and value blocks `v32`, `v33`, the key mask
    `v38` and the row mask `v41`. -/
def headPay (v22 : FVec F S32x256 .f32) (v32 v33 : FVec F S2048x256 .bf16) (v38 : FVec F S1x2048 .f32) (v41 : IVec S32x1 1) :
    Fin 8 → Vec F S32x32 .f32 := fun h =>
  match h with
  | ⟨0, _⟩ => k0_pay12 v22 v32 v33 v38 v41
  | ⟨1, _⟩ => k0_pay14 (k0_pay13 v22 v32 v33 v38 v41)
  | ⟨2, _⟩ => k0_pay15 v22 v32 v33 v38 (k0_pay11 (F := F) v41)
  | ⟨3, _⟩ => k0_pay19 (k0_pay16 v22) (k0_pay17 v33) (k0_pay18 v22 v32 v38 (k0_pay11 (F := F) v41))
  | ⟨4, _⟩ => k0_pay20 v22 v32 v33 v38 (k0_pay11 (F := F) v41)
  | ⟨5, _⟩ => k0_pay25 (k0_pay21 v22) (k0_pay22 v33) (k0_pay23 v22 v32 v38 (k0_pay11 (F := F) v41))
      (k0_pay24 v22 v32 v38 (k0_pay11 (F := F) v41)) (Scalar.ofBits .f32 0x26901D7D#32)
  | ⟨6, _⟩ => k0_pay26 v22 v32 v33 v38 (k0_pay11 (F := F) v41)
  | ⟨7, _⟩ => k0_pay1 (k0_pay27 v22) (k0_pay28 v33) (k0_pay29 v22 v32 v38 (k0_pay11 (F := F) v41))

/-- The scratch after the eight heads: head `h`'s payload in columns `32 h … 32 h + 31`. -/
def scratchAfter (v22 : FVec F S32x256 .f32) (v32 v33 : FVec F S2048x256 .bf16) (v38 : FVec F S1x2048 .f32) (v41 : IVec S32x1 1) :
    Vec F S32x256 .f32 := slabs (headPay v22 v32 v33 v38 v41)

theorem scratchAfter_apply (v22 : FVec F S32x256 .f32) (v32 v33 : FVec F S2048x256 .bf16) (v38 : FVec F S1x2048 .f32) (v41 : IVec S32x1 1)
    (h : Fin 8) (s d : Fin 32) :
    scratchAfter v22 v32 v33 v38 v41 (ix2 (n0 := 32) (n1 := 256) s ⟨32 * h.val + d.val, by have := h.isLt; have := d.isLt; omega⟩)
      = headPay v22 v32 v33 v38 v41 h (ix2 s d) :=
  slabs_apply _ h s d

/-- The block the body stores to the output window, over the table word `v1` and the six loaded blocks: `v2` the block of x,
    `v11`, `v5`, `v8`, `v14` the four weight matrices (the second to fifth operands) and `v17` the seed block. -/
def outBlock (v1 : Elt F .i32) (v2 : Vec F S1x2048x256 .f32) (v11 v5 v8 v14 : Vec F S256x256 .f32) (v17 : Vec F S1x32x256 .f32) :
    FVec F S1x32x256 .f32 :=
  k0_pay2 (k0_pay4 v14) (k0_pay11 (F := F) (k0_pay10 v1))
    (scratchAfter (k0_pay5 v11 v17) (k0_pay7 v1 v2 v5) (k0_pay8 v1 v2 v8) (k0_pay9 v1) (k0_pay10 v1))

set_option maxRecDepth 65536 in
/-- The witness of `kernelRun`: the output block written whole through `M8`'s view. -/
theorem kernelRun_val (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    (kernelRun c i M2 h2 M3 h3 M4 h4 M5 h5 M6 h6 M7 h7 M8 h8 f1 f2 f3 f4 f5 f6 f7).1
      = M8.view.writes (Elt F) M8.view.junk
          [⟨Rect.unit ![0, 0, 0] S1x32x256.size inb_S1x32x256_S1x32x256_0_0_0,
            outBlock (tabWord c i f1) (M2.view.read (Elt F) f2) (M3.view.read (Elt F) f3) (M4.view.read (Elt F) f4)
              (M5.view.read (Elt F) f5) (M6.view.read (Elt F) f6) (M7.view.read (Elt F) f7)⟩] := by
  unfold kernelRun
  dsimp only
  sl_unfold_run_names
  simp only [readAt_unit_zero (S := S256x256) _ hz2, readAt_unit_zero (S := S1x2048x256) _ hz3, readAt_unit_zero (S := S1x32x256) _ hz3]
  unfold outBlock scratchAfter
  rw [← scratch_readback Mscr.view _ inb_S32x256_S32x32_0_0 inb_S32x256_S32x32_0_32 inb_S32x256_S32x32_0_64
    inb_S32x256_S32x32_0_96 inb_S32x256_S32x32_0_128 inb_S32x256_S32x32_0_160 inb_S32x256_S32x32_0_192
    inb_S32x256_S32x32_0_224 inb_S32x256_S32x256_0_0]
  rfl

/-- Read back through `M8`'s view, the witness is the output block. -/
theorem kernelRun_read (c : Dev nD) (i : grid0.Coords)
    (M2 : Memref sig .tc .vmem S1x2048x256 .f32) (h2 : M2.IsWhole)
    (M3 : Memref sig .tc .vmem S256x256 .f32) (h3 : M3.IsWhole) (M4 : Memref sig .tc .vmem S256x256 .f32) (h4 : M4.IsWhole)
    (M5 : Memref sig .tc .vmem S256x256 .f32) (h5 : M5.IsWhole) (M6 : Memref sig .tc .vmem S256x256 .f32) (h6 : M6.IsWhole)
    (M7 : Memref sig .tc .vmem S1x32x256 .f32) (h7 : M7.IsWhole) (M8 : Memref sig .tc .vmem S1x32x256 .f32) (h8 : M8.IsWhole)
    (f1 : Bf (F := F) c Mtab) (f2 : Bf (F := F) c M2) (f3 : Bf (F := F) c M3) (f4 : Bf (F := F) c M4)
    (f5 : Bf (F := F) c M5) (f6 : Bf (F := F) c M6) (f7 : Bf (F := F) c M7) :
    M8.view.read (Elt F) (kernelRun c i M2 h2 M3 h3 M4 h4 M5 h5 M6 h6 M7 h7 M8 h8 f1 f2 f3 f4 f5 f6 f7).1
      = outBlock (tabWord c i f1) (M2.view.read (Elt F) f2) (M3.view.read (Elt F) f3) (M4.view.read (Elt F) f4)
          (M5.view.read (Elt F) f5) (M6.view.read (Elt F) f6) (M7.view.read (Elt F) f7) := by
  rw [kernelRun_val, View.read_writes_junk_eq_canon, View.canon_unit_zero hz3]

end Cert.KernelIdeal.Hand

end
-- ==== Proof.KI.Launch.lean ====
/-
  The launch of the pooling-attention program: the host operations around the one pipelined region, the
  pipeline's proof data, and the run of @main from any launch memory.

  @main transposes the four weight matrices, runs the pipeline over the 32 batch elements with the lengths
  table prefetched into scalar memory, and then clamps the table at 32 into the second result.  The table is
  read by the body at every point and by the last host operation after the region: it enters the body's
  invariant whole at the region's entry and comes back out whole at its exit.
-/
import proofs.«416182_j80152679678423_1_alg».proof.Proof.KI.Body
import proofs.«416182_j80152679678423_1_alg».proof.Proof.Gen.KernelIdeal.Launch
import Idealize.ShloMosaic.Lib.Pipeline.Regions
import Idealize.ShloMosaic.Lib.Pipeline.RegionsLoop
import Idealize.ShloMosaic.Lib.Pipeline.FrameSuffix
import Idealize.ShloMosaic.Lib.Pipeline.FrameBody

noncomputable section

namespace Cert.KernelIdeal.Hand

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The table, the pinned pipeline, the buffers at the region's entry -/

/-- The lengths table's contents, read off the launch memory (there is one device). -/
def tbl : pre0.Contents (Elt F) := fun k => m (((0 : Dev nD) : Thread nD τ).loc (pre0.ref k))

/-- They are admissible: the side condition on the table is empty. -/
abbrev adm : (p : Fin 1) → (pcfgs (F := F) p).Adm := fun _ => ⟨tbl m, trivial⟩

/-- The pipeline at the table's contents. -/
abbrev cfgA : Pipeline.Cfg sig Λ₀ := Pipeline.pin (pcfgs (F := F)) (adm m) 0

/-- Core c's buffers at launch, as the host operations' valuation; -/
abbrev V₀ (c : Dev nD) : Valuation τ sig (Elt F) := fun b => m ((c : Dev nD), b)
/-- after the four transposes, when the region is entered; -/
abbrev W1 (c : Dev nD) : Valuation τ sig (Elt F) := StableHlo.after hostOps0 (V₀ m c)
/-- the same read at the TensorCore's references. -/
abbrev V (c : Dev nD) (b : Ref sig .tc) : Buf (Elt F) ((c : Thread nD τ).loc b) := StableHlo.after hostOps0 (V₀ m c) b

/-- The table as the body holds it on core c. -/
abbrev tab (c : Dev nD) : Bf (F := F) c Mtab := V m c main_arg1

/-- No transpose writes anything but its result: every other buffer reaches the region as launched. -/
theorem not_written0 (b : Ref sig .tc) (hb : b ≠ main_v0 ∧ b ≠ main_v1 ∧ b ≠ main_v2 ∧ b ≠ main_v3) :
    ∀ op ∈ (hostOps0 (F := F)), Proc.devRef .tc b ∉ op.writes := by
  obtain ⟨h0, h1, h2, h3⟩ := hb
  intro op hop
  simp only [List.mem_cons, List.mem_nil_iff, or_false] at hop
  rcases hop with rfl | rfl | rfl | rfl <;>
    simp only [StableHlo.unary_writes, Finset.mem_singleton] <;>
    exact StableHlo.devRef_ne_of_ne ‹_›

theorem V_of_ne (c : Dev nD) (b : Ref sig .tc) (hb : b ≠ main_v0 ∧ b ≠ main_v1 ∧ b ≠ main_v2 ∧ b ≠ main_v3) :
    V m c b = m ((c : Thread nD τ).loc b) :=
  StableHlo.after_of_forall_not_mem (b := Proc.devRef .tc b) hostOps0 (V₀ m c) (not_written0 b hb)

theorem V_arg0 (c : Dev nD) : V m c main_arg0 = m ((c : Thread nD τ).loc main_arg0) := V_of_ne m c main_arg0 (by decide)
theorem V_arg1 (c : Dev nD) : V m c main_arg1 = m ((c : Thread nD τ).loc main_arg1) := V_of_ne m c main_arg1 (by decide)
theorem V_arg2 (c : Dev nD) : V m c main_arg2 = m ((c : Thread nD τ).loc main_arg2) := V_of_ne m c main_arg2 (by decide)

/-- On the one device the table holds, at the region's entry, the contents the pipeline is pinned at. -/
theorem V_pre (c : Dev nD) : (fun k => V m c (pre0.ref k)) = tbl m := by
  funext k
  obtain rfl : c = 0 := Subsingleton.elim _ _
  obtain rfl : k = 0 := Subsingleton.elim _ _
  exact V_arg1 m 0

/-! ## The staging memrefs at a point -/

abbrev st0 (t : Fin (cfgA m).N) : Memref sig .tc .vmem S1x2048x256 .f32 := spec0_0.stage ((cfgA m).slots t 0)
abbrev st1 (t : Fin (cfgA m).N) : Memref sig .tc .vmem S256x256 .f32 := spec0_1.stage ((cfgA m).slots t 1)
abbrev st2 (t : Fin (cfgA m).N) : Memref sig .tc .vmem S256x256 .f32 := spec0_2.stage ((cfgA m).slots t 2)
abbrev st3 (t : Fin (cfgA m).N) : Memref sig .tc .vmem S256x256 .f32 := spec0_3.stage ((cfgA m).slots t 3)
abbrev st4 (t : Fin (cfgA m).N) : Memref sig .tc .vmem S256x256 .f32 := spec0_4.stage ((cfgA m).slots t 4)
abbrev st5 (t : Fin (cfgA m).N) : Memref sig .tc .vmem S1x32x256 .f32 := spec0_5.stage ((cfgA m).slots t 5)
abbrev st6 (t : Fin (cfgA m).N) : Memref sig .tc .vmem S1x32x256 .f32 := spec0_6.stage ((cfgA m).slots t 6)
abbrev hs0 (t : Fin (cfgA m).N) : (st0 m t).IsWhole := hstage0_0 (((cfgA m).slots t 0).cast nbuf0_0)
abbrev hs1 (t : Fin (cfgA m).N) : (st1 m t).IsWhole := hstage0_1 (((cfgA m).slots t 1).cast nbuf0_1)
abbrev hs2 (t : Fin (cfgA m).N) : (st2 m t).IsWhole := hstage0_2 (((cfgA m).slots t 2).cast nbuf0_2)
abbrev hs3 (t : Fin (cfgA m).N) : (st3 m t).IsWhole := hstage0_3 (((cfgA m).slots t 3).cast nbuf0_3)
abbrev hs4 (t : Fin (cfgA m).N) : (st4 m t).IsWhole := hstage0_4 (((cfgA m).slots t 4).cast nbuf0_4)
abbrev hs5 (t : Fin (cfgA m).N) : (st5 m t).IsWhole := hstage0_5 (((cfgA m).slots t 5).cast nbuf0_5)
abbrev hs6 (t : Fin (cfgA m).N) : (st6 m t).IsWhole := hstage0_6 (((cfgA m).slots t 6).cast nbuf0_6)

/-- A whole memref read at contents X is its buffer held at the raw contents that read X; -/
theorem pt_of_owns (c : Dev nD) {sp : Space} {S : Shape} {e : EltTy} (M : Memref sig .tc sp S e) (h : M.IsWhole)
    (q : PosShare TreeShare) (X : S.Idx → Elt F e) :
    (owns (c : Thread nD τ) M q X : sProp 𝕄) ⊢ (M.view.loc (c : Thread nD τ) ↦{q} h.unread X) := by
  unfold owns
  rw [h.set_eq_univ]
  iintro ⟨%f, %hf, H⟩
  obtain rfl := h.eq_unread hf
  iexact H

/-- and its buffer held at raw contents f is the memref read at what f reads. -/
theorem owns_of_pt (c : Dev nD) {sp : Space} {S : Shape} {e : EltTy} (M : Memref sig .tc sp S e) (h : M.IsWhole)
    (q : PosShare TreeShare) (f : Buf (Elt F) (M.view.loc (c : Thread nD τ))) :
    (M.view.loc (c : Thread nD τ) ↦{q} f : sProp 𝕄) ⊢ owns (c : Thread nD τ) M q (M.view.read (Elt F) f) := by
  unfold owns
  rw [h.set_eq_univ]
  iintro H; iexists f; isplitr; · ipureintro; rfl
  iexact H

theorem owns_of_unread (c : Dev nD) {sp : Space} {S : Shape} {e : EltTy} (M : Memref sig .tc sp S e) (h : M.IsWhole)
    (q : PosShare TreeShare) (X : S.Idx → Elt F e) :
    (M.view.loc (c : Thread nD τ) ↦{q} h.unread X : sProp 𝕄) ⊢ owns (c : Thread nD τ) M q X :=
  (owns_of_pt c M h q (h.unread X)).trans (Entails.of_eq (by rw [h.read_unread]))

/-! ## The windows' blocks -/

/-- Window w's block at point t, read off its array as the region finds it. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- The body's run at point t from the table and the six input blocks. -/
abbrev K (c : Dev nD) (t : Fin (cfgA m).N) :=
  kernelRun (F := F) c (grid0.coords t) (st0 m t) (hs0 m t) (st1 m t) (hs1 m t) (st2 m t) (hs2 m t) (st3 m t) (hs3 m t)
    (st4 m t) (hs4 m t) (st5 m t) (hs5 m t) (st6 m t) (hs6 m t)
    (tab m c) ((hs0 m t).unread (iblk m c 0 t)) ((hs1 m t).unread (iblk m c 1 t)) ((hs2 m t).unread (iblk m c 2 t))
    ((hs3 m t).unread (iblk m c 3 t)) ((hs4 m t).unread (iblk m c 4 t)) ((hs5 m t).unread (iblk m c 5 t))

/-! ## The pipeline's proof data -/

/-- The invariant between points: the table whole at its contents, the scratch at something. -/
def Φc (c : Dev nD) : sProp 𝕄 :=
  iprop(pt c Mtab (tab m c) ∗ Pipeline.scopedRest (Ix := Unit) (Name := ℕ) (U := UR sig nD τ) (Lvl := ℕ) (Val := Elt F) spec0 c)

/-- The proof data on core c: the arrays as the region finds them; after the body each input's buffer at its
    block and the output's at what the run leaves; the invariant; nothing owed; full shares. -/
def dats (p : Fin 1) (c : Dev nD) : Pipeline.Dat τ (Elt F) Unit ℕ (UR sig nD τ) ℕ (Pipeline.pin (pcfgs (F := F)) (adm m) p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (st6 m t).view.read (Elt F) (K m c t).1
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := rfl
theorem after1 (c : Dev nD) (t : Fin (cfgA m).N) : (dats m 0 c).after 1 t = iblk m c 1 t := rfl
theorem after2 (c : Dev nD) (t : Fin (cfgA m).N) : (dats m 0 c).after 2 t = iblk m c 2 t := rfl
theorem after3 (c : Dev nD) (t : Fin (cfgA m).N) : (dats m 0 c).after 3 t = iblk m c 3 t := rfl
theorem after4 (c : Dev nD) (t : Fin (cfgA m).N) : (dats m 0 c).after 4 t = iblk m c 4 t := rfl
theorem after5 (c : Dev nD) (t : Fin (cfgA m).N) : (dats m 0 c).after 5 t = iblk m c 5 t := rfl

/-- What the body leaves in the output window's buffer at point t: the run's witness, read through the buffer. -/
theorem dats_after_out (c : Dev nD) (t : Fin (cfgA m).N) :
    (dats m 0 c).after 6 t = (st6 m t).view.read (Elt F) (K m c t).1 := rfl

/-- Input window 0's current staging buffer holds its block at every point, fetched there or not. -/
theorem before0 (c : Dev nD) (t : Fin (cfgA m).N) (d) : (dats m 0 c).before 0 t d = iblk m c 0 t :=
  ((dats m 0 c).before_in_eq_fetched 0 rfl (fun _ => rfl) (fun _ _ _ => rfl)
    (fun t => by rw [after0]; unfold Dat.blockOf iblk; rw [A_eq]; try rfl) t d).trans
    (by unfold Dat.fetched Dat.blockOf iblk; rw [A_eq]; try rfl)
/-- Input window 1's current staging buffer holds its block at every point, fetched there or not. -/
theorem before1 (c : Dev nD) (t : Fin (cfgA m).N) (d) : (dats m 0 c).before 1 t d = iblk m c 1 t :=
  ((dats m 0 c).before_in_eq_fetched 1 rfl (fun _ => rfl) (fun _ _ _ => rfl)
    (fun t => by rw [after1]; unfold Dat.blockOf iblk; rw [A_eq]; try rfl) t d).trans
    (by unfold Dat.fetched Dat.blockOf iblk; rw [A_eq]; try rfl)
/-- Input window 2's current staging buffer holds its block at every point, fetched there or not. -/
theorem before2 (c : Dev nD) (t : Fin (cfgA m).N) (d) : (dats m 0 c).before 2 t d = iblk m c 2 t :=
  ((dats m 0 c).before_in_eq_fetched 2 rfl (fun _ => rfl) (fun _ _ _ => rfl)
    (fun t => by rw [after2]; unfold Dat.blockOf iblk; rw [A_eq]; try rfl) t d).trans
    (by unfold Dat.fetched Dat.blockOf iblk; rw [A_eq]; try rfl)
/-- Input window 3's current staging buffer holds its block at every point, fetched there or not. -/
theorem before3 (c : Dev nD) (t : Fin (cfgA m).N) (d) : (dats m 0 c).before 3 t d = iblk m c 3 t :=
  ((dats m 0 c).before_in_eq_fetched 3 rfl (fun _ => rfl) (fun _ _ _ => rfl)
    (fun t => by rw [after3]; unfold Dat.blockOf iblk; rw [A_eq]; try rfl) t d).trans
    (by unfold Dat.fetched Dat.blockOf iblk; rw [A_eq]; try rfl)
/-- Input window 4's current staging buffer holds its block at every point, fetched there or not. -/
theorem before4 (c : Dev nD) (t : Fin (cfgA m).N) (d) : (dats m 0 c).before 4 t d = iblk m c 4 t :=
  ((dats m 0 c).before_in_eq_fetched 4 rfl (fun _ => rfl) (fun _ _ _ => rfl)
    (fun t => by rw [after4]; unfold Dat.blockOf iblk; rw [A_eq]; try rfl) t d).trans
    (by unfold Dat.fetched Dat.blockOf iblk; rw [A_eq]; try rfl)
/-- Input window 5's current staging buffer holds its block at every point, fetched there or not. -/
theorem before5 (c : Dev nD) (t : Fin (cfgA m).N) (d) : (dats m 0 c).before 5 t d = iblk m c 5 t :=
  ((dats m 0 c).before_in_eq_fetched 5 rfl (fun _ => rfl) (fun _ _ _ => rfl)
    (fun t => by rw [after5]; unfold Dat.blockOf iblk; rw [A_eq]; try rfl) t d).trans
    (by unfold Dat.fetched Dat.blockOf iblk; rw [A_eq]; try rfl)

/-! ## The body obligation, at a generic point -/

-- contents stated over a window's block index are handed to lemmas stated over the staging memref's shape: the two
-- index types agree only when unification may unfold plain definitions in a metavariable's type
set_option backward.isDefEq.respectTransparency.types false in
/-- The body at any point: the table and the inputs' buffers hold what the run is stated from, so the run applies;
    the core's owes passes through unread. -/
theorem sound_body (c : Dev nD) (t : Fin (cfgA m).N) :
    iprop((dats m 0 c).Φ t.castSucc ∗ (dats m 0 c).owesAt () t.castSucc
        ∗ (∃ d, owns (c : Thread nD τ) (st0 m t) fullShare ((dats m 0 c).before 0 t d))
        ∗ (∃ d, owns (c : Thread nD τ) (st1 m t) fullShare ((dats m 0 c).before 1 t d))
        ∗ (∃ d, owns (c : Thread nD τ) (st2 m t) fullShare ((dats m 0 c).before 2 t d))
        ∗ (∃ d, owns (c : Thread nD τ) (st3 m t) fullShare ((dats m 0 c).before 3 t d))
        ∗ (∃ d, owns (c : Thread nD τ) (st4 m t) fullShare ((dats m 0 c).before 4 t d))
        ∗ (∃ d, owns (c : Thread nD τ) (st5 m t) fullShare ((dats m 0 c).before 5 t d))
        ∗ (∃ d, owns (c : Thread nD τ) (st6 m t) fullShare ((dats m 0 c).before 6 t d)))
      ⊢ wp frame (wpE (defs₀ (F := F)) Variants.none c none) Set.univ
          (cc0__pma_kernel (grid0.coords t) Mtab (Memref.isWhole_whole _) (st0 m t) (hs0 m t) (st1 m t) (hs1 m t) (st2 m t) (hs2 m t) (st3 m t) (hs3 m t) (st4 m t) (hs4 m t) (st5 m t) (hs5 m t) (st6 m t) (hs6 m t) Mscr (Memref.isWhole_whole _))
          fun _ => iprop((dats m 0 c).Φ t.succ ∗ (dats m 0 c).owesAt () t.succ
            ∗ owns (c : Thread nD τ) (st0 m t) fullShare ((dats m 0 c).after 0 t)
            ∗ owns (c : Thread nD τ) (st1 m t) fullShare ((dats m 0 c).after 1 t)
            ∗ owns (c : Thread nD τ) (st2 m t) fullShare ((dats m 0 c).after 2 t)
            ∗ owns (c : Thread nD τ) (st3 m t) fullShare ((dats m 0 c).after 3 t)
            ∗ owns (c : Thread nD τ) (st4 m t) fullShare ((dats m 0 c).after 4 t)
            ∗ owns (c : Thread nD τ) (st5 m t) fullShare ((dats m 0 c).after 5 t)
            ∗ owns (c : Thread nD τ) (st6 m t) fullShare ((dats m 0 c).after 6 t)) := by
  simp only [before0, before1, before2, before3, before4, before5]
  rw [show (dats m 0 c).Φ t.castSucc = Φc m c from rfl, show (dats m 0 c).Φ t.succ = Φc m c from rfl,
    show (dats m 0 c).owesAt () t.succ = (dats m 0 c).owesAt () t.castSucc from rfl,
    after0, after1, after2, after3, after4, after5, dats_after_out]
  unfold Φc; rw [scopedRest0_eq]
  iintro ⟨⟨Ht, ⟨%fs, Hs⟩⟩, Ho, ⟨%d0, H0⟩, ⟨%d1, H1⟩, ⟨%d2, H2⟩, ⟨%d3, H3⟩, ⟨%d4, H4⟩, ⟨%d5, H5⟩, ⟨%d6, H6⟩⟩
  ihave H0 := (pt_of_owns c (st0 m t) (hs0 m t) fullShare (iblk m c 0 t)) $$ H0
  ihave H1 := (pt_of_owns c (st1 m t) (hs1 m t) fullShare (iblk m c 1 t)) $$ H1
  ihave H2 := (pt_of_owns c (st2 m t) (hs2 m t) fullShare (iblk m c 2 t)) $$ H2
  ihave H3 := (pt_of_owns c (st3 m t) (hs3 m t) fullShare (iblk m c 3 t)) $$ H3
  ihave H4 := (pt_of_owns c (st4 m t) (hs4 m t) fullShare (iblk m c 4 t)) $$ H4
  ihave H5 := (pt_of_owns c (st5 m t) (hs5 m t) fullShare (iblk m c 5 t)) $$ H5
  ihave H6 := (pt_of_owns c (st6 m t) (hs6 m t) fullShare ((dats m 0 c).before 6 t d6)) $$ H6
  iapply ((K m c t).2 _ fs Set.univ _)
  isplitl [Ht]; · iexact Ht
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro ⟨Ht, H0, H1, H2, H3, H4, H5, H6, Hs⟩
  isplitl [Ht Hs]
  · isplitl [Ht]; · iexact Ht
    iexact Hs
  isplitl [Ho]; · iexact Ho
  isplitl [H0]; · iapply (owns_of_unread c (st0 m t) (hs0 m t) fullShare (iblk m c 0 t)); iexact H0
  isplitl [H1]; · iapply (owns_of_unread c (st1 m t) (hs1 m t) fullShare (iblk m c 1 t)); iexact H1
  isplitl [H2]; · iapply (owns_of_unread c (st2 m t) (hs2 m t) fullShare (iblk m c 2 t)); iexact H2
  isplitl [H3]; · iapply (owns_of_unread c (st3 m t) (hs3 m t) fullShare (iblk m c 3 t)); iexact H3
  isplitl [H4]; · iapply (owns_of_unread c (st4 m t) (hs4 m t) fullShare (iblk m c 4 t)); iexact H4
  isplitl [H5]; · iapply (owns_of_unread c (st5 m t) (hs5 m t) fullShare (iblk m c 5 t)); iexact H5
  iapply (owns_of_pt c (st6 m t) (hs6 m t) fullShare (K m c t).1); iexact H6

/-- The library's body obligation, at every point. -/
theorem body_obligation (c : Dev nD) : BodyObligation (dats m 0 c) (defs₀ (F := F)) Variants.none () Set.univ := fun t => by
  rw [bigSep_W0, bigSep_W0]
  exact sound_body m c t

/-! ## The buffers at each segment boundary -/

/-- At the region's exit: its arrays at what the pipeline leaves, every other buffer as entered. -/
def W2 (c : Dev nD) : Valuation τ sig (Elt F) :=
  Pipeline.withArrays spec0 c (W1 m c) fun w => (dats m 0 c).arrAt w (cfgA m).N
theorem W2_arr (c : Dev nD) (w : Fin (cfgA m).W) :
    W2 m c (Proc.devRef .tc (Pipeline.arrRef spec0 w)) = (dats m 0 c).arrAt w (cfgA m).N := by
  unfold W2; exact Pipeline.withArrays_arr spec0 (launch0 (F := F)).win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev V2 (c : Dev nD) (b : Ref sig .tc) : Buf (Elt F) ((c : Thread nD τ).loc b) := W2 m c b
theorem hF0 (c : Dev nD) (w : Fin (cfgA m).W) : (dats m 0 c).arrAt w (cfgA m).N = V2 m c (Pipeline.arrRef spec0 w) :=
  (W2_arr m c w).symm
theorem hrest0 (c : Dev nD) : ∀ b, b ∉ Finset.univ.image (Pipeline.arrRef spec0) → V2 m c b = V m c b :=
  fun b hb => W2_of_ne m c b fun w e => hb (Finset.mem_image.mpr ⟨w, Finset.mem_univ _, e⟩)

/-- After the three operations behind the region: the end. -/
abbrev W3 (c : Dev nD) : Valuation τ sig (Elt F) := StableHlo.after hostOps1 (W2 m c)

/-- None of the three writes anything but its result. -/
theorem not_written1 (b : Ref sig .tc) (hb : b ≠ main_c ∧ b ≠ main_v5 ∧ b ≠ main_v6) :
    ∀ op ∈ (hostOps1 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.nullary_writes, StableHlo.unary_writes, StableHlo.binary_writes, Finset.mem_singleton] <;>
    exact StableHlo.devRef_ne_of_ne ‹_›

theorem W3_of_ne (c : Dev nD) (b : Ref sig .tc) (hb : b ≠ main_c ∧ b ≠ main_v5 ∧ b ≠ main_v6) :
    W3 m c (Proc.devRef .tc b) = W2 m c (Proc.devRef .tc b) :=
  StableHlo.after_of_forall_not_mem (b := Proc.devRef .tc b) hostOps1 (W2 m c) (not_written1 b hb)

/-- A buffer that is no window's array and that no host operation writes ends as launched. -/
theorem W3_launch (c : Dev nD) (b : Ref sig .tc) (h1 : b ≠ main_c ∧ b ≠ main_v5 ∧ b ≠ main_v6)
    (hw : ∀ w, Pipeline.arrRef spec0 w ≠ b) (h0 : b ≠ main_v0 ∧ b ≠ main_v1 ∧ b ≠ main_v2 ∧ b ≠ main_v3) :
    W3 m c (Proc.devRef .tc b) = m ((c : Thread nD τ).loc b) :=
  (W3_of_ne m c b h1).trans ((W2_of_ne m c b hw).trans (V_of_ne m c b h0))

/-- The second result: the table clamped at 32. -/
theorem W3_v6 (c : Dev nD) : W3 m c (Proc.devRef .tc main_v6)
    = (minsi : (⟨S32, .i32⟩ : BufTy).Contents (Elt F) → (⟨S32, .i32⟩ : BufTy).Contents (Elt F) → (⟨S32, .i32⟩ : BufTy).Contents (Elt F))
        ((broadcastInDim S32 ![] bcast_S_S32 : (⟨S_, .i32⟩ : BufTy).Contents (Elt F) → (⟨S32, .i32⟩ : BufTy).Contents (Elt F)) (constantI S_ 32 32#32))
        (m ((c : Thread nD τ).loc main_arg1)) := by
  have harg1 : W2 m c (Proc.devRef .tc main_arg1) = m ((c : Thread nD τ).loc main_arg1) :=
    (W2_of_ne m c main_arg1 (by decide)).trans (V_of_ne m c main_arg1 (by decide))
  simp only [W3, hostOps1, StableHlo.after_cons, StableHlo.after_nil]
  rw [StableHlo.binary_result', StableHlo.unary_result', StableHlo.nullary_result',
    StableHlo.unary_result_ne _ _ _ _ _ _ (by decide : main_arg1 ≠ main_v5),
    StableHlo.nullary_result_ne _ _ _ _ (by decide : main_arg1 ≠ main_c), harg1]

/-! ## The launch, by the library: @main as segments -/

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every segment: the core's owes, at nothing. -/
abbrev R (c : Dev nD) : sProp 𝕄 := iprop(∃ W, owes (c : Thread nD τ) (0 : CellTallies nD τ sig Unit) W)

theorem hostOps0_fresh : ∀ op ∈ (hostOps0 : List (HloOp τ sig (Elt F))), op.fresh = ∅ := by
  intro _ h; (repeat (cases h with | head => rfl | tail _ h => ?_)); exact nomatch h
theorem hostOps1_fresh : ∀ op ∈ (hostOps1 : List (HloOp τ sig (Elt F))), op.fresh = ∅ := by
  intro _ h; (repeat (cases h with | head => rfl | tail _ h => ?_)); exact nomatch h

/-- The four transposes as a segment over the unscoped buffers. -/
def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m) R

/-- The three operations behind the region as a segment over the unscoped buffers. -/
def seg1 : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W2 m) R

/-- The table as the launch hands it to the region. -/
theorem prefHeld_eq (c : Dev nD) :
    (Pipeline.prefHeld (Ix := Unit) (Name := ℕ) (U := UR sig nD τ) (Lvl := ℕ) pre0 c (fun _ => fullShare) (tbl m) : sProp 𝕄)
      = pt c Mtab (tab m c) := by
  have h : tbl m 0 = V m c main_arg1 := (congrFun (V_pre m c) 0).symm
  unfold Pipeline.prefHeld
  rw [show (Finset.univ : Finset (Fin 1)) = {(0 : Fin 1)} from by decide, bigSep_singleton, h]
  rfl

-- a library lemma stated over the pinned configuration unifies only when unification may unfold plain
-- definitions in a metavariable's type
set_option backward.isDefEq.respectTransparency.types false in
/-- THE REGION: entered from every unscoped buffer as the transposes left it, the table into the invariant, the
    weights and the tail's buffers bypassing; left with the arrays at their final contents and the table back. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X _ := iprop(emp)
  Y c := pt c Mtab (tab m c)
  Z c := Pipeline.unscopedRestP (Ix := Unit) (Name := ℕ) (U := UR sig nD τ) (Lvl := ℕ) pre0 spec0 c (V m c)
  hentry c := by
    rw [Pipeline.ownSems0_none]
    have hsplit := Pipeline.arrays_of_unscopedBufs (p := 0) (pcfgs (F := F)) (adm m) (dats m) (launch0 (F := F)).win (launch0 (F := F)).arr_whole c
      ((dats m 0 c).share_full fun _ => rfl) (V m c) fun _ => rfl
    rw [Pipeline.unscopedBufs_held, Pipeline.unscopedRest_split (launch0 (F := F)).pre c (V m c), V_pre m c] at hsplit
    iintro ⟨⟨Hub, HO⟩, -, -⟩
    ihave H := hsplit $$ Hub
    icases H with ⟨Ha, Hp, Hrest⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = Φc m c from rfl, prefHeld_eq m c]; unfold Φc
    iintro ⟨-, Ht, Hr⟩
    isplitl [Ht]; · iexact Ht
    iexact Hr
  hout c := by
    rw [Pipeline.ownSems0_none, show (dats m 0 c).Φ (Fin.last _) = Φc m c from rfl]; unfold Φc
    iintro ⟨Ht, Hr⟩
    isplitl [Ht]; · iexact Ht
    isplitr; · iempintro
    iexact Hr
  hexit c := by
    have hjoin := Pipeline.unscopedBufs_of_arrays (p := 0) (pcfgs (F := F)) (adm m) (Ix := Unit) (Name := ℕ) (U := UR sig nD τ) (Lvl := ℕ)
      (launch0 (F := F)).win (launch0 (F := F)).arr_whole c (dats m) ((dats m 0 c).share_full fun _ => rfl)
      (V m c) (V2 m c) ((dats m 0 c).arrAt · (cfgA m).N) (hF0 m c) (hrest0 m c)
    rw [Pipeline.unscopedBufs_held, Pipeline.unscopedRest_split (launch0 (F := F)).pre c (V m c), V_pre m c, prefHeld_eq m c] at hjoin
    iintro ⟨Ha, HO, HY, HZ⟩
    imodintro
    isplitl [Ha HY HZ]
    · iapply hjoin
      isplitl [Ha]; · iexact Ha
      isplitl [HY]; · iexact HY
      iexact HZ
    unfold Pipeline.Dat.owesAt Pipeline.owesWithin
    icases HO with ⟨%W, -, HO⟩; iexists W; iexact HO

/-- @main as the list of the three. -/
abbrev segs : List (Pipeline.Seg (pcfgs (F := F)) (adm m) (dats m) () defs₀ 𝒱₀ L lv) :=
  [.host (seg0 m), .region (reg0 m), .host (seg1 m)]

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- A final memory that holds every unscoped buffer at the last boundary's contents holds each window's array at
    what the pipeline library computes. -/
theorem final_arr (c : Dev nD) (s : MemSt nD τ sig (Elt F))
    (h : ∀ b ∈ Pipeline.ucRefs τ sig, s.mem (((c : Thread nD τ)).1, b) = W3 m c b) (w : Fin 7) :
    s.mem (((cfgA m).win w).arr.view.loc (c : Thread nD τ)) = (dats m 0 c).arrAt w (cfgA m).N := by
  have hu : ∀ w : Fin 7, ¬ (Proc.devRef .tc (Pipeline.arrRef spec0 w) : DevRef τ sig).isScoped := by decide
  have hne : ∀ w : Fin 7, Pipeline.arrRef spec0 w ≠ main_c ∧ Pipeline.arrRef spec0 w ≠ main_v5 ∧ Pipeline.arrRef spec0 w ≠ main_v6 := by decide
  exact (h _ (mem_uc (Pipeline.arrRef spec0 w) (hu w))).trans ((W3_of_ne m c _ (hne w)).trans (W2_arr m c w))

-- the launch theorem's implicit arguments are found by unifying its conclusion with this one, which takes unfolding
-- plain definitions in a metavariable's type
set_option backward.isDefEq.respectTransparency.types false in
/-- At the compiled mesh, for any float values, from any memory with zero counters: every weakly fair execution of
    @main on the TensorCores terminates, and every final state has each window's array at what the pipeline library
    computes, the second result at the table clamped at 32, and the table and the four weight matrices unchanged. -/
theorem run_main : θ_run (defs (F := F)) (onTc (τ := τ) (main (F := F))) ⟨m, fun _ => 0, ρ⟩ (fun r => ∀ c : Dev nD,
      (∀ w : Fin 7, r.2.mem (((cfgA m).win w).arr.view.loc (c : Thread nD τ)) = (dats m 0 c).arrAt w (cfgA m).N)
      ∧ r.2.mem ((c : Thread nD τ).loc main_v6) = (minsi : (⟨S32, .i32⟩ : BufTy).Contents (Elt F) → (⟨S32, .i32⟩ : BufTy).Contents (Elt F) → (⟨S32, .i32⟩ : BufTy).Contents (Elt F))
          ((broadcastInDim S32 ![] bcast_S_S32 : (⟨S_, .i32⟩ : BufTy).Contents (Elt F) → (⟨S32, .i32⟩ : BufTy).Contents (Elt F)) (constantI S_ 32 32#32))
          (m ((c : Thread nD τ).loc main_arg1))
      ∧ r.2.mem ((c : Thread nD τ).loc main_arg1) = m ((c : Thread nD τ).loc main_arg1)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  Pipeline.θ_run_regions_kit (pcfgs (F := F)) (adm m) (dats m) () (cellOf_inj (adm m)) emb₁ defs₀ 𝒱₀ L lv m ρ main (segs m)
    (fun c Q => by rw [main_segs (adm m) (dats m) () 𝒱₀ L lv (seg0 m) (seg1 m) (reg0 m) rfl rfl c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm m)) (cellOf_inj (adm m)))
      (Pipeline.launchToks (Pipeline.pin (pcfgs (F := F)) (adm m)) (cellOf_inj (adm m))))
    (hu₀ := by
      iintro Hu; imodintro
      isplitl [Hu]
      · iapply (show (ownU (initOf (Pipeline.cells (Pipeline.pin (pcfgs (F := F)) (adm m)) (cellOf_inj (adm m)))
              (Pipeline.launchToks (Pipeline.pin (pcfgs (F := F)) (adm m)) (cellOf_inj (adm m)))) : sProp 𝕄)
            ⊢ BI.own (emb₁ (initOf (Pipeline.cells (Pipeline.pin (pcfgs (F := F)) (adm m)) (cellOf_inj (adm m)))
              (Pipeline.launchToks (Pipeline.pin (pcfgs (F := F)) (adm m)) (cellOf_inj (adm m))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (W3 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c)
        from Pipeline.unscopedBufs_held c (V₀ m c)]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W3 m c b)
    (hfin := fun c s' => by
      iintro ⟨Hh, HSI⟩
      unfold StableHlo.held
      imodintro
      iapply (pointsTo_read_all (Pipeline.ucRefs τ sig) (fun b => (((c : Thread nD τ)).1, b)) (W3 m c) s')
      isplitl [Hh] <;> iassumption)
    (hQ := fun s h c =>
      ⟨final_arr m c s (h c),
        (h c _ (mem_uc main_v6 (by decide))).trans (W3_v6 m c),
        (h c _ (mem_uc main_arg1 (by decide))).trans (W3_launch m c main_arg1 (by decide) (by decide) (by decide)),
        (h c _ (mem_uc main_arg3 (by decide))).trans (W3_launch m c main_arg3 (by decide) (by decide) (by decide)),
        (h c _ (mem_uc main_arg4 (by decide))).trans (W3_launch m c main_arg4 (by decide) (by decide) (by decide)),
        (h c _ (mem_uc main_arg5 (by decide))).trans (W3_launch m c main_arg5 (by decide) (by decide) (by decide)),
        (h c _ (mem_uc main_arg6 (by decide))).trans (W3_launch m c main_arg6 (by decide) (by decide) (by decide))⟩)

end Cert.KernelIdeal.Hand

end
-- ==== Proof.Spec.lean ====
/-
  The mathematics of one pooling-attention layer with length masks, written once over plain index functions.

  For one batch element with length word `l`: thirty-two seed rows attend over 2048 input rows through eight
  heads of width thirty-two.  With `q` the projected seeds, `k` and `v` the projected and length-masked keys
  and values, `rm` the seed-row mask and `cm` the key mask,

      ex h s n   = exp ((∑ d, q s (32h+d) · k n (32h+d)) · 1/16) · rm s · cm n
      att h s n  = ex h s n / (∑ n', ex h s n' + ε)
      head h s d = q s (32h+d) + ∑ n, att h s n · v n (32h+d)

  the heads are laid side by side into a row of width 256 (`merged`), and the layer's result is
  `(merged + max (merged · Wᵀ) 0) · rm` (`gated`).  `out` instantiates this at the projections of the argument
  arrays.  Every sum is a finite sum over `Fin`; the two float literals are kept as their bit patterns.
-/
import Idealize.ShloMosaic.PureOps.Ideal
import Idealize.ShloMosaic.PureOps.Ideal.Laws

noncomputable section

open scoped BigOperators

namespace Cert.Spec

open Idealize.ShloMosaic

/-- One where position `n` lies below the length word `l` read signed, else zero. -/
def mask (n : ℕ) (l : BitVec 32) : EReal := if (BitVec.ofNat 32 n).slt l then 1 else 0

/-- The score scale, one sixteenth, as the programs spell it. -/
def scale : EReal := Ideal.ofBits .f32 0x3D800000#32
/-- The softmax denominator's guard, as the programs spell it. -/
def eps : EReal := Ideal.ofBits .f32 0x26901D7D#32

/-- Column `32 h + d` of a row of width 256: coordinate `d` of head `h`. -/
def col (h : Fin 8) (d : Fin 32) : Fin 256 := ⟨32 * h.val + d.val, by omega⟩

theorem col_val (h : Fin 8) (d : Fin 32) : (col h d).val = 32 * h.val + d.val := rfl

/-- The head a column belongs to, and its coordinate inside the head. -/
def headOf (e : Fin 256) : Fin 8 := ⟨e.val / 32, by omega⟩
def coordOf (e : Fin 256) : Fin 32 := ⟨e.val % 32, Nat.mod_lt _ (by decide)⟩

theorem col_headOf_coordOf (e : Fin 256) : col (headOf e) (coordOf e) = e :=
  Fin.ext (by simp only [col_val, headOf, coordOf]; omega)
theorem headOf_col (h : Fin 8) (d : Fin 32) : headOf (col h d) = h :=
  Fin.ext (by simp only [headOf, col_val]; omega)
theorem coordOf_col (h : Fin 8) (d : Fin 32) : coordOf (col h d) = d :=
  Fin.ext (by simp only [coordOf, col_val]; omega)

section OneElement

variable (q : Fin 32 → Fin 256 → EReal) (k v : Fin 2048 → Fin 256 → EReal)
  (rm : Fin 32 → EReal) (cm : Fin 2048 → EReal)

/-- The masked exponential of the scaled score of seed row `s` against input row `n` in head `h`. -/
def ex (h : Fin 8) (s : Fin 32) (n : Fin 2048) : EReal :=
  Ideal.exp ((∑ d : Fin 32, q s (col h d) * k n (col h d)) * scale) * rm s * cm n

/-- The attention weight: the masked exponential over the guarded row sum. -/
def att (h : Fin 8) (s : Fin 32) (n : Fin 2048) : EReal :=
  Ideal.div (ex q k rm cm h s n) ((∑ n' : Fin 2048, ex q k rm cm h s n') + eps)

/-- Head `h`'s output: the seed's own projection plus the attention-weighted values. -/
def head (h : Fin 8) (s d : Fin 32) : EReal :=
  q s (col h d) + ∑ n : Fin 2048, att q k rm cm h s n * v n (col h d)

/-- The eight heads side by side. -/
def merged (s : Fin 32) (e : Fin 256) : EReal := head q k v rm cm (headOf e) s (coordOf e)

/-- The residual rectified projection, gated by the seed-row mask; `w e' e` is the entry the merged row's
    coordinate `e'` meets on the way to output column `e`. -/
def gated (w : Fin 256 → Fin 256 → EReal) (s : Fin 32) (e : Fin 256) : EReal :=
  (merged q k v rm cm s e + max (∑ e' : Fin 256, merged q k v rm cm s e' * w e' e) 0) * rm s

end OneElement

section Arrays

variable (x : Fin 32 → Fin 2048 → Fin 256 → EReal) (len : Fin 32 → BitVec 32) (S : Fin 32 → Fin 256 → EReal)
  (Wq Wk Wv Wo : Fin 256 → Fin 256 → EReal)

/-- The projections `y = x Wᵀ`: the seeds', and the inputs' masked by the element's length. -/
def projQ (s : Fin 32) (e : Fin 256) : EReal := ∑ j : Fin 256, S s j * Wq e j
def projK (b : Fin 32) (n : Fin 2048) (e : Fin 256) : EReal := (∑ j : Fin 256, x b n j * Wk e j) * mask n.val (len b)
def projV (b : Fin 32) (n : Fin 2048) (e : Fin 256) : EReal := (∑ j : Fin 256, x b n j * Wv e j) * mask n.val (len b)

/-- The layer's result at batch element `b`, seed row `s`, column `e`. -/
def out (b : Fin 32) (s : Fin 32) (e : Fin 256) : EReal :=
  gated (projQ S Wq) (projK x len Wk b) (projV x len Wv b) (fun s => mask s.val (len b)) (fun n => mask n.val (len b))
    (fun e' e => Wo e e') s e

end Arrays

end Cert.Spec

end
-- ==== Proof.KI.ArrayValue.lean ====
/-
  From blocks to the array: the pooling-attention pipeline's output array after the run.

  Grid point t handles batch element t.  It is handed rows t of the input, the four transposed weight
  matrices and the seeds whole, and reads word t of the lengths; it writes back block (t, 0, 0) of the
  output.  The 32 blocks tile the output array, so once each point's block is the layer's result at its batch
  element, the array after the run is the layer's result over the launch memory's arguments, index by index.

  The printed index maps are decided once over the grid; the buffers the host transposed before the region are
  read at an index; each block handed to the body is read where its rectangle says; and the body's result at
  block level — the gated attention of the blocks' projections — enters as one hypothesis.
-/
import proofs.«416182_j80152679678423_1_alg».proof.Proof.KI.Launch
import proofs.«416182_j80152679678423_1_alg».proof.Proof.Spec
import Idealize.ShloMosaic.Lib.Pipeline.Value
import Idealize.ShloMosaic.Lib.StableHlo.Run
import Idealize.ShloMosaic.Lib.ValueIdx

noncomputable section

open scoped BigOperators

namespace Cert.KernelIdeal.ArrayValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)

/-! ## From the blocks' projections to the layer's result -/

/-- Batch element `b`'s result from its blocks: when the input block holds the element's rows, the seed block the
    seeds, the four weight blocks the transposed matrices and `l` is the element's length word, the gated
    attention of the blocks' projections is the layer's result at `b`. -/
theorem out_of_blocks (x : Fin 32 → Fin 2048 → Fin 256 → EReal) (len : Fin 32 → BitVec 32) (S : Fin 32 → Fin 256 → EReal)
    (Wq Wk Wv Wo : Fin 256 → Fin 256 → EReal)
    (xb : (⟨3, ![1, 2048, 256]⟩ : Shape).Idx → EReal) (wq wk wv wo : (⟨2, ![256, 256]⟩ : Shape).Idx → EReal)
    (sb : (⟨3, ![1, 32, 256]⟩ : Shape).Idx → EReal) (l : BitVec 32) (b : Fin 32)
    (hx : ∀ (n : Fin 2048) (j : Fin 256), xb (ix3 (0 : Fin 1) n j) = x b n j)
    (hs : ∀ (s : Fin 32) (j : Fin 256), sb (ix3 (0 : Fin 1) s j) = S s j)
    (hq : ∀ j e : Fin 256, wq (ix2 j e) = Wq e j) (hk : ∀ j e : Fin 256, wk (ix2 j e) = Wk e j)
    (hv : ∀ j e : Fin 256, wv (ix2 j e) = Wv e j) (ho : ∀ e' e : Fin 256, wo (ix2 e' e) = Wo e e')
    (hl : l = len b) (s : Fin 32) (e : Fin 256) :
    Spec.gated (fun s e => ∑ j : Fin 256, sb (ix3 (0 : Fin 1) s j) * wq (ix2 j e))
      (fun n e => (∑ j : Fin 256, xb (ix3 (0 : Fin 1) n j) * wk (ix2 j e)) * Spec.mask n.val l)
      (fun n e => (∑ j : Fin 256, xb (ix3 (0 : Fin 1) n j) * wv (ix2 j e)) * Spec.mask n.val l)
      (fun s => Spec.mask s.val l) (fun n => Spec.mask n.val l) (fun e' e => wo (ix2 e' e)) s e
    = Spec.out x len S Wq Wk Wv Wo b s e := by
  subst hl
  have e1 : (fun (s : Fin 32) (e : Fin 256) => ∑ j : Fin 256, sb (ix3 (0 : Fin 1) s j) * wq (ix2 j e)) = Spec.projQ S Wq := by
    funext s e; simp only [Spec.projQ, hs, hq]
  have e2 : (fun (n : Fin 2048) (e : Fin 256) => (∑ j : Fin 256, xb (ix3 (0 : Fin 1) n j) * wk (ix2 j e)) * Spec.mask n.val (len b))
      = Spec.projK x len Wk b := by
    funext n e; simp only [Spec.projK, hx, hk]
  have e3 : (fun (n : Fin 2048) (e : Fin 256) => (∑ j : Fin 256, xb (ix3 (0 : Fin 1) n j) * wv (ix2 j e)) * Spec.mask n.val (len b))
      = Spec.projV x len Wv b := by
    funext n e; simp only [Spec.projV, hx, hv]
  have e4 : (fun e' e : Fin 256 => wo (ix2 e' e)) = fun e' e => Wo e e' := by
    funext e' e; exact ho e' e
  rw [e1, e2, e3, e4]
  rfl

variable (m : (ℓ : Loc nD τ sig) → Buf (Elt Ideal) ℓ)

/-! ## The index maps over the grid -/

/-- Decided over the 32 grid points: point `t` takes block `(t, 0, 0)` of the output and of the input, and its one
    grid coordinate is `t` itself (the word of the lengths the body reads). -/
theorem idx_moving : ∀ t : Fin grid0.N,
    cc0_transform_6 (grid0.coords t) (0 : Fin 3) = t.val ∧ cc0_transform_6 (grid0.coords t) (1 : Fin 3) = 0
    ∧ cc0_transform_6 (grid0.coords t) (2 : Fin 3) = 0
    ∧ cc0_transform_0 (grid0.coords t) (0 : Fin 3) = t.val ∧ cc0_transform_0 (grid0.coords t) (1 : Fin 3) = 0
    ∧ cc0_transform_0 (grid0.coords t) (2 : Fin 3) = 0
    ∧ (grid0.coords t (0 : Fin 1)).val = t.val := by decide +kernel

/-- and the four weight matrices and the seeds are taken whole at every point. -/
theorem idx_whole : ∀ t : Fin grid0.N,
    (∀ a : Fin 2, cc0_transform_1 (grid0.coords t) a = 0) ∧ (∀ a : Fin 2, cc0_transform_2 (grid0.coords t) a = 0)
    ∧ (∀ a : Fin 2, cc0_transform_3 (grid0.coords t) a = 0) ∧ (∀ a : Fin 2, cc0_transform_4 (grid0.coords t) a = 0)
    ∧ (∀ a : Fin 3, cc0_transform_5 (grid0.coords t) a = 0) := by decide +kernel

/-- The output's block index changes at every point, so every point writes its block back. -/
theorem flush_out : ∀ t : Fin grid0.N, Pipeline.Window.flushOf grid0 true cc0_transform_6 t = true := by decide +kernel

theorem flush_win (t : Fin (cfgA m).N) : ((cfgA m).win 6).flush t = true := flush_out t

/-! ## The buffers the host wrote before the region, at an index -/

/-- The region finds in `main_v0` the transposed query weights. -/
theorem V_v0_apply (c : Dev nD) (j e : Fin 256) :
    (V m c main_v0 : S256x256.Idx → EReal) (ix2 j e) = (m ((c : Thread nD τ).loc main_arg3) : S256x256.Idx → EReal) (ix2 e j) := by
  have h : (V m c main_v0 : S256x256.Idx → EReal)
      = transpose S256x256 [1, 0] (m ((c : Thread nD τ).loc main_arg3) : S256x256.Idx → EReal) transposes_S256x256_S256x256_1_0 := by
    dsimp only [V, hostOps0]; after_results
  rw [h]
  refine transpose_apply _ _ _ _ _ fun b => ?_
  match b with
  | ⟨0, _⟩ => rfl
  | ⟨1, _⟩ => rfl

/-- The region finds in `main_v1` the transposed key weights. -/
theorem V_v1_apply (c : Dev nD) (j e : Fin 256) :
    (V m c main_v1 : S256x256.Idx → EReal) (ix2 j e) = (m ((c : Thread nD τ).loc main_arg4) : S256x256.Idx → EReal) (ix2 e j) := by
  have h : (V m c main_v1 : S256x256.Idx → EReal)
      = transpose S256x256 [1, 0] (m ((c : Thread nD τ).loc main_arg4) : S256x256.Idx → EReal) transposes_S256x256_S256x256_1_0 := by
    dsimp only [V, hostOps0]; after_results
  rw [h]
  refine transpose_apply _ _ _ _ _ fun b => ?_
  match b with
  | ⟨0, _⟩ => rfl
  | ⟨1, _⟩ => rfl

/-- The region finds in `main_v2` the transposed value weights. -/
theorem V_v2_apply (c : Dev nD) (j e : Fin 256) :
    (V m c main_v2 : S256x256.Idx → EReal) (ix2 j e) = (m ((c : Thread nD τ).loc main_arg5) : S256x256.Idx → EReal) (ix2 e j) := by
  have h : (V m c main_v2 : S256x256.Idx → EReal)
      = transpose S256x256 [1, 0] (m ((c : Thread nD τ).loc main_arg5) : S256x256.Idx → EReal) transposes_S256x256_S256x256_1_0 := by
    dsimp only [V, hostOps0]; after_results
  rw [h]
  refine transpose_apply _ _ _ _ _ fun b => ?_
  match b with
  | ⟨0, _⟩ => rfl
  | ⟨1, _⟩ => rfl

/-- The region finds in `main_v3` the transposed output weights. -/
theorem V_v3_apply (c : Dev nD) (j e : Fin 256) :
    (V m c main_v3 : S256x256.Idx → EReal) (ix2 j e) = (m ((c : Thread nD τ).loc main_arg6) : S256x256.Idx → EReal) (ix2 e j) := by
  have h : (V m c main_v3 : S256x256.Idx → EReal)
      = transpose S256x256 [1, 0] (m ((c : Thread nD τ).loc main_arg6) : S256x256.Idx → EReal) transposes_S256x256_S256x256_1_0 := by
    dsimp only [V, hostOps0]; after_results
  rw [h]
  refine transpose_apply _ _ _ _ _ fun b => ?_
  match b with
  | ⟨0, _⟩ => rfl
  | ⟨1, _⟩ => rfl

/-! ## The blocks the body is handed at a point -/

/-- Point `t`'s block of the input, over its literal shape; -/
abbrev xblk (c : Dev nD) (t : Fin (cfgA m).N) : S1x2048x256.Idx → EReal := iblk m c 0 t
/-- of the four transposed weight matrices; -/
abbrev wblk1 (c : Dev nD) (t : Fin (cfgA m).N) : S256x256.Idx → EReal := iblk m c 1 t
abbrev wblk2 (c : Dev nD) (t : Fin (cfgA m).N) : S256x256.Idx → EReal := iblk m c 2 t
abbrev wblk3 (c : Dev nD) (t : Fin (cfgA m).N) : S256x256.Idx → EReal := iblk m c 3 t
abbrev wblk4 (c : Dev nD) (t : Fin (cfgA m).N) : S256x256.Idx → EReal := iblk m c 4 t
/-- and of the seeds; -/
abbrev sblk (c : Dev nD) (t : Fin (cfgA m).N) : S1x32x256.Idx → EReal := iblk m c 5 t
/-- and batch element `b`'s length word, as the body reads it off the table. -/
abbrev lenWord (c : Dev nD) (b : Fin 32) : BitVec 32 := (tab m c : S32.Idx → BitVec 32) (ix1 b)

/-- Point `t`'s block of the input holds batch element `t`'s rows. -/
theorem xblk_apply (c : Dev nD) (t : Fin (cfgA m).N) (b : Fin 32) (hb : b.val = t.val) (n : Fin 2048) (j : Fin 256) :
    xblk m c t (ix3 (0 : Fin 1) n j) = (m ((c : Thread nD τ).loc main_arg0) : S32x2048x256.Idx → EReal) (ix3 b n j) := by
  obtain ⟨-, -, -, e0, e1, e2, -⟩ := idx_moving t
  show V m c main_arg0 _ = _
  refine (congrFun (V_arg0 m c) _).trans ?_
  refine congrArg (m ((c : Thread nD τ).loc main_arg0) : S32x2048x256.Idx → EReal) (funext fun a => Fin.ext ?_)
  match a with
  | ⟨0, _⟩ => show cc0_transform_0 (grid0.coords t) (0 : Fin 3) * 1 + 1 * 0 = b.val; omega
  | ⟨1, _⟩ => show cc0_transform_0 (grid0.coords t) (1 : Fin 3) * 2048 + 1 * n.val = n.val; omega
  | ⟨2, _⟩ => show cc0_transform_0 (grid0.coords t) (2 : Fin 3) * 256 + 1 * j.val = j.val; omega

/-- The seed block is the seed array, at every point. -/
theorem sblk_apply (c : Dev nD) (t : Fin (cfgA m).N) (s : Fin 32) (j : Fin 256) :
    sblk m c t (ix3 (0 : Fin 1) s j) = (m ((c : Thread nD τ).loc main_arg2) : S1x32x256.Idx → EReal) (ix3 (0 : Fin 1) s j) := by
  have e5 := (idx_whole t).2.2.2.2
  show V m c main_arg2 _ = _
  refine (congrFun (V_arg2 m c) _).trans ?_
  refine congrArg (m ((c : Thread nD τ).loc main_arg2) : S1x32x256.Idx → EReal) (funext fun a => Fin.ext ?_)
  match a with
  | ⟨0, _⟩ => show cc0_transform_5 (grid0.coords t) (0 : Fin 3) * 1 + 1 * 0 = 0; have := e5 0; omega
  | ⟨1, _⟩ => show cc0_transform_5 (grid0.coords t) (1 : Fin 3) * 32 + 1 * s.val = s.val; have := e5 1; omega
  | ⟨2, _⟩ => show cc0_transform_5 (grid0.coords t) (2 : Fin 3) * 256 + 1 * j.val = j.val; have := e5 2; omega

/-- Each weight block is the whole of its transposed matrix, at every point. -/
theorem wblk1_apply (c : Dev nD) (t : Fin (cfgA m).N) (j e : Fin 256) :
    wblk1 m c t (ix2 j e) = (m ((c : Thread nD τ).loc main_arg3) : S256x256.Idx → EReal) (ix2 e j) := by
  have ew := (idx_whole t).1
  refine Eq.trans ?_ (V_v0_apply m c j e)
  show V m c main_v0 _ = _
  refine congrArg (V m c main_v0 : S256x256.Idx → EReal) (funext fun a => Fin.ext ?_)
  match a with
  | ⟨0, _⟩ => show cc0_transform_1 (grid0.coords t) (0 : Fin 2) * 256 + 1 * j.val = j.val; have := ew 0; omega
  | ⟨1, _⟩ => show cc0_transform_1 (grid0.coords t) (1 : Fin 2) * 256 + 1 * e.val = e.val; have := ew 1; omega

theorem wblk2_apply (c : Dev nD) (t : Fin (cfgA m).N) (j e : Fin 256) :
    wblk2 m c t (ix2 j e) = (m ((c : Thread nD τ).loc main_arg4) : S256x256.Idx → EReal) (ix2 e j) := by
  have ew := (idx_whole t).2.1
  refine Eq.trans ?_ (V_v1_apply m c j e)
  show V m c main_v1 _ = _
  refine congrArg (V m c main_v1 : S256x256.Idx → EReal) (funext fun a => Fin.ext ?_)
  match a with
  | ⟨0, _⟩ => show cc0_transform_2 (grid0.coords t) (0 : Fin 2) * 256 + 1 * j.val = j.val; have := ew 0; omega
  | ⟨1, _⟩ => show cc0_transform_2 (grid0.coords t) (1 : Fin 2) * 256 + 1 * e.val = e.val; have := ew 1; omega

theorem wblk3_apply (c : Dev nD) (t : Fin (cfgA m).N) (j e : Fin 256) :
    wblk3 m c t (ix2 j e) = (m ((c : Thread nD τ).loc main_arg5) : S256x256.Idx → EReal) (ix2 e j) := by
  have ew := (idx_whole t).2.2.1
  refine Eq.trans ?_ (V_v2_apply m c j e)
  show V m c main_v2 _ = _
  refine congrArg (V m c main_v2 : S256x256.Idx → EReal) (funext fun a => Fin.ext ?_)
  match a with
  | ⟨0, _⟩ => show cc0_transform_3 (grid0.coords t) (0 : Fin 2) * 256 + 1 * j.val = j.val; have := ew 0; omega
  | ⟨1, _⟩ => show cc0_transform_3 (grid0.coords t) (1 : Fin 2) * 256 + 1 * e.val = e.val; have := ew 1; omega

theorem wblk4_apply (c : Dev nD) (t : Fin (cfgA m).N) (j e : Fin 256) :
    wblk4 m c t (ix2 j e) = (m ((c : Thread nD τ).loc main_arg6) : S256x256.Idx → EReal) (ix2 e j) := by
  have ew := (idx_whole t).2.2.2.1
  refine Eq.trans ?_ (V_v3_apply m c j e)
  show V m c main_v3 _ = _
  refine congrArg (V m c main_v3 : S256x256.Idx → EReal) (funext fun a => Fin.ext ?_)
  match a with
  | ⟨0, _⟩ => show cc0_transform_4 (grid0.coords t) (0 : Fin 2) * 256 + 1 * j.val = j.val; have := ew 0; omega
  | ⟨1, _⟩ => show cc0_transform_4 (grid0.coords t) (1 : Fin 2) * 256 + 1 * e.val = e.val; have := ew 1; omega

/-! ## The output's blocks tile the array -/

/-- An index of the output array is in point `t`'s block iff each coordinate is in the block's range on its axis. -/
theorem mem_blk (t : Fin (cfgA m).N) (i : S32x32x256.Idx) :
    i ∈ (((cfgA m).win 6).blk t).view.set ↔ ∀ a : Fin 3, cc0_transform_6 (grid0.coords t) a * S1x32x256.size a ≤ (i a).val
      ∧ (i a).val < cc0_transform_6 (grid0.coords t) a * S1x32x256.size a + S1x32x256.size a := by
  have h : (((cfgA m).win 6).blk t).view.set = (((cfgA m).win 6).rect t).set :=
    View.set_slice_whole main_v4 (((cfgA m).win 6).rect t)
  exact (Finset.ext_iff.mp h i).trans Rect.mem_set_unit

/-- Every index of the output array is in the block of the point its batch coordinate names. -/
theorem cover (i : S32x32x256.Idx) :
    ∃ t : Fin (cfgA m).N, ((cfgA m).win 6).flush t = true ∧ i ∈ (((cfgA m).win 6).blk t).view.set := by
  have h0 : (i 0).val < 32 := (i 0).isLt
  have h1 : (i 1).val < 32 := (i 1).isLt
  have h2 : (i 2).val < 256 := (i 2).isLt
  have hN : grid0.N = 32 := N_0
  obtain ⟨t, ht⟩ : ∃ t : Fin grid0.N, t.val = (i 0).val := ⟨⟨(i 0).val, by omega⟩, rfl⟩
  obtain ⟨e0, e1, e2, -⟩ := idx_moving t
  refine ⟨t, flush_out t, ?_⟩
  rw [mem_blk]
  intro a
  match a with
  | ⟨0, _⟩ => show cc0_transform_6 (grid0.coords t) (0 : Fin 3) * 1 ≤ (i 0).val ∧ (i 0).val < cc0_transform_6 (grid0.coords t) (0 : Fin 3) * 1 + 1; omega
  | ⟨1, _⟩ => show cc0_transform_6 (grid0.coords t) (1 : Fin 3) * 32 ≤ (i 1).val ∧ (i 1).val < cc0_transform_6 (grid0.coords t) (1 : Fin 3) * 32 + 32; omega
  | ⟨2, _⟩ => show cc0_transform_6 (grid0.coords t) (2 : Fin 3) * 256 ≤ (i 2).val ∧ (i 2).val < cc0_transform_6 (grid0.coords t) (2 : Fin 3) * 256 + 256; omega

/-! ## The output array as one function of the arguments -/

/-- The layer's result over the launch memory's seven arguments, index by index: batch element, seed row, column. -/
abbrev G (c : Dev nD) : S32x32x256.Idx → EReal := fun i =>
  Spec.out (fun b n j => (m ((c : Thread nD τ).loc main_arg0) : S32x2048x256.Idx → EReal) (ix3 b n j))
    (fun b => (m ((c : Thread nD τ).loc main_arg1) : S32.Idx → BitVec 32) (ix1 b))
    (fun s j => (m ((c : Thread nD τ).loc main_arg2) : S1x32x256.Idx → EReal) (ix3 (0 : Fin 1) s j))
    (fun e j => (m ((c : Thread nD τ).loc main_arg3) : S256x256.Idx → EReal) (ix2 e j))
    (fun e j => (m ((c : Thread nD τ).loc main_arg4) : S256x256.Idx → EReal) (ix2 e j))
    (fun e j => (m ((c : Thread nD τ).loc main_arg5) : S256x256.Idx → EReal) (ix2 e j))
    (fun e j => (m ((c : Thread nD τ).loc main_arg6) : S256x256.Idx → EReal) (ix2 e j))
    (i 0) (i 1) (i 2)

/-- The body's result at block level: what point `t` leaves in the output's staging buffer, element by element, is
    the gated attention of the projections of the blocks it was handed, masked at batch element `t`'s length word. -/
def BlockLevel (c : Dev nD) : Prop :=
  ∀ (t : Fin (cfgA m).N) (b : Fin 32), b.val = t.val → ∀ (s : Fin 32) (e : Fin 256),
    ((st6 m t).view.read (Elt Ideal) (K m c t).1) (ix3 (0 : Fin 1) s e)
      = Spec.gated
          (fun s e => ∑ j : Fin 256, sblk m c t (ix3 (0 : Fin 1) s j) * wblk1 m c t (ix2 j e))
          (fun n e => (∑ j : Fin 256, xblk m c t (ix3 (0 : Fin 1) n j) * wblk2 m c t (ix2 j e)) * Spec.mask n.val (lenWord m c b))
          (fun n e => (∑ j : Fin 256, xblk m c t (ix3 (0 : Fin 1) n j) * wblk3 m c t (ix2 j e)) * Spec.mask n.val (lenWord m c b))
          (fun s => Spec.mask s.val (lenWord m c b)) (fun n => Spec.mask n.val (lenWord m c b))
          (fun e' e => wblk4 m c t (ix2 e' e)) s e

/-! ## What a point writes back, and the array after the run -/

/-- WHAT POINT `t` WRITES BACK is block `t` of the layer's result over the launch memory. -/
theorem flushed_eq (c : Dev nD) (hblk : BlockLevel m c) (t : Fin (cfgA m).N) :
    (dats m 0 c).flushed 6 t = (((cfgA m).win 6).blk t).view.read (Elt Ideal) (G m c) := by
  show ((cfgA m).win 6).cut (grid0.coords t) ((dats m 0 c).after 6 t) = _
  refine (congrArg (((cfgA m).win 6).cut (grid0.coords t)) (dats_after_out m c t)).trans ?_
  refine funext fun (y : S1x32x256.Idx) => ?_
  obtain ⟨z, s, e, rfl⟩ : ∃ (z : Fin 1) (s : Fin 32) (e : Fin 256), y = ix3 z s e :=
    ⟨y 0, y 1, y 2, eq_ix3 y⟩
  obtain rfl : z = 0 := Subsingleton.elim _ _
  obtain ⟨e0, e1, e2, -⟩ := idx_moving t
  have hN : grid0.N = 32 := N_0
  have htN : t.val < grid0.N := t.isLt
  obtain ⟨b, hb⟩ : ∃ b : Fin 32, b.val = t.val := ⟨⟨t.val, by omega⟩, rfl⟩
  have hR : (((cfgA m).win 6).blk t).view.read (Elt Ideal) (G m c) (ix3 (0 : Fin 1) s e) = G m c (ix3 b s e) := by
    show G m c _ = _
    refine congrArg (G m c) (funext fun a => Fin.ext ?_)
    match a with
    | ⟨0, _⟩ => show cc0_transform_6 (grid0.coords t) (0 : Fin 3) * 1 + 1 * 0 = b.val; omega
    | ⟨1, _⟩ => show cc0_transform_6 (grid0.coords t) (1 : Fin 3) * 32 + 1 * s.val = s.val; omega
    | ⟨2, _⟩ => show cc0_transform_6 (grid0.coords t) (2 : Fin 3) * 256 + 1 * e.val = e.val; omega
  refine Eq.trans ?_ hR.symm
  show ((st6 m t).view.read (Elt Ideal) (K m c t).1) (ix3 (0 : Fin 1) s e) = _
  refine (hblk t b hb s e).trans ?_
  exact out_of_blocks _ _ _ _ _ _ _ (xblk m c t) (wblk1 m c t) (wblk2 m c t) (wblk3 m c t) (wblk4 m c t) (sblk m c t)
    (lenWord m c b) b (xblk_apply m c t b hb) (sblk_apply m c t)
    (wblk1_apply m c t) (wblk2_apply m c t) (wblk3_apply m c t) (wblk4_apply m c t)
    (congrFun (V_arg1 m c) (ix1 b)) s e

/-- THE OUTPUT ARRAY after the run is the layer's result over the launch memory. -/
theorem out_array (c : Dev nD) (hblk : BlockLevel m c) : (dats m 0 c).arrAt 6 (cfgA m).N = G m c :=
  (dats m 0 c).arrAt_eq_of_cover 6 (G m c) (fun t _ => flushed_eq m c hblk t) (cover m)

end Cert.KernelIdeal.ArrayValue

end
-- ==== Proof.KI.HeadsA.lean ====
import proofs.«416182_j80152679678423_1_alg».proof.Proof.Gen.KernelIdeal.Skeleton
import proofs.«416182_j80152679678423_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# One attention head of the kernel, read at an element

Each head's payload slices its 32 columns out of the seed projection and the masked key and value
projections, scores the seeds against the keys, exponentiates, masks, normalises by the guarded row sum,
and adds the weighted values to the seed slab. Read at the ideal values and at one element `(s, d)` this
is `Spec.head`. The arithmetic after the slicing is the same for every head, so it is read once, over
variables of the slab types (`core`), and each head is the slicing plus that reading.
-/

noncomputable section

namespace Cert.KernelIdeal.HeadsA

open Cert.KernelIdeal Cert.KernelIdeal.Gen Idealize.ShloMosaic Idealize.ShloMosaic.ValueIdx
open scoped BigOperators

/-! ## Layout pieces of a kept-dimension row sum -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a `[32, 2048]` slab, kept as a `[32, 1]` column, read at `(s, u)`. -/
theorem rowsum_apply (E : FVec Ideal S32x2048 .f32) (s : Fin 32) (u : Fin 1) :
    shapeCast S32x1 (multiReduction (F := Ideal) .add [1] S32 E 0x00000000#32 reduces_S32x2048_S32 (.inl rfl) rfl)
        shapeCasts_S32_S32x1 (ix2 s u) = ∑ n : Fin 2048, E (ix2 s n) := by
  refine (shapeCast_a_a1_apply _ shapeCasts_S32_S32x1 s u).trans ?_
  refine (Ideal.multiReduction_add_single E 0x00000000#32 reduces_S32x2048_S32 (.inl rfl) rfl (ix1 s)).trans ?_
  refine Finset.sum_congr rfl fun n _ => congrArg E (funext fun a => Fin.ext ?_)
  match a with
  | ⟨0, _⟩ => rfl
  | ⟨1, _⟩ => rfl

/-! ## The two matrix products read at an element -/

theorem lhs_scores_0 (i : S32x2048.Idx) (q : dot_S32x32_S2048x32_S32x2048_1_1_0_0_n_n.contr.Idx) :
    (dot_S32x32_S2048x32_S32x2048_1_1_0_0_n_n.lhsIdx i q 0).val = (i 0).val := by
  unfold DotDims.lhsIdx
  rw [dif_neg (show ¬(0 : Fin S32x32.rank) ∈ dot_S32x32_S2048x32_S32x2048_1_1_0_0_n_n.lhsBatch by decide), dif_pos (show (0 : Fin S32x32.rank) ∈ dot_S32x32_S2048x32_S32x2048_1_1_0_0_n_n.lhsNonContracting by decide)]
  rfl
theorem lhs_scores_1 (i : S32x2048.Idx) (q : dot_S32x32_S2048x32_S32x2048_1_1_0_0_n_n.contr.Idx) :
    (dot_S32x32_S2048x32_S32x2048_1_1_0_0_n_n.lhsIdx i q 1).val = (q ⟨0, by decide⟩).val :=
  dot_S32x32_S2048x32_S32x2048_1_1_0_0_n_n.lhsIdx_val_of_single rfl i q
theorem rhs_scores_0 (i : S32x2048.Idx) (q : dot_S32x32_S2048x32_S32x2048_1_1_0_0_n_n.contr.Idx) :
    (dot_S32x32_S2048x32_S32x2048_1_1_0_0_n_n.rhsIdx i q 0).val = (i 1).val := by
  unfold DotDims.rhsIdx
  rw [dif_neg (show ¬(0 : Fin S2048x32.rank) ∈ dot_S32x32_S2048x32_S32x2048_1_1_0_0_n_n.rhsBatch by decide), dif_pos (show (0 : Fin S2048x32.rank) ∈ dot_S32x32_S2048x32_S32x2048_1_1_0_0_n_n.rhsNonContracting by decide)]
  rfl
theorem rhs_scores_1 (i : S32x2048.Idx) (q : dot_S32x32_S2048x32_S32x2048_1_1_0_0_n_n.contr.Idx) :
    (dot_S32x32_S2048x32_S32x2048_1_1_0_0_n_n.rhsIdx i q 1).val = (q ⟨0, by decide⟩).val :=
  dot_S32x32_S2048x32_S32x2048_1_1_0_0_n_n.rhsIdx_val_of_single rfl i q

/-- The score product (both operands contracted along their 32 columns) into the zero accumulator,
    at `(s, n)`: the sum over the head's coordinates of seed row `s` times key row `n`. -/
theorem scores_apply (A : FVec Ideal S32x32 .bf16) (B : FVec Ideal S2048x32 .bf16) (s : Fin 32) (n : Fin 2048) :
    matmul dot_S32x32_S2048x32_S32x2048_1_1_0_0_n_n none A B (constant (F := Ideal) S32x2048 .f32 0x00000000#32) (ix2 s n)
      = ∑ k : Fin 32, A (ix2 s k) * B (ix2 n k) := by
  simp only [matmul]
  rw [Ideal.matmul_constant_zero_apply, ← Equiv.sum_comp (ValueIdx.contrEquiv1 dot_S32x32_S2048x32_S32x2048_1_1_0_0_n_n 32 rfl rfl).symm]
  refine Finset.sum_congr rfl fun k _ => ?_
  have hk := ValueIdx.contrEquiv1_symm_val dot_S32x32_S2048x32_S32x2048_1_1_0_0_n_n 32 rfl rfl k
  have el : dot_S32x32_S2048x32_S32x2048_1_1_0_0_n_n.lhsIdx (ix2 s n) ((ValueIdx.contrEquiv1 dot_S32x32_S2048x32_S32x2048_1_1_0_0_n_n 32 rfl rfl).symm k) = ix2 s k := funext fun a => Fin.ext (by
    match a with
    | ⟨0, _⟩ => exact lhs_scores_0 _ _
    | ⟨1, _⟩ => exact (lhs_scores_1 _ _).trans hk)
  have er : dot_S32x32_S2048x32_S32x2048_1_1_0_0_n_n.rhsIdx (ix2 s n) ((ValueIdx.contrEquiv1 dot_S32x32_S2048x32_S32x2048_1_1_0_0_n_n 32 rfl rfl).symm k) = ix2 n k := funext fun a => Fin.ext (by
    match a with
    | ⟨0, _⟩ => exact rhs_scores_0 _ _
    | ⟨1, _⟩ => exact (rhs_scores_1 _ _).trans hk)
  rw [el, er]

theorem lhs_av_0 (i : S32x32.Idx) (q : dot_S32x2048_S2048x32_S32x32_1_0_0_1_n_n.contr.Idx) :
    (dot_S32x2048_S2048x32_S32x32_1_0_0_1_n_n.lhsIdx i q 0).val = (i 0).val := by
  unfold DotDims.lhsIdx
  rw [dif_neg (show ¬(0 : Fin S32x2048.rank) ∈ dot_S32x2048_S2048x32_S32x32_1_0_0_1_n_n.lhsBatch by decide), dif_pos (show (0 : Fin S32x2048.rank) ∈ dot_S32x2048_S2048x32_S32x32_1_0_0_1_n_n.lhsNonContracting by decide)]
  rfl
theorem lhs_av_1 (i : S32x32.Idx) (q : dot_S32x2048_S2048x32_S32x32_1_0_0_1_n_n.contr.Idx) :
    (dot_S32x2048_S2048x32_S32x32_1_0_0_1_n_n.lhsIdx i q 1).val = (q ⟨0, by decide⟩).val :=
  dot_S32x2048_S2048x32_S32x32_1_0_0_1_n_n.lhsIdx_val_of_single rfl i q
theorem rhs_av_0 (i : S32x32.Idx) (q : dot_S32x2048_S2048x32_S32x32_1_0_0_1_n_n.contr.Idx) :
    (dot_S32x2048_S2048x32_S32x32_1_0_0_1_n_n.rhsIdx i q 0).val = (q ⟨0, by decide⟩).val :=
  dot_S32x2048_S2048x32_S32x32_1_0_0_1_n_n.rhsIdx_val_of_single rfl i q
theorem rhs_av_1 (i : S32x32.Idx) (q : dot_S32x2048_S2048x32_S32x32_1_0_0_1_n_n.contr.Idx) :
    (dot_S32x2048_S2048x32_S32x32_1_0_0_1_n_n.rhsIdx i q 1).val = (i 1).val := by
  unfold DotDims.rhsIdx
  rw [dif_neg (show ¬(1 : Fin S2048x32.rank) ∈ dot_S32x2048_S2048x32_S32x32_1_0_0_1_n_n.rhsBatch by decide), dif_pos (show (1 : Fin S2048x32.rank) ∈ dot_S32x2048_S2048x32_S32x32_1_0_0_1_n_n.rhsNonContracting by decide)]
  rfl

/-- The weights-times-values product (the 2048 input rows contracted) into the zero accumulator, at `(s, d)`. -/
theorem av_apply (A : FVec Ideal S32x2048 .bf16) (B : FVec Ideal S2048x32 .bf16) (s d : Fin 32) :
    matmul dot_S32x2048_S2048x32_S32x32_1_0_0_1_n_n none A B (constant (F := Ideal) S32x32 .f32 0x00000000#32) (ix2 s d)
      = ∑ n : Fin 2048, A (ix2 s n) * B (ix2 n d) := by
  simp only [matmul]
  rw [Ideal.matmul_constant_zero_apply, ← Equiv.sum_comp (ValueIdx.contrEquiv1 dot_S32x2048_S2048x32_S32x32_1_0_0_1_n_n 2048 rfl rfl).symm]
  refine Finset.sum_congr rfl fun k _ => ?_
  have hk := ValueIdx.contrEquiv1_symm_val dot_S32x2048_S2048x32_S32x32_1_0_0_1_n_n 2048 rfl rfl k
  have el : dot_S32x2048_S2048x32_S32x32_1_0_0_1_n_n.lhsIdx (ix2 s d) ((ValueIdx.contrEquiv1 dot_S32x2048_S2048x32_S32x32_1_0_0_1_n_n 2048 rfl rfl).symm k) = ix2 s k := funext fun a => Fin.ext (by
    match a with
    | ⟨0, _⟩ => exact lhs_av_0 _ _
    | ⟨1, _⟩ => exact (lhs_av_1 _ _).trans hk)
  have er : dot_S32x2048_S2048x32_S32x32_1_0_0_1_n_n.rhsIdx (ix2 s d) ((ValueIdx.contrEquiv1 dot_S32x2048_S2048x32_S32x32_1_0_0_1_n_n 2048 rfl rfl).symm k) = ix2 k d := funext fun a => Fin.ext (by
    match a with
    | ⟨0, _⟩ => exact (rhs_av_0 _ _).trans hk
    | ⟨1, _⟩ => exact rhs_av_1 _ _)
  rw [el, er]

/-! ## The arithmetic of one head, over the three slabs and the two masks -/

/-- The exponential of a slab reads elementwise. -/
theorem exp_apply {s : Shape} {φ : FTy} (a : FVec Ideal s φ) (i : s.Idx) : exp a i = Ideal.exp (a i) := rfl

/-- The score product with the seed slab rounded to the keys' format first: at the ideal values the rounding is the identity. -/
theorem scores_truncf_apply (Qh : FVec Ideal S32x32 .f32) (Kh : FVec Ideal S2048x32 .bf16) (s : Fin 32) (n : Fin 2048) :
    matmul dot_S32x32_S2048x32_S32x2048_1_1_0_0_n_n none (truncf .bf16 Qh bitsLt_bf16_f32) Kh
        (constant (F := Ideal) S32x2048 .f32 0x00000000#32) (ix2 s n)
      = ∑ k : Fin 32, Qh (ix2 s k) * Kh (ix2 n k) :=
  scores_apply (truncf .bf16 Qh bitsLt_bf16_f32) Kh s n

/-- The weighted-values product with the weights rounded first, likewise. -/
theorem av_truncf_apply (A : FVec Ideal S32x2048 .f32) (Vh : FVec Ideal S2048x32 .bf16) (s d : Fin 32) :
    matmul dot_S32x2048_S2048x32_S32x32_1_0_0_1_n_n none (truncf .bf16 A bitsLt_bf16_f32) Vh
        (constant (F := Ideal) S32x32 .f32 0x00000000#32) (ix2 s d)
      = ∑ n : Fin 2048, A (ix2 s n) * Vh (ix2 n d) :=
  av_apply (truncf .bf16 A bitsLt_bf16_f32) Vh s d

/-- The masked exponentials of the scaled scores, `exp((Qh · Khᵀ) · 1/16) · rm · cm`, in the payloads' operations. -/
def expSlab (Qh : FVec Ideal S32x32 .f32) (Kh : FVec Ideal S2048x32 .bf16) (cm : FVec Ideal S1x2048 .f32)
    (rm : FVec Ideal S32x1 .f32) : FVec Ideal S32x2048 .f32 :=
  mulf (mulf (exp (mulf (matmul dot_S32x32_S2048x32_S32x2048_1_1_0_0_n_n none (truncf .bf16 Qh bitsLt_bf16_f32) Kh
        (constant (F := Ideal) S32x2048 .f32 0x00000000#32))
      (broadcast S32x2048 (Scalar.ofBits (F := Ideal) .f32 0x3D800000#32))))
    (broadcastTo S32x2048 rm broadcasts_S32x1_S32x2048)) (broadcastTo S32x2048 cm broadcasts_S1x2048_S32x2048)

/-- At `(s, n)` it is the exponential of the scaled score of seed row `s` against input row `n`, times the two masks. -/
theorem expSlab_apply (Qh : FVec Ideal S32x32 .f32) (Kh : FVec Ideal S2048x32 .bf16) (cm : FVec Ideal S1x2048 .f32)
    (rm : FVec Ideal S32x1 .f32) (s : Fin 32) (n : Fin 2048) :
    expSlab Qh Kh cm rm (ix2 s n)
      = Ideal.exp ((∑ k : Fin 32, Qh (ix2 s k) * Kh (ix2 n k)) * Spec.scale) * rm (ix2 s (0 : Fin 1))
          * cm (ix2 (0 : Fin 1) n) := by
  unfold expSlab
  rw [mulf_apply, mulf_apply, exp_apply, mulf_apply, scores_truncf_apply, broadcast_apply,
    broadcastTo_a1_ab_apply, broadcastTo_1b_ab_apply]
  rfl

/-- One head from its slabs: the seed slab plus the normalised weights times the value slab, in the payloads' operations. -/
def core (Qh : FVec Ideal S32x32 .f32) (Kh Vh : FVec Ideal S2048x32 .bf16) (cm : FVec Ideal S1x2048 .f32)
    (rm : FVec Ideal S32x1 .f32) : FVec Ideal S32x32 .f32 :=
  addf Qh (matmul dot_S32x2048_S2048x32_S32x32_1_0_0_1_n_n none
    (truncf .bf16 (divf (expSlab Qh Kh cm rm) (broadcastTo S32x2048
      (addf (shapeCast S32x1 (multiReduction (F := Ideal) .add [1] S32 (expSlab Qh Kh cm rm) 0x00000000#32
          reduces_S32x2048_S32 (.inl rfl) rfl) shapeCasts_S32_S32x1)
        (broadcast S32x1 (Scalar.ofBits (F := Ideal) .f32 0x26901D7D#32))) broadcasts_S32x1_S32x2048)) bitsLt_bf16_f32)
    Vh (constant (F := Ideal) S32x32 .f32 0x00000000#32))

/-- At `(s, d)`: the seed entry plus the sum over input rows of the weight, the masked exponential over the guarded
    row sum, times the value entry. -/
theorem core_apply (Qh : FVec Ideal S32x32 .f32) (Kh Vh : FVec Ideal S2048x32 .bf16) (cm : FVec Ideal S1x2048 .f32)
    (rm : FVec Ideal S32x1 .f32) (s d : Fin 32) :
    core Qh Kh Vh cm rm (ix2 s d)
      = Qh (ix2 s d) + ∑ n : Fin 2048,
          Ideal.div (expSlab Qh Kh cm rm (ix2 s n)) ((∑ n' : Fin 2048, expSlab Qh Kh cm rm (ix2 s n')) + Spec.eps)
            * Vh (ix2 n d) := by
  unfold core
  rw [addf_apply, av_truncf_apply]
  refine congrArg (Qh (ix2 s d) + ·) (Finset.sum_congr rfl fun n _ => ?_)
  rw [divf_apply, broadcastTo_a1_ab_apply, addf_apply, rowsum_apply, broadcast_apply]
  rfl

/-! ## The heads -/

section Heads

variable (v22 : FVec Ideal S32x256 .f32) (v32 v33 : FVec Ideal S2048x256 .bf16) (v38 : FVec Ideal S1x2048 .f32)
  (v41 : IVec S32x1 1)

/-- The seed projection, the masked key and value projections, and the two masks, as plain index functions. -/
abbrev qf : Fin 32 → Fin 256 → EReal := fun s e => v22 (ix2 s e)
abbrev kf : Fin 2048 → Fin 256 → EReal := fun n e => v32 (ix2 n e)
abbrev vf : Fin 2048 → Fin 256 → EReal := fun n e => v33 (ix2 n e)
abbrev rmf : Fin 32 → EReal := fun s => k0_pay11 (F := Ideal) v41 (ix2 s (0 : Fin 1))
abbrev cmf : Fin 2048 → EReal := fun n => v38 (ix2 (0 : Fin 1) n)

/-- Slabs that are head `h`'s columns of the three projections give `Spec.head` at `h`. -/
theorem head_of_slices (h : Fin 8) (Qh : FVec Ideal S32x32 .f32) (Kh Vh : FVec Ideal S2048x32 .bf16)
    (rm : FVec Ideal S32x1 .f32)
    (hq : ∀ (s : Fin 32) (k : Fin 32), Qh (ix2 s k) = v22 (ix2 s (Spec.col h k)))
    (hk : ∀ (n : Fin 2048) (k : Fin 32), Kh (ix2 n k) = v32 (ix2 n (Spec.col h k)))
    (hv : ∀ (n : Fin 2048) (k : Fin 32), Vh (ix2 n k) = v33 (ix2 n (Spec.col h k)))
    (s d : Fin 32) :
    core Qh Kh Vh v38 rm (ix2 s d)
      = Spec.head (qf v22) (kf v32) (vf v33) (fun s => rm (ix2 s (0 : Fin 1))) (cmf v38) h s d := by
  rw [core_apply]
  simp only [expSlab_apply, hq, hk, hv]
  rfl

/-- Head 2's payload is `core` of the slices at column 64, behind a shape cast to the same shape. -/
theorem pay15_eq (v43 : FVec Ideal S32x1 .f32) :
    k0_pay15 (F := Ideal) v22 v32 v33 v38 v43
      = shapeCast S32x32 (core (extractStridedSlice S32x32 ![0, 64] v22 slices_S32x256_o0_64_S32x32)
          (extractStridedSlice S2048x32 ![0, 64] v32 slices_S2048x256_o0_64_S2048x32)
          (extractStridedSlice S2048x32 ![0, 64] v33 slices_S2048x256_o0_64_S2048x32) v38 v43)
        shapeCasts_S32x32_S32x32 := rfl

theorem head2 (s d : Fin 32) :
    k0_pay15 (F := Ideal) v22 v32 v33 v38 (k0_pay11 (F := Ideal) v41) (ix2 s d)
      = Spec.head (qf v22) (kf v32) (vf v33) (rmf v41) (cmf v38) 2 s d := by
  rw [pay15_eq, shapeCast_self]
  exact head_of_slices v22 v32 v33 v38 2 _ _ _ (k0_pay11 (F := Ideal) v41)
    (fun s k => slice2_axis1_apply 64 v22 slices_S32x256_o0_64_S32x32 s k (Spec.col 2 k) rfl)
    (fun n k => slice2_axis1_apply 64 v32 slices_S2048x256_o0_64_S2048x32 n k (Spec.col 2 k) rfl)
    (fun n k => slice2_axis1_apply 64 v33 slices_S2048x256_o0_64_S2048x32 n k (Spec.col 2 k) rfl) s d

/-- Head 4's payload is `core` of the slices at column 128, behind a shape cast to the same shape. -/
theorem pay20_eq (v43 : FVec Ideal S32x1 .f32) :
    k0_pay20 (F := Ideal) v22 v32 v33 v38 v43
      = shapeCast S32x32 (core (extractStridedSlice S32x32 ![0, 128] v22 slices_S32x256_o0_128_S32x32)
          (extractStridedSlice S2048x32 ![0, 128] v32 slices_S2048x256_o0_128_S2048x32)
          (extractStridedSlice S2048x32 ![0, 128] v33 slices_S2048x256_o0_128_S2048x32) v38 v43)
        shapeCasts_S32x32_S32x32 := rfl

theorem head4 (s d : Fin 32) :
    k0_pay20 (F := Ideal) v22 v32 v33 v38 (k0_pay11 (F := Ideal) v41) (ix2 s d)
      = Spec.head (qf v22) (kf v32) (vf v33) (rmf v41) (cmf v38) 4 s d := by
  rw [pay20_eq, shapeCast_self]
  exact head_of_slices v22 v32 v33 v38 4 _ _ _ (k0_pay11 (F := Ideal) v41)
    (fun s k => slice2_axis1_apply 128 v22 slices_S32x256_o0_128_S32x32 s k (Spec.col 4 k) rfl)
    (fun n k => slice2_axis1_apply 128 v32 slices_S2048x256_o0_128_S2048x32 n k (Spec.col 4 k) rfl)
    (fun n k => slice2_axis1_apply 128 v33 slices_S2048x256_o0_128_S2048x32 n k (Spec.col 4 k) rfl) s d

/-- Head 6's payload is `core` of the slices at column 192, behind a shape cast to the same shape. -/
theorem pay26_eq (v43 : FVec Ideal S32x1 .f32) :
    k0_pay26 (F := Ideal) v22 v32 v33 v38 v43
      = shapeCast S32x32 (core (extractStridedSlice S32x32 ![0, 192] v22 slices_S32x256_o0_192_S32x32)
          (extractStridedSlice S2048x32 ![0, 192] v32 slices_S2048x256_o0_192_S2048x32)
          (extractStridedSlice S2048x32 ![0, 192] v33 slices_S2048x256_o0_192_S2048x32) v38 v43)
        shapeCasts_S32x32_S32x32 := rfl

theorem head6 (s d : Fin 32) :
    k0_pay26 (F := Ideal) v22 v32 v33 v38 (k0_pay11 (F := Ideal) v41) (ix2 s d)
      = Spec.head (qf v22) (kf v32) (vf v33) (rmf v41) (cmf v38) 6 s d := by
  rw [pay26_eq, shapeCast_self]
  exact head_of_slices v22 v32 v33 v38 6 _ _ _ (k0_pay11 (F := Ideal) v41)
    (fun s k => slice2_axis1_apply 192 v22 slices_S32x256_o0_192_S32x32 s k (Spec.col 6 k) rfl)
    (fun n k => slice2_axis1_apply 192 v32 slices_S2048x256_o0_192_S2048x32 n k (Spec.col 6 k) rfl)
    (fun n k => slice2_axis1_apply 192 v33 slices_S2048x256_o0_192_S2048x32 n k (Spec.col 6 k) rfl) s d

/-- Head 0's payload, which computes the seed-row mask from the mask bits itself, is `core` of the slices at column 0. -/
theorem pay12_eq :
    k0_pay12 (F := Ideal) v22 v32 v33 v38 v41
      = shapeCast S32x32 (core (extractStridedSlice S32x32 ![0, 0] v22 slices_S32x256_o0_0_S32x32)
          (extractStridedSlice S2048x32 ![0, 0] v32 slices_S2048x256_o0_0_S2048x32)
          (extractStridedSlice S2048x32 ![0, 0] v33 slices_S2048x256_o0_0_S2048x32) v38 (k0_pay11 (F := Ideal) v41))
        shapeCasts_S32x32_S32x32 := rfl

theorem head0 (s d : Fin 32) :
    k0_pay12 (F := Ideal) v22 v32 v33 v38 v41 (ix2 s d)
      = Spec.head (qf v22) (kf v32) (vf v33) (rmf v41) (cmf v38) 0 s d := by
  rw [pay12_eq, shapeCast_self]
  exact head_of_slices v22 v32 v33 v38 0 _ _ _ (k0_pay11 (F := Ideal) v41)
    (fun s k => slice2_axis1_apply 0 v22 slices_S32x256_o0_0_S32x32 s k (Spec.col 0 k) rfl)
    (fun n k => slice2_axis1_apply 0 v32 slices_S2048x256_o0_0_S2048x32 n k (Spec.col 0 k) rfl)
    (fun n k => slice2_axis1_apply 0 v33 slices_S2048x256_o0_0_S2048x32 n k (Spec.col 0 k) rfl) s d

/-- Head 1's payload, before its shape cast, is `core` of the slices at column 32. -/
theorem pay13_eq :
    k0_pay13 (F := Ideal) v22 v32 v33 v38 v41
      = core (extractStridedSlice S32x32 ![0, 32] v22 slices_S32x256_o0_32_S32x32)
          (extractStridedSlice S2048x32 ![0, 32] v32 slices_S2048x256_o0_32_S2048x32)
          (extractStridedSlice S2048x32 ![0, 32] v33 slices_S2048x256_o0_32_S2048x32) v38 (k0_pay11 (F := Ideal) v41) := rfl

/-- The cast of a `[32, 32]` slab to its own shape is the slab. -/
theorem pay14_eq (x : FVec Ideal S32x32 .f32) : k0_pay14 (F := Ideal) x = x :=
  shapeCast_self x shapeCasts_S32x32_S32x32

theorem head1 (s d : Fin 32) :
    k0_pay14 (F := Ideal) (k0_pay13 (F := Ideal) v22 v32 v33 v38 v41) (ix2 s d)
      = Spec.head (qf v22) (kf v32) (vf v33) (rmf v41) (cmf v38) 1 s d := by
  rw [pay14_eq, pay13_eq]
  exact head_of_slices v22 v32 v33 v38 1 _ _ _ (k0_pay11 (F := Ideal) v41)
    (fun s k => slice2_axis1_apply 32 v22 slices_S32x256_o0_32_S32x32 s k (Spec.col 1 k) rfl)
    (fun n k => slice2_axis1_apply 32 v32 slices_S2048x256_o0_32_S2048x32 n k (Spec.col 1 k) rfl)
    (fun n k => slice2_axis1_apply 32 v33 slices_S2048x256_o0_32_S2048x32 n k (Spec.col 1 k) rfl) s d

end Heads

end Cert.KernelIdeal.HeadsA
-- ==== Proof.KI.HeadsB.lean ====
import proofs.«416182_j80152679678423_1_alg».proof.Proof.Gen.KernelIdeal.Skeleton
import proofs.«416182_j80152679678423_1_alg».proof.Proof.Spec
import Idealize.ShloMosaic.Lib.ValueIdx
import Idealize.ShloMosaic.Lib.Pipeline.Value
import Idealize.ShloMosaic.Lib.ValueLayout
import Idealize.ShloMosaic.PureOps.Ideal.Laws

/-!
# Heads 3, 5 and 7 of the kernel body at an index

Each head of the kernel body computes, from the query slab `Qh` (32 columns of the projected seeds), the key
and value slabs `Kh`, `Vh` (the same 32 columns of the masked projected inputs), the seed-row mask `rm` and
the input-row mask `cm`:

* the masked exponential `E(s, n) = exp((∑ d, Qh(s, d) · Kh(n, d)) · 1/16) · rm(s) · cm(n)`,
* its row sum `R(s) = ∑ n, E(s, n)` and the weight `A(s, n) = E(s, n) / (R(s) + ε)`,
* the output `Qh(s, d) + ∑ n, A(s, n) · Vh(n, d)`.

The printed body cuts this chain at different places for the three heads treated here; the four pieces are
named once over slab variables (`expv`, `rowSum`, `attn`, `outp`), read at an index once, and each head's
payloads are then identified with a composition of the pieces.
-/

noncomputable section

namespace Cert.KernelIdeal.HeadsB

open Cert.KernelIdeal Cert.KernelIdeal.Gen Idealize.ShloMosaic Idealize.ShloMosaic.ValueIdx
open scoped BigOperators

/-! ## The two contractions' operand indices, axis by axis -/

/-- Scores `Qh · Khᵀ`: the left operand's row is the output's row. -/
theorem lhs_sc_0 (i : S32x2048.Idx) (q : dot_S32x32_S2048x32_S32x2048_1_1_0_0_n_n.contr.Idx) :
    (dot_S32x32_S2048x32_S32x2048_1_1_0_0_n_n.lhsIdx i q 0).val = (i 0).val := by
  unfold DotDims.lhsIdx
  rw [dif_neg (show ¬(0 : Fin S32x32.rank) ∈ dot_S32x32_S2048x32_S32x2048_1_1_0_0_n_n.lhsBatch by decide), dif_pos (show (0 : Fin S32x32.rank) ∈ dot_S32x32_S2048x32_S32x2048_1_1_0_0_n_n.lhsNonContracting by decide)]
  rfl
/-- Its column is the contraction position. -/
theorem lhs_sc_1 (i : S32x2048.Idx) (q : dot_S32x32_S2048x32_S32x2048_1_1_0_0_n_n.contr.Idx) :
    (dot_S32x32_S2048x32_S32x2048_1_1_0_0_n_n.lhsIdx i q 1).val = (q ⟨0, by decide⟩).val :=
  dot_S32x32_S2048x32_S32x2048_1_1_0_0_n_n.lhsIdx_val_of_single rfl i q
/-- The right operand's row is the output's column. -/
theorem rhs_sc_0 (i : S32x2048.Idx) (q : dot_S32x32_S2048x32_S32x2048_1_1_0_0_n_n.contr.Idx) :
    (dot_S32x32_S2048x32_S32x2048_1_1_0_0_n_n.rhsIdx i q 0).val = (i 1).val := by
  unfold DotDims.rhsIdx
  rw [dif_neg (show ¬(0 : Fin S2048x32.rank) ∈ dot_S32x32_S2048x32_S32x2048_1_1_0_0_n_n.rhsBatch by decide), dif_pos (show (0 : Fin S2048x32.rank) ∈ dot_S32x32_S2048x32_S32x2048_1_1_0_0_n_n.rhsNonContracting by decide)]
  rfl
/-- Its column is the contraction position. -/
theorem rhs_sc_1 (i : S32x2048.Idx) (q : dot_S32x32_S2048x32_S32x2048_1_1_0_0_n_n.contr.Idx) :
    (dot_S32x32_S2048x32_S32x2048_1_1_0_0_n_n.rhsIdx i q 1).val = (q ⟨0, by decide⟩).val :=
  dot_S32x32_S2048x32_S32x2048_1_1_0_0_n_n.rhsIdx_val_of_single rfl i q

/-- Weighted values `A · Vh`: the left operand's row is the output's row. -/
theorem lhs_av_0 (i : S32x32.Idx) (q : dot_S32x2048_S2048x32_S32x32_1_0_0_1_n_n.contr.Idx) :
    (dot_S32x2048_S2048x32_S32x32_1_0_0_1_n_n.lhsIdx i q 0).val = (i 0).val := by
  unfold DotDims.lhsIdx
  rw [dif_neg (show ¬(0 : Fin S32x2048.rank) ∈ dot_S32x2048_S2048x32_S32x32_1_0_0_1_n_n.lhsBatch by decide), dif_pos (show (0 : Fin S32x2048.rank) ∈ dot_S32x2048_S2048x32_S32x32_1_0_0_1_n_n.lhsNonContracting by decide)]
  rfl
/-- Its column is the contraction position. -/
theorem lhs_av_1 (i : S32x32.Idx) (q : dot_S32x2048_S2048x32_S32x32_1_0_0_1_n_n.contr.Idx) :
    (dot_S32x2048_S2048x32_S32x32_1_0_0_1_n_n.lhsIdx i q 1).val = (q ⟨0, by decide⟩).val :=
  dot_S32x2048_S2048x32_S32x32_1_0_0_1_n_n.lhsIdx_val_of_single rfl i q
/-- The right operand's row is the contraction position. -/
theorem rhs_av_0 (i : S32x32.Idx) (q : dot_S32x2048_S2048x32_S32x32_1_0_0_1_n_n.contr.Idx) :
    (dot_S32x2048_S2048x32_S32x32_1_0_0_1_n_n.rhsIdx i q 0).val = (q ⟨0, by decide⟩).val :=
  dot_S32x2048_S2048x32_S32x32_1_0_0_1_n_n.rhsIdx_val_of_single rfl i q
/-- Its column is the output's column. -/
theorem rhs_av_1 (i : S32x32.Idx) (q : dot_S32x2048_S2048x32_S32x32_1_0_0_1_n_n.contr.Idx) :
    (dot_S32x2048_S2048x32_S32x32_1_0_0_1_n_n.rhsIdx i q 1).val = (i 1).val := by
  unfold DotDims.rhsIdx
  rw [dif_neg (show ¬(1 : Fin S2048x32.rank) ∈ dot_S32x2048_S2048x32_S32x32_1_0_0_1_n_n.rhsBatch by decide), dif_pos (show (1 : Fin S2048x32.rank) ∈ dot_S32x2048_S2048x32_S32x32_1_0_0_1_n_n.rhsNonContracting by decide)]
  rfl

/-! ## The two contractions into a zero accumulator, read at an index -/

/-- `Qh · Khᵀ` at `(s, n)`: the sum over the head's 32 coordinates. -/
theorem scores_apply (A : FVec Ideal S32x32 .bf16) (B : FVec Ideal S2048x32 .bf16) (s : Fin 32) (n : Fin 2048) :
    matmul dot_S32x32_S2048x32_S32x2048_1_1_0_0_n_n none A B (constant (F := Ideal) S32x2048 .f32 0x00000000#32) (ix2 s n)
      = ∑ d : Fin 32, A (ix2 s d) * B (ix2 n d) := by
  refine (Ideal.matmul_constant_zero_apply dot_S32x32_S2048x32_S32x2048_1_1_0_0_n_n none A B (ix2 s n)).trans ?_
  rw [← Equiv.sum_comp (contrEquiv1 dot_S32x32_S2048x32_S32x2048_1_1_0_0_n_n 32 rfl rfl).symm]
  refine Finset.sum_congr rfl fun k _ => ?_
  have hk := contrEquiv1_symm_val dot_S32x32_S2048x32_S32x2048_1_1_0_0_n_n 32 rfl rfl k
  have el : dot_S32x32_S2048x32_S32x2048_1_1_0_0_n_n.lhsIdx (ix2 s n) ((contrEquiv1 dot_S32x32_S2048x32_S32x2048_1_1_0_0_n_n 32 rfl rfl).symm k) = ix2 s k := funext fun a => Fin.ext (by
    match a with
    | ⟨0, _⟩ => exact lhs_sc_0 _ _
    | ⟨1, _⟩ => exact (lhs_sc_1 _ _).trans hk)
  have er : dot_S32x32_S2048x32_S32x2048_1_1_0_0_n_n.rhsIdx (ix2 s n) ((contrEquiv1 dot_S32x32_S2048x32_S32x2048_1_1_0_0_n_n 32 rfl rfl).symm k) = ix2 n k := funext fun a => Fin.ext (by
    match a with
    | ⟨0, _⟩ => exact rhs_sc_0 _ _
    | ⟨1, _⟩ => exact (rhs_sc_1 _ _).trans hk)
  rw [el, er]

/-- `A · Vh` at `(s, d)`: the sum over the 2048 input rows. -/
theorem av_apply (A : FVec Ideal S32x2048 .bf16) (V : FVec Ideal S2048x32 .bf16) (s d : Fin 32) :
    matmul dot_S32x2048_S2048x32_S32x32_1_0_0_1_n_n none A V (constant (F := Ideal) S32x32 .f32 0x00000000#32) (ix2 s d)
      = ∑ n : Fin 2048, A (ix2 s n) * V (ix2 n d) := by
  refine (Ideal.matmul_constant_zero_apply dot_S32x2048_S2048x32_S32x32_1_0_0_1_n_n none A V (ix2 s d)).trans ?_
  rw [← Equiv.sum_comp (contrEquiv1 dot_S32x2048_S2048x32_S32x32_1_0_0_1_n_n 2048 rfl rfl).symm]
  refine Finset.sum_congr rfl fun k _ => ?_
  have hk := contrEquiv1_symm_val dot_S32x2048_S2048x32_S32x32_1_0_0_1_n_n 2048 rfl rfl k
  have el : dot_S32x2048_S2048x32_S32x32_1_0_0_1_n_n.lhsIdx (ix2 s d) ((contrEquiv1 dot_S32x2048_S2048x32_S32x32_1_0_0_1_n_n 2048 rfl rfl).symm k) = ix2 s k := funext fun a => Fin.ext (by
    match a with
    | ⟨0, _⟩ => exact lhs_av_0 _ _
    | ⟨1, _⟩ => exact (lhs_av_1 _ _).trans hk)
  have er : dot_S32x2048_S2048x32_S32x32_1_0_0_1_n_n.rhsIdx (ix2 s d) ((contrEquiv1 dot_S32x2048_S2048x32_S32x32_1_0_0_1_n_n 2048 rfl rfl).symm k) = ix2 k d := funext fun a => Fin.ext (by
    match a with
    | ⟨0, _⟩ => exact (rhs_av_0 _ _).trans hk
    | ⟨1, _⟩ => exact rhs_av_1 _ _)
  rw [el, er]

/-! ## The column forms of the layout operations -/

/-- A length-`a` vector cast to a column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => exact (if_pos rfl).symm

/-- The lane sum of a `[32, 2048]` array at row `s`: the sum of that row. -/
theorem laneSum_apply (E : FVec Ideal S32x2048 .f32) (s : Fin 32) :
    multiReduction (F := Ideal) .add [1] S32 E 0x00000000#32 reduces_S32x2048_S32 (.inl rfl) rfl (ix1 s)
      = ∑ n : Fin 2048, E (ix2 s n) := by
  refine (Ideal.multiReduction_add_single E 0x00000000#32 reduces_S32x2048_S32 (.inl rfl) rfl (ix1 s)).trans ?_
  refine Finset.sum_congr rfl fun k _ => congrArg E (funext fun c => Fin.ext ?_)
  match c with
  | ⟨0, _⟩ => rfl
  | ⟨1, _⟩ => rfl

/-! ## The four pieces of a head, operation by operation as the body spells them -/

/-- The masked exponential of the scaled scores. -/
def expv (Qh : FVec Ideal S32x32 .f32) (Kh : FVec Ideal S2048x32 .bf16) (cm : FVec Ideal S1x2048 .f32)
    (rm : FVec Ideal S32x1 .f32) : FVec Ideal S32x2048 .f32 :=
  mulf (mulf (exp (mulf (matmul dot_S32x32_S2048x32_S32x2048_1_1_0_0_n_n none (truncf .bf16 Qh bitsLt_bf16_f32) Kh
      (constant (F := Ideal) S32x2048 .f32 0x00000000#32)) (broadcast S32x2048 (Scalar.ofBits .f32 0x3D800000#32))))
    (broadcastTo S32x2048 rm broadcasts_S32x1_S32x2048)) (broadcastTo S32x2048 cm broadcasts_S1x2048_S32x2048)

/-- The row sums, as a column. -/
def rowSum (E : FVec Ideal S32x2048 .f32) : FVec Ideal S32x1 .f32 :=
  shapeCast S32x1 (multiReduction (F := Ideal) .add [1] S32 E 0x00000000#32 reduces_S32x2048_S32 (.inl rfl) rfl) shapeCasts_S32_S32x1

/-- The weights: the masked exponential over the guarded row sums. -/
def attn (E : FVec Ideal S32x2048 .f32) (R : FVec Ideal S32x1 .f32) (e : Ideal .f32) : FVec Ideal S32x2048 .f32 :=
  divf E (broadcastTo S32x2048 (addf R (broadcast S32x1 e)) broadcasts_S32x1_S32x2048)

/-- The head's output: the query slab plus the weighted values. -/
def outp (Qh : FVec Ideal S32x32 .f32) (Vh : FVec Ideal S2048x32 .bf16) (A : FVec Ideal S32x2048 .f32) : FVec Ideal S32x32 .f32 :=
  shapeCast S32x32 (addf Qh (matmul dot_S32x2048_S2048x32_S32x32_1_0_0_1_n_n none (truncf .bf16 A bitsLt_bf16_f32) Vh
    (constant (F := Ideal) S32x32 .f32 0x00000000#32))) shapeCasts_S32x32_S32x32

theorem expv_apply (Qh : FVec Ideal S32x32 .f32) (Kh : FVec Ideal S2048x32 .bf16) (cm : FVec Ideal S1x2048 .f32)
    (rm : FVec Ideal S32x1 .f32) (s : Fin 32) (n : Fin 2048) :
    expv Qh Kh cm rm (ix2 s n)
      = Ideal.exp ((∑ d : Fin 32, Qh (ix2 s d) * Kh (ix2 n d)) * Spec.scale) * rm (ix2 s (0 : Fin 1)) * cm (ix2 (0 : Fin 1) n) := by
  unfold expv
  exact congrArg₂ (· * ·) (congrArg₂ (· * ·) (congrArg Ideal.exp (congrArg (· * Spec.scale) (scores_apply _ Kh s n)))
    (broadcastTo_a1_ab_apply rm _ s n)) (broadcastTo_1b_ab_apply cm _ s n)

theorem rowSum_apply (E : FVec Ideal S32x2048 .f32) (s : Fin 32) (u : Fin 1) :
    rowSum E (ix2 s u) = ∑ n : Fin 2048, E (ix2 s n) := by
  unfold rowSum
  exact (shapeCast_a_a1_apply _ _ s u).trans (laneSum_apply E s)

theorem attn_apply (E : FVec Ideal S32x2048 .f32) (R : FVec Ideal S32x1 .f32) (e : Ideal .f32) (s : Fin 32) (n : Fin 2048) :
    attn E R e (ix2 s n) = Ideal.div (E (ix2 s n)) (R (ix2 s (0 : Fin 1)) + e) := by
  unfold attn
  exact congrArg (Ideal.div (E (ix2 s n))) (broadcastTo_a1_ab_apply _ _ s n)

theorem outp_apply (Qh : FVec Ideal S32x32 .f32) (Vh : FVec Ideal S2048x32 .bf16) (A : FVec Ideal S32x2048 .f32) (s d : Fin 32) :
    outp Qh Vh A (ix2 s d) = Qh (ix2 s d) + ∑ n : Fin 2048, A (ix2 s n) * Vh (ix2 n d) := by
  unfold outp
  rw [shapeCast_self]
  exact congrArg (Qh (ix2 s d) + ·) (av_apply _ Vh s d)

/-! ## The heads against the specification -/

section Heads

variable (v22 : FVec Ideal S32x256 .f32) (v32 v33 : FVec Ideal S2048x256 .bf16) (v38 : FVec Ideal S1x2048 .f32)
  (v41 : IVec S32x1 1)

/-- The projected seeds, the masked projected inputs (keys and values) and the two masks as plain functions. -/
abbrev qf : Fin 32 → Fin 256 → EReal := fun s e => v22 (ix2 s e)
abbrev kf : Fin 2048 → Fin 256 → EReal := fun n e => v32 (ix2 n e)
abbrev vf : Fin 2048 → Fin 256 → EReal := fun n e => v33 (ix2 n e)
abbrev rmf : Fin 32 → EReal := fun s => k0_pay11 (F := Ideal) v41 (ix2 s (0 : Fin 1))
abbrev cmf : Fin 2048 → EReal := fun n => v38 (ix2 (0 : Fin 1) n)

/-- A head whose three slabs are columns `32 h ..< 32 h + 32` of the projected arrays: the four pieces composed
    are the specification's head `h`. -/
theorem head_core (h : Fin 8) (Qh : FVec Ideal S32x32 .f32) (Kh Vh : FVec Ideal S2048x32 .bf16)
    (hQ : ∀ (s d : Fin 32), Qh (ix2 s d) = v22 (ix2 s (Spec.col h d)))
    (hK : ∀ (n : Fin 2048) (d : Fin 32), Kh (ix2 n d) = v32 (ix2 n (Spec.col h d)))
    (hV : ∀ (n : Fin 2048) (d : Fin 32), Vh (ix2 n d) = v33 (ix2 n (Spec.col h d))) (s d : Fin 32) :
    outp Qh Vh (attn (expv Qh Kh v38 (k0_pay11 (F := Ideal) v41)) (rowSum (expv Qh Kh v38 (k0_pay11 (F := Ideal) v41)))
        (Scalar.ofBits .f32 0x26901D7D#32)) (ix2 s d)
      = Spec.head (qf v22) (kf v32) (vf v33) (rmf v41) (cmf v38) h s d := by
  have hE : ∀ n : Fin 2048, expv Qh Kh v38 (k0_pay11 (F := Ideal) v41) (ix2 s n)
      = Spec.ex (qf v22) (kf v32) (rmf v41) (cmf v38) h s n := fun n =>
    (expv_apply Qh Kh v38 _ s n).trans
      (congrArg (fun x : EReal => Ideal.exp (x * Spec.scale) * rmf v41 s * cmf v38 n)
        (Finset.sum_congr rfl fun d _ => congrArg₂ (· * ·) (hQ s d) (hK n d)))
  refine (outp_apply Qh Vh _ s d).trans ?_
  unfold Spec.head Spec.att
  refine congrArg₂ (· + ·) (hQ s d) (Finset.sum_congr rfl fun n _ => ?_)
  refine congrArg₂ (· * ·) ?_ (hV n d)
  refine (attn_apply _ _ _ s n).trans ?_
  refine congrArg₂ Ideal.div (hE n) (congrArg (· + Spec.eps) ?_)
  exact (rowSum_apply _ s 0).trans (Finset.sum_congr rfl fun n' _ => hE n')

/-! ### Head 3: the body cuts after the division -/

/-- The weights of head 3 are the pieces up to the division. -/
theorem pay18_eq (v43 : FVec Ideal S32x1 .f32) :
    k0_pay18 (F := Ideal) v22 v32 v38 v43
      = attn (expv (k0_pay16 (F := Ideal) v22) (extractStridedSlice S2048x32 ![0, 96] v32 slices_S2048x256_o0_96_S2048x32) v38 v43)
          (rowSum (expv (k0_pay16 (F := Ideal) v22) (extractStridedSlice S2048x32 ![0, 96] v32 slices_S2048x256_o0_96_S2048x32) v38 v43))
          (Scalar.ofBits .f32 0x26901D7D#32) := rfl

/-- The finish of head 3 is the output piece. -/
theorem pay19_eq (Qh : FVec Ideal S32x32 .f32) (Vh : FVec Ideal S2048x32 .bf16) (A : FVec Ideal S32x2048 .f32) :
    k0_pay19 (F := Ideal) Qh Vh A = outp Qh Vh A := rfl

theorem head3 (s d : Fin 32) :
    k0_pay19 (F := Ideal) (k0_pay16 (F := Ideal) v22) (k0_pay17 (F := Ideal) v33)
        (k0_pay18 (F := Ideal) v22 v32 v38 (k0_pay11 (F := Ideal) v41)) (ix2 s d)
      = Spec.head (qf v22) (kf v32) (vf v33) (rmf v41) (cmf v38) 3 s d := by
  rw [pay19_eq, pay18_eq]
  exact head_core v22 v32 v33 v38 v41 3 _ _ _
    (fun s d => slice2_axis1_apply 96 v22 slices_S32x256_o0_96_S32x32 s d (Spec.col 3 d) rfl)
    (fun n d => slice2_axis1_apply 96 v32 slices_S2048x256_o0_96_S2048x32 n d (Spec.col 3 d) rfl)
    (fun n d => slice2_axis1_apply 96 v33 slices_S2048x256_o0_96_S2048x32 n d (Spec.col 3 d) rfl) s d

/-! ### Head 5: the body cuts after the masked exponential and again after the row sums -/

theorem pay23_eq (v43 : FVec Ideal S32x1 .f32) :
    k0_pay23 (F := Ideal) v22 v32 v38 v43
      = expv (k0_pay21 (F := Ideal) v22) (extractStridedSlice S2048x32 ![0, 160] v32 slices_S2048x256_o0_160_S2048x32) v38 v43 := rfl

theorem pay24_eq (v43 : FVec Ideal S32x1 .f32) :
    k0_pay24 (F := Ideal) v22 v32 v38 v43 = rowSum (k0_pay23 (F := Ideal) v22 v32 v38 v43) := rfl

theorem pay25_eq (Qh : FVec Ideal S32x32 .f32) (Vh : FVec Ideal S2048x32 .bf16) (E : FVec Ideal S32x2048 .f32)
    (R : FVec Ideal S32x1 .f32) (e : Ideal .f32) :
    k0_pay25 (F := Ideal) Qh Vh E R e = outp Qh Vh (attn E R e) := rfl

theorem head5 (s d : Fin 32) :
    k0_pay25 (F := Ideal) (k0_pay21 (F := Ideal) v22) (k0_pay22 (F := Ideal) v33)
        (k0_pay23 (F := Ideal) v22 v32 v38 (k0_pay11 (F := Ideal) v41))
        (k0_pay24 (F := Ideal) v22 v32 v38 (k0_pay11 (F := Ideal) v41)) (Scalar.ofBits .f32 0x26901D7D#32) (ix2 s d)
      = Spec.head (qf v22) (kf v32) (vf v33) (rmf v41) (cmf v38) 5 s d := by
  rw [pay25_eq, pay24_eq, pay23_eq]
  exact head_core v22 v32 v33 v38 v41 5 _ _ _
    (fun s d => slice2_axis1_apply 160 v22 slices_S32x256_o0_160_S32x32 s d (Spec.col 5 d) rfl)
    (fun n d => slice2_axis1_apply 160 v32 slices_S2048x256_o0_160_S2048x32 n d (Spec.col 5 d) rfl)
    (fun n d => slice2_axis1_apply 160 v33 slices_S2048x256_o0_160_S2048x32 n d (Spec.col 5 d) rfl) s d

/-! ### Head 7: the body cuts after the masked exponential -/

theorem pay29_eq (v43 : FVec Ideal S32x1 .f32) :
    k0_pay29 (F := Ideal) v22 v32 v38 v43
      = expv (k0_pay27 (F := Ideal) v22) (extractStridedSlice S2048x32 ![0, 224] v32 slices_S2048x256_o0_224_S2048x32) v38 v43 := rfl

theorem pay1_eq (Qh : FVec Ideal S32x32 .f32) (Vh : FVec Ideal S2048x32 .bf16) (E : FVec Ideal S32x2048 .f32) :
    k0_pay1 (F := Ideal) Qh Vh E = outp Qh Vh (attn E (rowSum E) (Scalar.ofBits .f32 0x26901D7D#32)) := rfl

theorem head7 (s d : Fin 32) :
    k0_pay1 (F := Ideal) (k0_pay27 (F := Ideal) v22) (k0_pay28 (F := Ideal) v33)
        (k0_pay29 (F := Ideal) v22 v32 v38 (k0_pay11 (F := Ideal) v41)) (ix2 s d)
      = Spec.head (qf v22) (kf v32) (vf v33) (rmf v41) (cmf v38) 7 s d := by
  rw [pay1_eq, pay29_eq]
  exact head_core v22 v32 v33 v38 v41 7 _ _ _
    (fun s d => slice2_axis1_apply 224 v22 slices_S32x256_o0_224_S32x32 s d (Spec.col 7 d) rfl)
    (fun n d => slice2_axis1_apply 224 v32 slices_S2048x256_o0_224_S2048x32 n d (Spec.col 7 d) rfl)
    (fun n d => slice2_axis1_apply 224 v33 slices_S2048x256_o0_224_S2048x32 n d (Spec.col 7 d) rfl) s d

end Heads

end Cert.KernelIdeal.HeadsB
-- ==== Proof.KI.PayOut.lean ====
/-
  The kernel's pure payloads read at one element.

  At the ideal instance every float is an extended real: a change of format is the identity, a matrix
  product into a zero accumulator is the sum of the operands' products over the contracted coordinate,
  and the conversion of a widened comparison bit to a float is one or zero.  Read this way, the narrowed
  output weight is the weight itself; the seeds' projection is a plain product; the keys' and the values'
  projections are plain products times the length mask of their row; the two masks are the indicator of
  "position below the length word, read signed"; and the block the kernel stores is the merged row plus its
  rectified projection, times the seed-row mask.
-/
import proofs.«416182_j80152679678423_1_alg».proof.Proof.Gen.KernelIdeal.Skeleton
import proofs.«416182_j80152679678423_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayOut

open Cert.KernelIdeal Cert.KernelIdeal.Gen Idealize.ShloMosaic Idealize.ShloMosaic.ValueIdx
open scoped BigOperators

/-! ## The length masks -/

/-- A comparison's bit, widened to a word and read signed, is one or zero. -/
theorem bit_toEReal (b : Bool) : ((((BitVec.ofBool b).setWidth 32).toInt : ℝ) : EReal) = if b then 1 else 0 := by
  cases b
  · have h : ((BitVec.ofBool false).setWidth 32).toInt = 0 := by decide
    rw [h, Int.cast_zero, EReal.coe_zero, if_neg (by decide)]
  · have h : ((BitVec.ofBool true).setWidth 32).toInt = 1 := by decide
    rw [h, Int.cast_one, EReal.coe_one, if_pos rfl]

/-- The mask word the kernel builds at position `n` against the length word `l`: the signed comparison's bit,
    widened and converted, is the specification's mask. -/
theorem mask_word (n : ℕ) (l : BitVec 32) :
    FloatOps.sitofp (F := Ideal) .f32 ((IntOp.cmpi .slt (BitVec.ofNat 32 n) l).setWidth 32) = Spec.mask n l :=
  bit_toEReal _

/-- The key mask, a row of 2048 positions. -/
theorem pay9_apply (v1 : Elt Ideal .i32) (n : Fin 2048) :
    k0_pay9 (F := Ideal) v1 (ix2 (0 : Fin 1) n) = Spec.mask n.val v1 := by
  unfold k0_pay9
  exact (congrArg (fun w => FloatOps.sitofp (F := Ideal) .f32 ((IntOp.cmpi .slt w v1).setWidth 32))
    (iota_single_apply .tc S1x2048 32 1 iota_S1x2048_d1_w32 (ix2 (0 : Fin 1) n))).trans (mask_word n.val v1)

/-- The seed-row mask, a column of 32 positions: the comparison bit first, then its widening and conversion. -/
theorem pay11_apply (v1 : Elt Ideal .i32) (s : Fin 32) :
    k0_pay11 (F := Ideal) (k0_pay10 (F := Ideal) v1) (ix2 s (0 : Fin 1)) = Spec.mask s.val v1 := by
  unfold k0_pay11 k0_pay10
  exact (congrArg (fun w => FloatOps.sitofp (F := Ideal) .f32 ((IntOp.cmpi .slt w v1).setWidth 32))
    (iota_single_apply .tc S32x1 32 0 iota_S32x1_d0_w32 (ix2 s (0 : Fin 1)))).trans (mask_word s.val v1)

/-- The mask as a column of 2048 positions, which the keys' and the values' projections are multiplied by. -/
theorem pay6_apply (v1 : Elt Ideal .i32) (n : Fin 2048) :
    k0_pay6 (F := Ideal) v1 (ix2 n (0 : Fin 1)) = Spec.mask n.val v1 := by
  unfold k0_pay6
  exact (congrArg (fun w => FloatOps.sitofp (F := Ideal) .f32 ((IntOp.cmpi .slt w v1).setWidth 32))
    (iota_single_apply .tc S2048x1 32 0 iota_S2048x1_d0_w32 (ix2 n (0 : Fin 1)))).trans (mask_word n.val v1)

/-! ## Layout -/

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The narrowed output weight is the weight. -/
theorem pay4_apply (v14 : Vec Ideal S256x256 .f32) (a b : Fin 256) :
    k0_pay4 (F := Ideal) v14 (ix2 a b) = v14 (ix2 a b) := by
  unfold k0_pay4
  exact congrFun (shapeCast_self v14 shapeCasts_S256x256_S256x256) (ix2 a b)

/-- The input block with its unit axis dropped and its format narrowed is the block. -/
theorem pay3_apply (v2 : Vec Ideal S1x2048x256 .f32) (n : Fin 2048) (j : Fin 256) :
    k0_pay3 (F := Ideal) v2 (ix2 n j) = v2 (ix3 (0 : Fin 1) n j) := by
  unfold k0_pay3
  exact shapeCast_1ab_ab_apply v2 shapeCasts_S1x2048x256_S2048x256 n j

/-! ## The two matrix products at an element -/

theorem lhs_s_0 (i : S32x256.Idx) (q : dot_S32x256_S256x256_S32x256_1_0_0_1_n_n.contr.Idx) :
    (dot_S32x256_S256x256_S32x256_1_0_0_1_n_n.lhsIdx i q 0).val = (i 0).val := by
  unfold DotDims.lhsIdx
  rw [dif_neg (show ¬(0 : Fin S32x256.rank) ∈ dot_S32x256_S256x256_S32x256_1_0_0_1_n_n.lhsBatch by decide), dif_pos (show (0 : Fin S32x256.rank) ∈ dot_S32x256_S256x256_S32x256_1_0_0_1_n_n.lhsNonContracting by decide)]
  rfl
theorem lhs_s_1 (i : S32x256.Idx) (q : dot_S32x256_S256x256_S32x256_1_0_0_1_n_n.contr.Idx) :
    (dot_S32x256_S256x256_S32x256_1_0_0_1_n_n.lhsIdx i q 1).val = (q ⟨0, by decide⟩).val :=
  dot_S32x256_S256x256_S32x256_1_0_0_1_n_n.lhsIdx_val_of_single rfl i q
theorem rhs_s_0 (i : S32x256.Idx) (q : dot_S32x256_S256x256_S32x256_1_0_0_1_n_n.contr.Idx) :
    (dot_S32x256_S256x256_S32x256_1_0_0_1_n_n.rhsIdx i q 0).val = (q ⟨0, by decide⟩).val :=
  dot_S32x256_S256x256_S32x256_1_0_0_1_n_n.rhsIdx_val_of_single rfl i q
theorem rhs_s_1 (i : S32x256.Idx) (q : dot_S32x256_S256x256_S32x256_1_0_0_1_n_n.contr.Idx) :
    (dot_S32x256_S256x256_S32x256_1_0_0_1_n_n.rhsIdx i q 1).val = (i 1).val := by
  unfold DotDims.rhsIdx
  rw [dif_neg (show ¬(1 : Fin S256x256.rank) ∈ dot_S32x256_S256x256_S32x256_1_0_0_1_n_n.rhsBatch by decide), dif_pos (show (1 : Fin S256x256.rank) ∈ dot_S32x256_S256x256_S32x256_1_0_0_1_n_n.rhsNonContracting by decide)]
  rfl

/-- A 32-row block times a square matrix, into a zero accumulator: the sum over the contracted coordinate. -/
theorem mm_s_apply (A : FVec Ideal S32x256 .bf16) (B : FVec Ideal S256x256 .bf16) (r : Fin 32) (e : Fin 256) :
    matmul dot_S32x256_S256x256_S32x256_1_0_0_1_n_n none A B (constant (F := Ideal) S32x256 .f32 0x00000000#32) (ix2 r e)
      = ∑ j : Fin 256, A (ix2 r j) * B (ix2 j e) := by
  refine (Ideal.matmul_constant_zero_apply dot_S32x256_S256x256_S32x256_1_0_0_1_n_n none A B (ix2 r e)).trans ?_
  rw [← Equiv.sum_comp (contrEquiv1 dot_S32x256_S256x256_S32x256_1_0_0_1_n_n 256 rfl rfl).symm]
  refine Finset.sum_congr rfl fun k _ => ?_
  have hk := contrEquiv1_symm_val dot_S32x256_S256x256_S32x256_1_0_0_1_n_n 256 rfl rfl k
  have el : dot_S32x256_S256x256_S32x256_1_0_0_1_n_n.lhsIdx (ix2 r e) ((contrEquiv1 dot_S32x256_S256x256_S32x256_1_0_0_1_n_n 256 rfl rfl).symm k) = ix2 r k := funext fun a => Fin.ext (by
    match a with
    | ⟨0, _⟩ => exact lhs_s_0 _ _
    | ⟨1, _⟩ => exact (lhs_s_1 _ _).trans hk)
  have er : dot_S32x256_S256x256_S32x256_1_0_0_1_n_n.rhsIdx (ix2 r e) ((contrEquiv1 dot_S32x256_S256x256_S32x256_1_0_0_1_n_n 256 rfl rfl).symm k) = ix2 k e := funext fun a => Fin.ext (by
    match a with
    | ⟨0, _⟩ => exact (rhs_s_0 _ _).trans hk
    | ⟨1, _⟩ => exact rhs_s_1 _ _)
  rw [el, er]

theorem lhs_n_0 (i : S2048x256.Idx) (q : dot_S2048x256_S256x256_S2048x256_1_0_0_1_n_n.contr.Idx) :
    (dot_S2048x256_S256x256_S2048x256_1_0_0_1_n_n.lhsIdx i q 0).val = (i 0).val := by
  unfold DotDims.lhsIdx
  rw [dif_neg (show ¬(0 : Fin S2048x256.rank) ∈ dot_S2048x256_S256x256_S2048x256_1_0_0_1_n_n.lhsBatch by decide), dif_pos (show (0 : Fin S2048x256.rank) ∈ dot_S2048x256_S256x256_S2048x256_1_0_0_1_n_n.lhsNonContracting by decide)]
  rfl
theorem lhs_n_1 (i : S2048x256.Idx) (q : dot_S2048x256_S256x256_S2048x256_1_0_0_1_n_n.contr.Idx) :
    (dot_S2048x256_S256x256_S2048x256_1_0_0_1_n_n.lhsIdx i q 1).val = (q ⟨0, by decide⟩).val :=
  dot_S2048x256_S256x256_S2048x256_1_0_0_1_n_n.lhsIdx_val_of_single rfl i q
theorem rhs_n_0 (i : S2048x256.Idx) (q : dot_S2048x256_S256x256_S2048x256_1_0_0_1_n_n.contr.Idx) :
    (dot_S2048x256_S256x256_S2048x256_1_0_0_1_n_n.rhsIdx i q 0).val = (q ⟨0, by decide⟩).val :=
  dot_S2048x256_S256x256_S2048x256_1_0_0_1_n_n.rhsIdx_val_of_single rfl i q
theorem rhs_n_1 (i : S2048x256.Idx) (q : dot_S2048x256_S256x256_S2048x256_1_0_0_1_n_n.contr.Idx) :
    (dot_S2048x256_S256x256_S2048x256_1_0_0_1_n_n.rhsIdx i q 1).val = (i 1).val := by
  unfold DotDims.rhsIdx
  rw [dif_neg (show ¬(1 : Fin S256x256.rank) ∈ dot_S2048x256_S256x256_S2048x256_1_0_0_1_n_n.rhsBatch by decide), dif_pos (show (1 : Fin S256x256.rank) ∈ dot_S2048x256_S256x256_S2048x256_1_0_0_1_n_n.rhsNonContracting by decide)]
  rfl

/-- A 2048-row block times a square matrix, into a zero accumulator: the sum over the contracted coordinate. -/
theorem mm_n_apply (A : FVec Ideal S2048x256 .bf16) (B : FVec Ideal S256x256 .bf16) (r : Fin 2048) (e : Fin 256) :
    matmul dot_S2048x256_S256x256_S2048x256_1_0_0_1_n_n none A B (constant (F := Ideal) S2048x256 .f32 0x00000000#32) (ix2 r e)
      = ∑ j : Fin 256, A (ix2 r j) * B (ix2 j e) := by
  refine (Ideal.matmul_constant_zero_apply dot_S2048x256_S256x256_S2048x256_1_0_0_1_n_n none A B (ix2 r e)).trans ?_
  rw [← Equiv.sum_comp (contrEquiv1 dot_S2048x256_S256x256_S2048x256_1_0_0_1_n_n 256 rfl rfl).symm]
  refine Finset.sum_congr rfl fun k _ => ?_
  have hk := contrEquiv1_symm_val dot_S2048x256_S256x256_S2048x256_1_0_0_1_n_n 256 rfl rfl k
  have el : dot_S2048x256_S256x256_S2048x256_1_0_0_1_n_n.lhsIdx (ix2 r e) ((contrEquiv1 dot_S2048x256_S256x256_S2048x256_1_0_0_1_n_n 256 rfl rfl).symm k) = ix2 r k := funext fun a => Fin.ext (by
    match a with
    | ⟨0, _⟩ => exact lhs_n_0 _ _
    | ⟨1, _⟩ => exact (lhs_n_1 _ _).trans hk)
  have er : dot_S2048x256_S256x256_S2048x256_1_0_0_1_n_n.rhsIdx (ix2 r e) ((contrEquiv1 dot_S2048x256_S256x256_S2048x256_1_0_0_1_n_n 256 rfl rfl).symm k) = ix2 k e := funext fun a => Fin.ext (by
    match a with
    | ⟨0, _⟩ => exact (rhs_n_0 _ _).trans hk
    | ⟨1, _⟩ => exact rhs_n_1 _ _)
  rw [el, er]

/-! ## The projections and the output block -/

/-- The seeds' projection. -/
theorem pay5_apply (v11 : Vec Ideal S256x256 .f32) (v17 : Vec Ideal S1x32x256 .f32) (s : Fin 32) (e : Fin 256) :
    k0_pay5 (F := Ideal) v11 v17 (ix2 s e) = ∑ j : Fin 256, v17 (ix3 (0 : Fin 1) s j) * v11 (ix2 j e) := by
  unfold k0_pay5
  refine (mm_s_apply _ _ s e).trans (Finset.sum_congr rfl fun j _ => ?_)
  show shapeCast S32x256 v17 shapeCasts_S1x32x256_S32x256 (ix2 s j) * shapeCast S256x256 v11 shapeCasts_S256x256_S256x256 (ix2 j e) = _
  rw [shapeCast_1ab_ab_apply, shapeCast_self]

/-- The keys' projection, masked by the length. -/
theorem pay7_apply (v1 : Elt Ideal .i32) (v2 : Vec Ideal S1x2048x256 .f32) (v5 : Vec Ideal S256x256 .f32) (n : Fin 2048) (e : Fin 256) :
    k0_pay7 (F := Ideal) v1 v2 v5 (ix2 n e) = (∑ j : Fin 256, v2 (ix3 (0 : Fin 1) n j) * v5 (ix2 j e)) * Spec.mask n.val v1 := by
  unfold k0_pay7
  show matmul dot_S2048x256_S256x256_S2048x256_1_0_0_1_n_n none (k0_pay3 (F := Ideal) v2) (truncf .bf16 (shapeCast S256x256 v5 shapeCasts_S256x256_S256x256) bitsLt_bf16_f32) (constant (F := Ideal) S2048x256 .f32 0x00000000#32) (ix2 n e)
    * broadcastTo S2048x256 (k0_pay6 (F := Ideal) v1) broadcasts_S2048x1_S2048x256 (ix2 n e) = _
  rw [mm_n_apply, broadcastTo_a1_ab_apply, pay6_apply]
  refine congrArg (· * Spec.mask n.val v1) (Finset.sum_congr rfl fun j _ => ?_)
  rw [pay3_apply, truncf_apply, shapeCast_self]

/-- The values' projection, masked by the length. -/
theorem pay8_apply (v1 : Elt Ideal .i32) (v2 : Vec Ideal S1x2048x256 .f32) (v8 : Vec Ideal S256x256 .f32) (n : Fin 2048) (e : Fin 256) :
    k0_pay8 (F := Ideal) v1 v2 v8 (ix2 n e) = (∑ j : Fin 256, v2 (ix3 (0 : Fin 1) n j) * v8 (ix2 j e)) * Spec.mask n.val v1 := by
  unfold k0_pay8
  show matmul dot_S2048x256_S256x256_S2048x256_1_0_0_1_n_n none (k0_pay3 (F := Ideal) v2) (truncf .bf16 (shapeCast S256x256 v8 shapeCasts_S256x256_S256x256) bitsLt_bf16_f32) (constant (F := Ideal) S2048x256 .f32 0x00000000#32) (ix2 n e)
    * broadcastTo S2048x256 (k0_pay6 (F := Ideal) v1) broadcasts_S2048x1_S2048x256 (ix2 n e) = _
  rw [mm_n_apply, broadcastTo_a1_ab_apply, pay6_apply]
  refine congrArg (· * Spec.mask n.val v1) (Finset.sum_congr rfl fun j _ => ?_)
  rw [pay3_apply, truncf_apply, shapeCast_self]

/-- The block the kernel stores: the merged row plus its rectified projection, times the seed-row mask. -/
theorem pay2_apply (v16 : FVec Ideal S256x256 .bf16) (v43 : FVec Ideal S32x1 .f32) (v236 : Vec Ideal S32x256 .f32) (s : Fin 32) (e : Fin 256) :
    k0_pay2 (F := Ideal) v16 v43 v236 (ix3 (0 : Fin 1) s e)
      = (v236 (ix2 s e) + max (∑ e' : Fin 256, v236 (ix2 s e') * v16 (ix2 e' e)) 0) * v43 (ix2 s (0 : Fin 1)) := by
  unfold k0_pay2
  refine (shapeCast_ab_1ab_apply _ shapeCasts_S32x256_S1x32x256 (0 : Fin 1) s e).trans ?_
  show (v236 (ix2 s e) + max (matmul dot_S32x256_S256x256_S32x256_1_0_0_1_n_n none (truncf .bf16 v236 bitsLt_bf16_f32) v16 (constant (F := Ideal) S32x256 .f32 0x00000000#32) (ix2 s e)) (Ideal.ofBits .f32 0x00000000#32))
    * broadcastTo S32x256 v43 broadcasts_S32x1_S32x256 (ix2 s e) = _
  rw [mm_s_apply, broadcastTo_a1_ab_apply, Ideal.ofBits_zero_f32]
  rfl

end Cert.KernelIdeal.PayOut

end
-- ==== Proof.KI.BlockValue.lean ====
import proofs.«416182_j80152679678423_1_alg».proof.Proof.KI.HeadsA
import proofs.«416182_j80152679678423_1_alg».proof.Proof.KI.HeadsB
import proofs.«416182_j80152679678423_1_alg».proof.Proof.KI.PayOut

/-!
# One grid point's output block, read at an element

The body projects the seed block and the input block, computes the eight heads from the projections
and lays them side by side in a scratch row of width 256, then applies the gated residual rectified
projection. Given that the scratch row holds the eight head terms column block by column block, the
stored block at `(s, e)` is `Spec.gated` of the projections, the masks and the output weights.
-/

noncomputable section

namespace Cert.KernelIdeal.BlockValue

open Cert.KernelIdeal Cert.KernelIdeal.Gen Idealize.ShloMosaic Idealize.ShloMosaic.ValueIdx
open scoped BigOperators

/-- The eight head terms as the body computes them from its loads: the length word `v1`, the input block `v2`,
    the key, value and query weights `v5`, `v8`, `v11`, and the seed block `v17`. -/
def headTerm (v1 : Elt Ideal .i32) (v2 : Vec Ideal S1x2048x256 .f32) (v5 v8 v11 : Vec Ideal S256x256 .f32)
    (v17 : Vec Ideal S1x32x256 .f32) : Fin 8 → FVec Ideal S32x32 .f32
  | 0 => k0_pay12 (F := Ideal) (k0_pay5 (F := Ideal) v11 v17) (k0_pay7 (F := Ideal) v1 v2 v5) (k0_pay8 (F := Ideal) v1 v2 v8)
      (k0_pay9 (F := Ideal) v1) (k0_pay10 (F := Ideal) v1)
  | 1 => k0_pay14 (F := Ideal) (k0_pay13 (F := Ideal) (k0_pay5 (F := Ideal) v11 v17) (k0_pay7 (F := Ideal) v1 v2 v5)
      (k0_pay8 (F := Ideal) v1 v2 v8) (k0_pay9 (F := Ideal) v1) (k0_pay10 (F := Ideal) v1))
  | 2 => k0_pay15 (F := Ideal) (k0_pay5 (F := Ideal) v11 v17) (k0_pay7 (F := Ideal) v1 v2 v5) (k0_pay8 (F := Ideal) v1 v2 v8)
      (k0_pay9 (F := Ideal) v1) (k0_pay11 (F := Ideal) (k0_pay10 (F := Ideal) v1))
  | 3 => k0_pay19 (F := Ideal) (k0_pay16 (F := Ideal) (k0_pay5 (F := Ideal) v11 v17)) (k0_pay17 (F := Ideal) (k0_pay8 (F := Ideal) v1 v2 v8))
      (k0_pay18 (F := Ideal) (k0_pay5 (F := Ideal) v11 v17) (k0_pay7 (F := Ideal) v1 v2 v5) (k0_pay9 (F := Ideal) v1)
        (k0_pay11 (F := Ideal) (k0_pay10 (F := Ideal) v1)))
  | 4 => k0_pay20 (F := Ideal) (k0_pay5 (F := Ideal) v11 v17) (k0_pay7 (F := Ideal) v1 v2 v5) (k0_pay8 (F := Ideal) v1 v2 v8)
      (k0_pay9 (F := Ideal) v1) (k0_pay11 (F := Ideal) (k0_pay10 (F := Ideal) v1))
  | 5 => k0_pay25 (F := Ideal) (k0_pay21 (F := Ideal) (k0_pay5 (F := Ideal) v11 v17)) (k0_pay22 (F := Ideal) (k0_pay8 (F := Ideal) v1 v2 v8))
      (k0_pay23 (F := Ideal) (k0_pay5 (F := Ideal) v11 v17) (k0_pay7 (F := Ideal) v1 v2 v5) (k0_pay9 (F := Ideal) v1)
        (k0_pay11 (F := Ideal) (k0_pay10 (F := Ideal) v1)))
      (k0_pay24 (F := Ideal) (k0_pay5 (F := Ideal) v11 v17) (k0_pay7 (F := Ideal) v1 v2 v5) (k0_pay9 (F := Ideal) v1)
        (k0_pay11 (F := Ideal) (k0_pay10 (F := Ideal) v1)))
      (Scalar.ofBits .f32 0x26901D7D#32)
  | 6 => k0_pay26 (F := Ideal) (k0_pay5 (F := Ideal) v11 v17) (k0_pay7 (F := Ideal) v1 v2 v5) (k0_pay8 (F := Ideal) v1 v2 v8)
      (k0_pay9 (F := Ideal) v1) (k0_pay11 (F := Ideal) (k0_pay10 (F := Ideal) v1))
  | 7 => k0_pay1 (F := Ideal) (k0_pay27 (F := Ideal) (k0_pay5 (F := Ideal) v11 v17)) (k0_pay28 (F := Ideal) (k0_pay8 (F := Ideal) v1 v2 v8))
      (k0_pay29 (F := Ideal) (k0_pay5 (F := Ideal) v11 v17) (k0_pay7 (F := Ideal) v1 v2 v5) (k0_pay9 (F := Ideal) v1)
        (k0_pay11 (F := Ideal) (k0_pay10 (F := Ideal) v1)))

section Block

variable (v1 : Elt Ideal .i32) (v2 : Vec Ideal S1x2048x256 .f32) (v5 v8 v11 v14 : Vec Ideal S256x256 .f32)
  (v17 : Vec Ideal S1x32x256 .f32)

/-- The projected seeds, a masked projection of the input block by a weight matrix, and the length mask,
    as plain index functions of the loads. -/
abbrev qB : Fin 32 → Fin 256 → EReal := fun s e => ∑ j : Fin 256, v17 (ix3 (0 : Fin 1) s j) * v11 (ix2 j e)
abbrev kB (W : Vec Ideal S256x256 .f32) : Fin 2048 → Fin 256 → EReal :=
  fun n e => (∑ j : Fin 256, v2 (ix3 (0 : Fin 1) n j) * W (ix2 j e)) * Spec.mask n.val v1
abbrev rmB : Fin 32 → EReal := fun s => Spec.mask s.val v1
abbrev cmB : Fin 2048 → EReal := fun n => Spec.mask n.val v1

theorem qf_eq : HeadsA.qf (k0_pay5 (F := Ideal) v11 v17) = qB v11 v17 :=
  funext fun s => funext fun e => PayOut.pay5_apply v11 v17 s e
theorem kf_eq (W : Vec Ideal S256x256 .f32) : HeadsA.kf (k0_pay7 (F := Ideal) v1 v2 W) = kB v1 v2 W :=
  funext fun n => funext fun e => PayOut.pay7_apply v1 v2 W n e
theorem vf_eq (W : Vec Ideal S256x256 .f32) : HeadsA.vf (k0_pay8 (F := Ideal) v1 v2 W) = kB v1 v2 W :=
  funext fun n => funext fun e => PayOut.pay8_apply v1 v2 W n e
theorem rmf_eq : HeadsA.rmf (k0_pay10 (F := Ideal) v1) = rmB v1 :=
  funext fun s => PayOut.pay11_apply v1 s
theorem cmf_eq : HeadsA.cmf (k0_pay9 (F := Ideal) v1) = cmB v1 :=
  funext fun n => PayOut.pay9_apply v1 n

/-- Each head term at `(s, d)` is `Spec.head` of the body's own projections and masks. -/
theorem head_all0 (h : Fin 8) (s d : Fin 32) :
    headTerm v1 v2 v5 v8 v11 v17 h (ix2 s d)
      = Spec.head (HeadsA.qf (k0_pay5 (F := Ideal) v11 v17)) (HeadsA.kf (k0_pay7 (F := Ideal) v1 v2 v5))
          (HeadsA.vf (k0_pay8 (F := Ideal) v1 v2 v8)) (HeadsA.rmf (k0_pay10 (F := Ideal) v1))
          (HeadsA.cmf (k0_pay9 (F := Ideal) v1)) h s d := by
  match h with
  | 0 => exact HeadsA.head0 _ _ _ _ _ s d
  | 1 => exact HeadsA.head1 _ _ _ _ _ s d
  | 2 => exact HeadsA.head2 _ _ _ _ _ s d
  | 3 => exact HeadsB.head3 _ _ _ _ _ s d
  | 4 => exact HeadsA.head4 _ _ _ _ _ s d
  | 5 => exact HeadsB.head5 _ _ _ _ _ s d
  | 6 => exact HeadsA.head6 _ _ _ _ _ s d
  | 7 => exact HeadsB.head7 _ _ _ _ _ s d

/-- The same over the projections written as sums over the loads. -/
theorem head_all (h : Fin 8) (s d : Fin 32) :
    headTerm v1 v2 v5 v8 v11 v17 h (ix2 s d)
      = Spec.head (qB v11 v17) (kB v1 v2 v5) (kB v1 v2 v8) (rmB v1) (cmB v1) h s d := by
  have e := head_all0 v1 v2 v5 v8 v11 v17 h s d
  rwa [qf_eq, kf_eq, vf_eq, rmf_eq, cmf_eq] at e

/-- A scratch row that holds the eight head terms column block by column block is the merged row. -/
theorem scr_merged (scr : Vec Ideal S32x256 .f32)
    (hscr : ∀ (h : Fin 8) (s d : Fin 32), scr (ix2 s (Spec.col h d)) = headTerm v1 v2 v5 v8 v11 v17 h (ix2 s d))
    (s : Fin 32) (e : Fin 256) :
    scr (ix2 s e) = Spec.merged (qB v11 v17) (kB v1 v2 v5) (kB v1 v2 v8) (rmB v1) (cmB v1) s e := by
  unfold Spec.merged
  rw [← head_all v1 v2 v5 v8 v11 v17, ← hscr, Spec.col_headOf_coordOf]

/-- The stored block at `(s, e)`: the merged row plus its rectified projection by the output weights, gated by
    the seed-row mask. -/
theorem block_value (scr : Vec Ideal S32x256 .f32)
    (hscr : ∀ (h : Fin 8) (s d : Fin 32), scr (ix2 s (Spec.col h d)) = headTerm v1 v2 v5 v8 v11 v17 h (ix2 s d))
    (s : Fin 32) (e : Fin 256) :
    k0_pay2 (F := Ideal) (k0_pay4 (F := Ideal) v14) (k0_pay11 (F := Ideal) (k0_pay10 (F := Ideal) v1)) scr
        (ix3 (0 : Fin 1) s e)
      = Spec.gated (fun s e => ∑ j : Fin 256, v17 (ix3 (0 : Fin 1) s j) * v11 (ix2 j e))
          (fun n e => (∑ j : Fin 256, v2 (ix3 (0 : Fin 1) n j) * v5 (ix2 j e)) * Spec.mask n.val v1)
          (fun n e => (∑ j : Fin 256, v2 (ix3 (0 : Fin 1) n j) * v8 (ix2 j e)) * Spec.mask n.val v1)
          (fun s => Spec.mask s.val v1) (fun n => Spec.mask n.val v1) (fun e' e => v14 (ix2 e' e)) s e := by
  show _ = Spec.gated (qB v11 v17) (kB v1 v2 v5) (kB v1 v2 v8) (rmB v1) (cmB v1) (fun e' e => v14 (ix2 e' e)) s e
  have hm := scr_merged v1 v2 v5 v8 v11 v17 scr hscr s
  rw [PayOut.pay2_apply, PayOut.pay11_apply, hm e]
  unfold Spec.gated
  refine congrArg (fun x => (Spec.merged _ _ _ _ _ s e + max x 0) * Spec.mask s.val v1)
    (Finset.sum_congr rfl fun e' _ => ?_)
  rw [hm e', PayOut.pay4_apply]

end Block

end Cert.KernelIdeal.BlockValue
-- ==== Proof.KI.Witness.lean ====
/-
  One grid point's result at block level.

  At grid point `t` the body is handed the lengths table and the blocks of the six input windows, and what it
  leaves in the output window's buffer, read back through the buffer's view, is the output payload over those
  blocks and over word `t` of the table, the scratch it reads being the eight head payloads side by side.
  The payloads read at an index are the specification's heads, projections and masks, so the block is the gated
  attention of the blocks' projections at batch element `t`'s length word.
-/
import proofs.«416182_j80152679678423_1_alg».proof.Proof.KI.ArrayValue
import proofs.«416182_j80152679678423_1_alg».proof.Proof.KI.BlockValue

noncomputable section

open scoped BigOperators

namespace Cert.KernelIdeal.Witness

open Cert.KernelIdeal Cert.KernelIdeal.Gen Cert.KernelIdeal.Hand
open Idealize.ShloMosaic Idealize.ShloMosaic.TcCoe Idealize.SL.Sem Idealize.ShloMosaic.ValueIdx

/-- The body's eight head payloads, over the projections and masks it computes from its loads, are the block-level
    list of heads, head by head. -/
theorem headPay_eq (v1 : Elt Ideal .i32) (v2 : Vec Ideal S1x2048x256 .f32) (v5 v8 v11 : Vec Ideal S256x256 .f32)
    (v17 : Vec Ideal S1x32x256 .f32) (h : Fin 8) :
    headPay (F := Ideal) (k0_pay5 (F := Ideal) v11 v17) (k0_pay7 (F := Ideal) v1 v2 v5) (k0_pay8 (F := Ideal) v1 v2 v8)
        (k0_pay9 (F := Ideal) v1) (k0_pay10 (F := Ideal) v1) h
      = BlockValue.headTerm v1 v2 v5 v8 v11 v17 h := by
  match h with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

variable (m : (ℓ : Loc nD τ sig) → Buf (Elt Ideal) ℓ)

/-- What point `t` leaves in the output window's buffer is the gated attention of the projections of the blocks it
    was handed, masked at batch element `t`'s length word. -/
theorem blockLevel (c : Dev nD) : ArrayValue.BlockLevel m c := by
  intro t b hb s e
  have hread := kernelRun_read (F := Ideal) c (grid0.coords t) (st0 m t) (hs0 m t) (st1 m t) (hs1 m t) (st2 m t) (hs2 m t)
    (st3 m t) (hs3 m t) (st4 m t) (hs4 m t) (st5 m t) (hs5 m t) (st6 m t) (hs6 m t) (tab m c)
    ((hs0 m t).unread (iblk m c 0 t)) ((hs1 m t).unread (iblk m c 1 t)) ((hs2 m t).unread (iblk m c 2 t))
    ((hs3 m t).unread (iblk m c 3 t)) ((hs4 m t).unread (iblk m c 4 t)) ((hs5 m t).unread (iblk m c 5 t))
  have e0 := (hs0 m t).read_unread (Val := Elt Ideal) (iblk m c 0 t)
  have e1 := (hs1 m t).read_unread (Val := Elt Ideal) (iblk m c 1 t)
  have e2 := (hs2 m t).read_unread (Val := Elt Ideal) (iblk m c 2 t)
  have e3 := (hs3 m t).read_unread (Val := Elt Ideal) (iblk m c 3 t)
  have e4 := (hs4 m t).read_unread (Val := Elt Ideal) (iblk m c 4 t)
  have e5 := (hs5 m t).read_unread (Val := Elt Ideal) (iblk m c 5 t)
  rw [e0, e1, e2, e3, e4, e5, tabWord_eq c t b hb (tab m c)] at hread
  refine (congrFun hread (ix3 (0 : Fin 1) s e)).trans ?_
  unfold outBlock
  exact BlockValue.block_value _ _ _ _ _ _ _ _
    (fun h s d => (scratchAfter_apply _ _ _ _ _ h s d).trans (congrFun (headPay_eq _ _ _ _ _ _ h) (ix2 s d))) s e

end Cert.KernelIdeal.Witness

end
-- ==== Proof.RefProj.lean ====
/-
  The reference's projections and masks, read at an index.

  The reference projects the seeds and the inputs (`y = x Wᵀ` as a contraction over the last axis of both
  operands), masks the projected inputs by the element's length, and re-lays every projection from
  `[…, 256]` to `[…, 8, 32]` and then heads-first.  Read at batch `b`, head `h`, row and coordinate `d`, each
  is the specification's projection at column `32 h + d`; the two masks are the specification's mask.
-/
import proofs.«416182_j80152679678423_1_alg».proof.Proof.Gen.ReferenceIdeal.Read
import proofs.«416182_j80152679678423_1_alg».proof.Proof.Spec
import Idealize.ShloMosaic.Lib.ValueIdx
import Idealize.ShloMosaic.Lib.Pipeline.Value
import Idealize.ShloMosaic.PureOps.Ideal.Laws

noncomputable section

open scoped BigOperators

namespace Cert.RefSpec

open Cert.ReferenceIdeal Cert.ReferenceIdeal.Read Idealize.ShloMosaic Idealize.ShloMosaic.ValueIdx

variable (x0 : (⟨S32x2048x256, .f32⟩ : BufTy).Contents (Elt Ideal)) (x1 : (⟨S32, .i32⟩ : BufTy).Contents (Elt Ideal))
  (x2 : (⟨S1x32x256, .f32⟩ : BufTy).Contents (Elt Ideal)) (x3 x4 x5 x6 : (⟨S256x256, .f32⟩ : BufTy).Contents (Elt Ideal))

/-- The argument arrays as plain index functions. -/
abbrev xF : Fin 32 → Fin 2048 → Fin 256 → EReal := fun b n j => x0 (ix3 b n j)
abbrev lenF : Fin 32 → BitVec 32 := fun b => x1 (ix1 b)
abbrev sF : Fin 32 → Fin 256 → EReal := fun s j => x2 (ix3 (0 : Fin 1) s j)
abbrev wF (w : (⟨S256x256, .f32⟩ : BufTy).Contents (Elt Ideal)) : Fin 256 → Fin 256 → EReal := fun e j => w (ix2 e j)

/-! ### The masks -/

/-- A signed comparison's bit, converted unsigned to a float, is one where it holds and zero where not. -/
theorem mask_bit (n : ℕ) (l : BitVec 32) :
    (FloatOps.uitofp (F := Ideal) .f32 (IntOp.cmpi .slt (BitVec.ofNat 32 n) l) : EReal) = Spec.mask n l := by
  unfold Spec.mask
  show (((BitVec.ofBool ((BitVec.ofNat 32 n).slt l)).toNat : ℝ) : EReal) = _
  cases (BitVec.ofNat 32 n).slt l
  · rw [if_neg (by decide)]
    show (((0 : ℕ) : ℝ) : EReal) = 0
    rw [Nat.cast_zero, EReal.coe_zero]
  · rw [if_pos rfl]
    show (((1 : ℕ) : ℝ) : EReal) = 1
    rw [Nat.cast_one, EReal.coe_one]

/-- The key mask. -/
theorem v10_apply (b : Fin 32) (n : Fin 2048) :
    val_main_v10 (F := Ideal) x1 (ix2 b n) = Spec.mask n.val (lenF x1 b) := by
  rw [val_main_v10_apply, val_main_v9_apply, val_main_v7_apply, val_main_v5_apply, val_main_v4_apply,
    val_main_v8_apply, val_main_v6_apply]
  have e : idx_main_v6 (idx_main_v8 (ix2 b n)) = ix1 b := funext fun a => Fin.ext (by
    match a with
    | ⟨0, _⟩ => rfl)
  rw [e]
  exact mask_bit n.val (x1 (ix1 b))

/-- The seed-row mask. -/
theorem v33_apply (b : Fin 32) (s : Fin 32) :
    val_main_v33 (F := Ideal) x1 (ix2 b s) = Spec.mask s.val (lenF x1 b) := by
  rw [val_main_v33_apply, val_main_v32_apply, val_main_v30_apply, val_main_v28_apply, val_main_v27_apply,
    val_main_v31_apply, val_main_v29_apply]
  have e : idx_main_v29 (idx_main_v31 (ix2 b s)) = ix1 b := funext fun a => Fin.ext (by
    match a with
    | ⟨0, _⟩ => rfl)
  rw [e]
  exact mask_bit s.val (x1 (ix1 b))

/-! ### The reshape's index arithmetic: `[…, 8, 32]` index `(…, h, d)` is column `32 h + d` -/

theorem idx17_ix (b s : Fin 32) (h : Fin 8) (d : Fin 32) :
    idx_main_v17 (ix4 b s h d) = ix3 b s (Spec.col h d) := funext fun a => Fin.ext (by
  have hb := b.isLt; have hs := s.isLt; have hh := h.isLt; have hd := d.isLt
  match a with
  | ⟨0, _⟩ => show (((b.val * 32 + s.val) * 8 + h.val) * 32 + d.val) / 8192 = b.val; omega
  | ⟨1, _⟩ => show (((b.val * 32 + s.val) * 8 + h.val) * 32 + d.val) / 256 % 32 = s.val; omega
  | ⟨2, _⟩ => show (((b.val * 32 + s.val) * 8 + h.val) * 32 + d.val) % 256 = 32 * h.val + d.val; omega)

theorem idx18_ix (b : Fin 32) (h : Fin 8) (s d : Fin 32) :
    idx_main_v18 (ix4 b h s d) = ix4 b s h d := funext fun a => Fin.ext (by
  match a with
  | ⟨0, _⟩ => rfl
  | ⟨1, _⟩ => rfl
  | ⟨2, _⟩ => rfl
  | ⟨3, _⟩ => rfl)

theorem lidx1_ix (b s : Fin 32) (e k : Fin 256) : lidx_main_v1 (ix3 b s e) k = ix3 b s k :=
  funext fun a => Fin.ext (by
  match a with
  | ⟨0, _⟩ => rfl
  | ⟨1, _⟩ => rfl
  | ⟨2, _⟩ => rfl)

theorem ridx1_ix (b s : Fin 32) (e k : Fin 256) : ridx_main_v1 (ix3 b s e) k = ix2 e k :=
  funext fun a => Fin.ext (by
  match a with
  | ⟨0, _⟩ => rfl
  | ⟨1, _⟩ => rfl)

theorem idx0_ix (b s : Fin 32) (k : Fin 256) : idx_main_v0 (ix3 b s k) = ix3 (0 : Fin 1) s k :=
  funext fun a => Fin.ext (by
  match a with
  | ⟨0, _⟩ => rfl
  | ⟨1, _⟩ => rfl
  | ⟨2, _⟩ => rfl)

/-- The seeds' projection, heads first. -/
theorem v18_apply (b : Fin 32) (h : Fin 8) (s d : Fin 32) :
    val_main_v18 (F := Ideal) x2 x3 (ix4 b h s d) = Spec.projQ (sF x2) (wF x3) s (Spec.col h d) := by
  rw [val_main_v18_apply, idx18_ix, val_main_v17_apply, idx17_ix, val_main_v1_apply]
  unfold Spec.projQ
  refine Finset.sum_congr rfl fun k _ => ?_
  rw [lidx1_ix, ridx1_ix, val_main_v0_apply, idx0_ix]

/-! ### The masked input projections -/

theorem idx19_ix (b : Fin 32) (n : Fin 2048) (h : Fin 8) (d : Fin 32) :
    idx_main_v19 (ix4 b n h d) = ix3 b n (Spec.col h d) := funext fun a => Fin.ext (by
  have hb := b.isLt; have hn := n.isLt; have hh := h.isLt; have hd := d.isLt
  match a with
  | ⟨0, _⟩ => show (((b.val * 2048 + n.val) * 8 + h.val) * 32 + d.val) / 524288 = b.val; omega
  | ⟨1, _⟩ => show (((b.val * 2048 + n.val) * 8 + h.val) * 32 + d.val) / 256 % 2048 = n.val; omega
  | ⟨2, _⟩ => show (((b.val * 2048 + n.val) * 8 + h.val) * 32 + d.val) % 256 = 32 * h.val + d.val; omega)

theorem idx21_ix (b : Fin 32) (n : Fin 2048) (h : Fin 8) (d : Fin 32) :
    idx_main_v21 (ix4 b n h d) = ix3 b n (Spec.col h d) := idx19_ix b n h d

theorem idx20_ix (b : Fin 32) (h : Fin 8) (n : Fin 2048) (d : Fin 32) :
    idx_main_v20 (ix4 b h n d) = ix4 b n h d := funext fun a => Fin.ext (by
  match a with
  | ⟨0, _⟩ => rfl
  | ⟨1, _⟩ => rfl
  | ⟨2, _⟩ => rfl
  | ⟨3, _⟩ => rfl)

theorem idx22_ix (b : Fin 32) (h : Fin 8) (n : Fin 2048) (d : Fin 32) :
    idx_main_v22 (ix4 b h n d) = ix4 b n h d := idx20_ix b h n d

theorem lidx2_ix (b : Fin 32) (n : Fin 2048) (e k : Fin 256) : lidx_main_v2 (ix3 b n e) k = ix3 b n k :=
  funext fun a => Fin.ext (by
  match a with
  | ⟨0, _⟩ => rfl
  | ⟨1, _⟩ => rfl
  | ⟨2, _⟩ => rfl)

theorem ridx2_ix (b : Fin 32) (n : Fin 2048) (e k : Fin 256) : ridx_main_v2 (ix3 b n e) k = ix2 e k :=
  funext fun a => Fin.ext (by
  match a with
  | ⟨0, _⟩ => rfl
  | ⟨1, _⟩ => rfl)

theorem lidx3_ix (b : Fin 32) (n : Fin 2048) (e k : Fin 256) : lidx_main_v3 (ix3 b n e) k = ix3 b n k :=
  lidx2_ix b n e k

theorem ridx3_ix (b : Fin 32) (n : Fin 2048) (e k : Fin 256) : ridx_main_v3 (ix3 b n e) k = ix2 e k :=
  ridx2_ix b n e k

theorem idx11_12_ix (b : Fin 32) (n : Fin 2048) (e : Fin 256) :
    idx_main_v11 (idx_main_v12 (ix3 b n e)) = ix2 b n := funext fun a => Fin.ext (by
  match a with
  | ⟨0, _⟩ => rfl
  | ⟨1, _⟩ => rfl)

theorem idx14_15_ix (b : Fin 32) (n : Fin 2048) (e : Fin 256) :
    idx_main_v14 (idx_main_v15 (ix3 b n e)) = ix2 b n := idx11_12_ix b n e

/-- The key mask, broadcast along the columns. -/
theorem v12_ix (b : Fin 32) (n : Fin 2048) (e : Fin 256) :
    val_main_v12 (F := Ideal) x1 (ix3 b n e) = Spec.mask n.val (lenF x1 b) := by
  rw [val_main_v12_apply, val_main_v11_apply, idx11_12_ix, v10_apply]

theorem v15_ix (b : Fin 32) (n : Fin 2048) (e : Fin 256) :
    val_main_v15 (F := Ideal) x1 (ix3 b n e) = Spec.mask n.val (lenF x1 b) := by
  rw [val_main_v15_apply, val_main_v14_apply, idx14_15_ix, v10_apply]

/-- The masked keys, heads first. -/
theorem v20_apply (b : Fin 32) (h : Fin 8) (n : Fin 2048) (d : Fin 32) :
    val_main_v20 (F := Ideal) x0 x1 x4 (ix4 b h n d) = Spec.projK (xF x0) (lenF x1) (wF x4) b n (Spec.col h d) := by
  rw [val_main_v20_apply, idx20_ix, val_main_v19_apply, idx19_ix, val_main_v13_apply, Ideal.mulf_def,
    v12_ix, val_main_v2_apply]
  unfold Spec.projK
  congr 1
  refine Finset.sum_congr rfl fun k _ => ?_
  rw [lidx2_ix, ridx2_ix]

/-- The masked values, heads first. -/
theorem v22_apply (b : Fin 32) (h : Fin 8) (n : Fin 2048) (d : Fin 32) :
    val_main_v22 (F := Ideal) x0 x1 x5 (ix4 b h n d) = Spec.projV (xF x0) (lenF x1) (wF x5) b n (Spec.col h d) := by
  rw [val_main_v22_apply, idx22_ix, val_main_v21_apply, idx21_ix, val_main_v16_apply, Ideal.mulf_def,
    v15_ix, val_main_v3_apply]
  unfold Spec.projV
  congr 1
  refine Finset.sum_congr rfl fun k _ => ?_
  rw [lidx3_ix, ridx3_ix]

end Cert.RefSpec

end
-- ==== Proof.RefOut.lean ====
/-
  The reference's first result, read at an index, is the specification.

  From the heads-first projections and the two masks upwards the reference forms the scaled scores, their
  exponentials masked by the seed-row and the key mask, the guarded row sum and the attention weights, each
  head's output (the seed's own projection plus the weighted values), lays the eight heads side by side into
  a row of width 256, and adds the rectified projection of that row before the last seed-row mask.  Read at
  explicit coordinates every stage is the specification's function of the same name.
-/
import proofs.«416182_j80152679678423_1_alg».proof.Proof.RefProj

noncomputable section

open scoped BigOperators

namespace Cert.RefSpec

open Cert.ReferenceIdeal Cert.ReferenceIdeal.Read Idealize.ShloMosaic Idealize.ShloMosaic.ValueIdx

variable (x0 : (⟨S32x2048x256, .f32⟩ : BufTy).Contents (Elt Ideal)) (x1 : (⟨S32, .i32⟩ : BufTy).Contents (Elt Ideal))
  (x2 : (⟨S1x32x256, .f32⟩ : BufTy).Contents (Elt Ideal)) (x3 x4 x5 x6 : (⟨S256x256, .f32⟩ : BufTy).Contents (Elt Ideal))

/-- The masked exponential of the scaled score. -/
theorem v39_apply (b : Fin 32) (h : Fin 8) (s : Fin 32) (n : Fin 2048) :
    val_main_v39 (F := Ideal) x0 x1 x2 x3 x4 (ix4 b h s n)
      = Spec.ex (Spec.projQ (sF x2) (wF x3)) (Spec.projK (xF x0) (lenF x1) (wF x4) b)
          (fun s => Spec.mask s.val (lenF x1 b)) (fun n => Spec.mask n.val (lenF x1 b)) h s n := by
  rw [val_main_v39_apply, val_main_v36_apply, val_main_v26_apply, val_main_v25_apply, val_main_v23_apply,
    val_main_v24_apply, val_main_cst_apply, val_main_v35_apply, val_main_v34_apply, val_main_v38_apply,
    val_main_v37_apply]
  have e1 : ∀ k : Fin 32, lidx_main_v23 (ix4 b h s n) k = ix4 b h s k := fun k => funext fun a => Fin.ext (by
    match a with | ⟨0, _⟩ => rfl | ⟨1, _⟩ => rfl | ⟨2, _⟩ => rfl | ⟨3, _⟩ => rfl)
  have e2 : ∀ k : Fin 32, ridx_main_v23 (ix4 b h s n) k = ix4 b h n k := fun k => funext fun a => Fin.ext (by
    match a with | ⟨0, _⟩ => rfl | ⟨1, _⟩ => rfl | ⟨2, _⟩ => rfl | ⟨3, _⟩ => rfl)
  have e3 : idx_main_v34 (idx_main_v35 (ix4 b h s n)) = ix2 b s := funext fun a => Fin.ext (by
    match a with | ⟨0, _⟩ => rfl | ⟨1, _⟩ => rfl)
  have e4 : idx_main_v37 (idx_main_v38 (ix4 b h s n)) = ix2 b n := funext fun a => Fin.ext (by
    match a with | ⟨0, _⟩ => rfl | ⟨1, _⟩ => rfl)
  simp only [e1, e2, e3, e4, v18_apply, v20_apply, v33_apply, v10_apply, Ideal.mulf_def, Ideal.hostUnary_exp_def,
    Ideal.ofBits_def]
  rfl

/-- The attention weight: the masked exponential over the guarded row sum. -/
theorem v45_apply (b : Fin 32) (h : Fin 8) (s : Fin 32) (n : Fin 2048) :
    val_main_v45 (F := Ideal) x0 x1 x2 x3 x4 (ix4 b h s n)
      = Spec.att (Spec.projQ (sF x2) (wF x3)) (Spec.projK (xF x0) (lenF x1) (wF x4) b)
          (fun s => Spec.mask s.val (lenF x1 b)) (fun n => Spec.mask n.val (lenF x1 b)) h s n := by
  rw [val_main_v45_apply, val_main_v44_apply, val_main_v43_apply, val_main_v41_apply, val_main_v40_apply,
    val_main_v42_apply, val_main_cst_1_apply, val_main_cst_0_apply]
  have e1 : ∀ k : Fin 2048, idx_main_v40 (idx_main_v41 (idx_main_v44 (ix4 b h s n))) k = ix4 b h s k :=
    fun k => funext fun a => Fin.ext (by
      match a with | ⟨0, _⟩ => rfl | ⟨1, _⟩ => rfl | ⟨2, _⟩ => rfl | ⟨3, _⟩ => rfl)
  simp only [e1, v39_apply, Ideal.hostDivf_def, Ideal.addf_def, Ideal.ofBits_def, Ideal.ofBits_zero_f32, zero_add]
  rfl

/-- One head's output: the seed's own projection plus the attention-weighted values. -/
theorem v47_apply (b : Fin 32) (h : Fin 8) (s d : Fin 32) :
    val_main_v47 (F := Ideal) x0 x1 x2 x3 x4 x5 (ix4 b h s d)
      = Spec.head (Spec.projQ (sF x2) (wF x3)) (Spec.projK (xF x0) (lenF x1) (wF x4) b)
          (Spec.projV (xF x0) (lenF x1) (wF x5) b)
          (fun s => Spec.mask s.val (lenF x1 b)) (fun n => Spec.mask n.val (lenF x1 b)) h s d := by
  rw [val_main_v47_apply, val_main_v46_apply]
  have e1 : ∀ k : Fin 2048, lidx_main_v46 (ix4 b h s d) k = ix4 b h s k := fun k => funext fun a => Fin.ext (by
    match a with | ⟨0, _⟩ => rfl | ⟨1, _⟩ => rfl | ⟨2, _⟩ => rfl | ⟨3, _⟩ => rfl)
  have e2 : ∀ k : Fin 2048, ridx_main_v46 (ix4 b h s d) k = ix4 b h k d := fun k => funext fun a => Fin.ext (by
    match a with | ⟨0, _⟩ => rfl | ⟨1, _⟩ => rfl | ⟨2, _⟩ => rfl | ⟨3, _⟩ => rfl)
  simp only [e1, e2, v45_apply, v22_apply, v18_apply, Ideal.addf_def]
  rfl

/-- The heads side by side: column `e` of the merged row is coordinate `e % 32` of head `e / 32`. -/
theorem v49_apply (b s : Fin 32) (e : Fin 256) :
    val_main_v49 (F := Ideal) x0 x1 x2 x3 x4 x5 (ix3 b s e)
      = Spec.merged (Spec.projQ (sF x2) (wF x3)) (Spec.projK (xF x0) (lenF x1) (wF x4) b)
          (Spec.projV (xF x0) (lenF x1) (wF x5) b)
          (fun s => Spec.mask s.val (lenF x1 b)) (fun n => Spec.mask n.val (lenF x1 b)) s e := by
  rw [val_main_v49_apply, val_main_v48_apply]
  have hb : b.val < 32 := b.isLt
  have hs : s.val < 32 := s.isLt
  have he : e.val < 256 := e.isLt
  have e1 : idx_main_v48 (idx_main_v49 (ix3 b s e)) = ix4 b (Spec.headOf e) s (Spec.coordOf e) :=
    funext fun a => Fin.ext (by
      match a with
      | ⟨0, _⟩ => show ((b.val * 32 + s.val) * 256 + e.val) / 8192 = b.val; omega
      | ⟨1, _⟩ => show ((b.val * 32 + s.val) * 256 + e.val) / 32 % 8 = e.val / 32; omega
      | ⟨2, _⟩ => show ((b.val * 32 + s.val) * 256 + e.val) / 256 % 32 = s.val; omega
      | ⟨3, _⟩ => show ((b.val * 32 + s.val) * 256 + e.val) % 32 = e.val % 32; omega)
  rw [e1, v47_apply]
  rfl

/-- The reference's first result at batch `b`, seed row `s`, column `e` is the specification. -/
theorem v55_apply (x0 : (⟨S32x2048x256, .f32⟩ : BufTy).Contents (Elt Ideal)) (x1 : (⟨S32, .i32⟩ : BufTy).Contents (Elt Ideal))
    (x2 : (⟨S1x32x256, .f32⟩ : BufTy).Contents (Elt Ideal)) (x3 x4 x5 x6 : (⟨S256x256, .f32⟩ : BufTy).Contents (Elt Ideal))
    (b s : Fin 32) (e : Fin 256) :
    val_main_v55 (F := Ideal) x0 x1 x2 x3 x4 x5 x6 (ix3 b s e)
      = Spec.out (xF x0) (lenF x1) (sF x2) (wF x3) (wF x4) (wF x5) (wF x6) b s e := by
  rw [val_main_v55_apply, val_main_v52_apply, val_main_v51_apply, val_main_v50_apply, val_main_call0_v0_apply,
    val_main_call0_cst_apply, val_main_v54_apply, val_main_v53_apply]
  have e1 : ∀ k : Fin 256, lidx_main_v50 (ix3 b s e) k = ix3 b s k := fun k => funext fun a => Fin.ext (by
    match a with | ⟨0, _⟩ => rfl | ⟨1, _⟩ => rfl | ⟨2, _⟩ => rfl)
  have e2 : ∀ k : Fin 256, ridx_main_v50 (ix3 b s e) k = ix2 e k := fun k => funext fun a => Fin.ext (by
    match a with | ⟨0, _⟩ => rfl | ⟨1, _⟩ => rfl)
  have e3 : idx_main_v53 (idx_main_v54 (ix3 b s e)) = ix2 b s := funext fun a => Fin.ext (by
    match a with | ⟨0, _⟩ => rfl | ⟨1, _⟩ => rfl)
  simp only [e1, e2, e3, v49_apply, v33_apply, Ideal.mulf_def, Ideal.addf_def, Ideal.maximumf_def, Ideal.ofBits_def,
    Ideal.ofBits_zero_f32]
  rfl

end Cert.RefSpec

end
-- ==== Proof.lean ====
/-
  A pooling-attention layer with length masks, as one pipelined kernel against its plain reference.

  For each of 32 batch elements, 32 seed rows attend over 2048 input rows through eight heads of width 32;
  keys, values and the softmax are masked by the element's length, the heads are merged, and the result is
  `(O + max (O Woᵀ) 0)` gated by the seed-row mask.  The kernel handles one batch element per grid point: it
  reads the element's length from a table held in scalar memory, projects the element's rows, computes the
  eight heads into a scratch buffer and writes the gated block back; the weight matrices are transposed on the
  host beforehand and the lengths are clamped at 32 afterwards.  The reference computes the same layer over
  whole arrays with heads-first re-layouts.

  The three frames: the kernel program's run is its launch theorem (host operations, the pipelined region with
  the table in the body's invariant, host operations), at the word-level and at the ideal instance from one
  text; the reference's is its run read back.  No operation was rewritten by the idealization, so there is
  nothing to preserve.  The algebraic conjunct: at the ideal instance both results are the specification's
  `out` of the seven argument arrays, index by index — the kernel's through the value of one grid point's
  block (the eight head payloads, the projections and the masks read at an index) and the tiling of the output
  by the 32 blocks, the reference's through its operations read one at a time — and the clamped lengths are the
  same host term on both sides.  No law beyond reindexing finite sums is used, so the precondition is not opened.
-/
import proofs.«416182_j80152679678423_1_alg».proof.Defs
import proofs.«416182_j80152679678423_1_alg».proof.Proof.Gen.Kernel
import proofs.«416182_j80152679678423_1_alg».proof.Proof.Gen.KernelIdeal
import proofs.«416182_j80152679678423_1_alg».proof.Proof.Gen.ReferenceIdeal
import proofs.«416182_j80152679678423_1_alg».proof.Proof.Gen.ReferenceIdeal.Run
import proofs.«416182_j80152679678423_1_alg».proof.Proof.Gen.ReferenceIdeal.Read
import proofs.«416182_j80152679678423_1_alg».proof.Proof.Gen.Pre_finite_inputs
import proofs.«416182_j80152679678423_1_alg».proof.Proof.KB.Launch
import proofs.«416182_j80152679678423_1_alg».proof.Proof.KI.Launch
import proofs.«416182_j80152679678423_1_alg».proof.Proof.KI.ArrayValue
import proofs.«416182_j80152679678423_1_alg».proof.Proof.KI.Witness
import proofs.«416182_j80152679678423_1_alg».proof.Proof.RefOut
import Idealize.ShloMosaic.Adequacy
import Idealize.ShloMosaic.Init

noncomputable section

namespace Cert.Proof

open Idealize.ShloMosaic Idealize.SL.Sem Idealize.ShloMosaic.ValueIdx

/-- The word-level kernel program runs and leaves its seven arguments as they were: the input and the seeds are
    windows' arrays no point writes back, the table and the four weight matrices ride past the region. -/
theorem frame_kernel : Cert.frame_Kernel := fun m ρ _ =>
  (θ_run Cert.Kernel.defs _ _).mono
    (fun _ h c => ⟨((h c).1 0).trans (((Cert.Kernel.Hand.dats m 0 c).arrAt_in 0 rfl _).trans (Cert.Kernel.Hand.V_arg0 m c)),
      (h c).2.2.1,
      ((h c).1 5).trans (((Cert.Kernel.Hand.dats m 0 c).arrAt_in 5 rfl _).trans (Cert.Kernel.Hand.V_arg2 m c)),
      (h c).2.2.2.1, (h c).2.2.2.2.1, (h c).2.2.2.2.2.1, (h c).2.2.2.2.2.2⟩)
    (Cert.Kernel.Hand.run_main (F := Bits) m ρ)

/-- The same, read at the extended reals. -/
theorem frame_kernelIdeal : Cert.frame_KernelIdeal := fun m ρ _ =>
  (θ_run Cert.KernelIdeal.defs _ _).mono
    (fun _ h c => ⟨((h c).1 0).trans (((Cert.KernelIdeal.Hand.dats m 0 c).arrAt_in 0 rfl _).trans (Cert.KernelIdeal.Hand.V_arg0 m c)),
      (h c).2.2.1,
      ((h c).1 5).trans (((Cert.KernelIdeal.Hand.dats m 0 c).arrAt_in 5 rfl _).trans (Cert.KernelIdeal.Hand.V_arg2 m c)),
      (h c).2.2.2.1, (h c).2.2.2.2.1, (h c).2.2.2.2.2.1, (h c).2.2.2.2.2.2⟩)
    (Cert.KernelIdeal.Hand.run_main (F := Ideal) m ρ)

/-- The reference is host operations only: its run, with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- Both programs end with the layer's result of the arguments and with the lengths clamped at 32. -/
theorem algebraic : Cert.algebraic_KernelIdeal_ReferenceIdeal := by
  intro m ρ m' ρ' _ hagree
  refine ⟨fun c => (Cert.KernelIdeal.Hand.dats m 0 c).arrAt 6 (Cert.KernelIdeal.Hand.cfgA m).N,
    fun c => minsi (broadcastInDim Cert.KernelIdeal.S32 ![] Cert.KernelIdeal.Gen.bcast_S_S32 (constantI Cert.KernelIdeal.S_ 32 32#32))
      (m ((c.tc : Thread Cert.KernelIdeal.nD Cert.KernelIdeal.τ).loc Cert.KernelIdeal.main_arg1)), ?_, ?_⟩
  · exact (θ_run Cert.KernelIdeal.defs _ _).mono
      (fun _ h c => ⟨(h c).1 6, (h c).2.1,
        ((h c).1 0).trans (((Cert.KernelIdeal.Hand.dats m 0 c).arrAt_in 0 rfl _).trans (Cert.KernelIdeal.Hand.V_arg0 m c)),
        (h c).2.2.1,
        ((h c).1 5).trans (((Cert.KernelIdeal.Hand.dats m 0 c).arrAt_in 5 rfl _).trans (Cert.KernelIdeal.Hand.V_arg2 m c)),
        (h c).2.2.2.1, (h c).2.2.2.2.1, (h c).2.2.2.2.2.1, (h c).2.2.2.2.2.2⟩)
      (Cert.KernelIdeal.Hand.run_main (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    · have hk : (Cert.KernelIdeal.Hand.dats m 0 c).arrAt 6 (Cert.KernelIdeal.Hand.cfgA m).N = Cert.KernelIdeal.ArrayValue.G m c :=
        Cert.KernelIdeal.ArrayValue.out_array m c (Cert.KernelIdeal.Witness.blockLevel m c)
      have hr : Cert.ReferenceIdeal.Read.val_main_v55 (F := Ideal)
            (m' ((c.tc : Thread Cert.ReferenceIdeal.nD Cert.ReferenceIdeal.τ).loc Cert.ReferenceIdeal.main_arg0))
            (m' ((c.tc : Thread Cert.ReferenceIdeal.nD Cert.ReferenceIdeal.τ).loc Cert.ReferenceIdeal.main_arg1))
            (m' ((c.tc : Thread Cert.ReferenceIdeal.nD Cert.ReferenceIdeal.τ).loc Cert.ReferenceIdeal.main_arg2))
            (m' ((c.tc : Thread Cert.ReferenceIdeal.nD Cert.ReferenceIdeal.τ).loc Cert.ReferenceIdeal.main_arg3))
            (m' ((c.tc : Thread Cert.ReferenceIdeal.nD Cert.ReferenceIdeal.τ).loc Cert.ReferenceIdeal.main_arg4))
            (m' ((c.tc : Thread Cert.ReferenceIdeal.nD Cert.ReferenceIdeal.τ).loc Cert.ReferenceIdeal.main_arg5))
            (m' ((c.tc : Thread Cert.ReferenceIdeal.nD Cert.ReferenceIdeal.τ).loc Cert.ReferenceIdeal.main_arg6))
          = Cert.KernelIdeal.ArrayValue.G m c := by
        rw [(hagree c).1, (hagree c).2.1, (hagree c).2.2.1, (hagree c).2.2.2.1, (hagree c).2.2.2.2.1, (hagree c).2.2.2.2.2.1,
          (hagree c).2.2.2.2.2.2]
        funext i
        obtain ⟨b, s, e, rfl⟩ : ∃ (b : Fin 32) (s : Fin 32) (e : Fin 256), i = ix3 b s e := ⟨i 0, i 1, i 2, eq_ix3 i⟩
        exact Cert.RefSpec.v55_apply _ _ _ _ _ _ _ b s e
      exact ((Cert.ReferenceIdeal.Read.val_main_v55_eq m' c).trans hr).trans hk.symm
    · rw [(hagree c).2.1]

end Cert.Proof

/-- The certificate's claim: the programs' stated facts, the three frames, nothing to preserve, and the two
    idealized programs equal on the layer's result and on the clamped lengths. -/
theorem Cert.Proof.claim : Cert.Claim :=
  ⟨Cert.Kernel.Gen.facts, Cert.KernelIdeal.Gen.facts, Cert.ReferenceIdeal.Gen.facts, Cert.Pre_finite_inputs.Gen.facts,
    Cert.Proof.frame_kernel, Cert.Proof.frame_kernelIdeal, Cert.Proof.frame_reference, Cert.Proof.preserves, Cert.Proof.algebraic⟩

end
